-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x800000 : Shape := ⟨2, ![2, 800000]⟩
abbrev S100000 : Shape := ⟨1, ![100000]⟩
abbrev S1x128 : Shape := ⟨2, ![1, 128]⟩
abbrev S128 : Shape := ⟨1, ![128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg9 : FVec F S256x512 .f32) (main_arg10 : FVec F S512 .f32) (main_arg11 : FVec F S256x512 .f32) (main_v33 : IVec S_ 1) : IVec S_ 1 :=
  let main_v34 : FVec F S256x512 .f32 := Host.absf main_arg9
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S512 .f32 := Host.absf main_arg10
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S256x512 .f32 := Host.absf main_arg11
  let main_cst_16 : FVec F S_ .f32 := constant S_ .f32 0x7F800000#32
  let main_v45 : FVec F S256x512 .f32 := broadcastInDim S256x512 ![] bcast_S_S256x512 main_cst_16
  let main_v46 : IVec S256x512 1 := cmpf .olt main_v44 main_v45
  let main_c_17 : IVec S_ 1 := constantI S_ 1 1#1
  let main_v47 : IVec S_ 1 := (fun x v => Host.reduce IntOp.andi x v reducesTo_S256x512_S_d0_1 h_S_) main_v46 main_c_17
  let main_v48 : IVec S_ 1 := andi main_v43 main_v47
  main_v48

def fn_part1 {F : FTy → Type} [FloatOps F] (main_arg6 : FVec F S128x256 .f32) (main_arg7 : FVec F S256 .f32) (main_arg8 : FVec F S128x256 .f32) (main_arg9 : FVec F S256x512 .f32) (main_arg10 : FVec F S512 .f32) (main_arg11 : FVec F S256x512 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S128x256 .f32 := Host.absf main_arg6
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S128x256 .f32 := Host.absf main_arg8
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x1 .f32) (main_arg1 : IVec S2x800000 32) (main_arg2 : IVec S100000 32) (main_arg3 : FVec F S1x128 .f32) (main_arg4 : FVec F S128 .f32) (main_arg5 : FVec F S1x128 .f32) (main_arg6 : FVec F S128x256 .f32) (main_arg7 : FVec F S256 .f32) (main_arg8 : FVec F S128x256 .f32) (main_arg9 : FVec F S256x512 .f32) (main_arg10 : FVec F S512 .f32) (main_arg11 : FVec F S256x512 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x128 .f32 := Host.absf main_arg3
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1x128 .f32 := Host.absf main_arg5
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg6 main_arg7 main_arg8 main_arg9 main_arg10 main_arg11 main_v13 main_v16
-- ==== Kernel.lean ====
abbrev S100000x1 : Shape := ⟨2, ![100000, 1]⟩
abbrev S2x800000 : Shape := ⟨2, ![2, 800000]⟩
abbrev S100000 : Shape := ⟨1, ![100000]⟩
abbrev S1x128 : Shape := ⟨2, ![1, 128]⟩
abbrev S128 : Shape := ⟨1, ![128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S100000x128 : Shape := ⟨2, ![100000, 128]⟩
abbrev S2000x1 : Shape := ⟨2, ![2000, 1]⟩
abbrev S2000x128 : Shape := ⟨2, ![2000, 128]⟩
abbrev S800000x128 : Shape := ⟨2, ![800000, 128]⟩
abbrev S1x256 : Shape := ⟨2, ![1, 256]⟩
abbrev S100000x256 : Shape := ⟨2, ![100000, 256]⟩
abbrev S2000x256 : Shape := ⟨2, ![2000, 256]⟩
abbrev S800000x256 : Shape := ⟨2, ![800000, 256]⟩
abbrev S1x512 : Shape := ⟨2, ![1, 512]⟩
abbrev S64 : Shape := ⟨1, ![64]⟩
abbrev S1x64 : Shape := ⟨2, ![1, 64]⟩
abbrev S100000x64 : Shape := ⟨2, ![100000, 64]⟩
abbrev S64x512 : Shape := ⟨2, ![64, 512]⟩
abbrev S2000x64 : Shape := ⟨2, ![2000, 64]⟩
abbrev S2000x512 : Shape := ⟨2, ![2000, 512]⟩
abbrev S64x2000 : Shape := ⟨2, ![64, 2000]⟩
abbrev S64x1 : Shape := ⟨2, ![64, 1]⟩

abbrev nBuf : Space → Nat
  | .hbm => 92
  | .vmem => 29
  | .smem => 0
  | _ => 0

abbrev bufTy : (tb : Table) → Fin (tcTables nBuf tb) → BufTy
  | .hbm, ⟨0, _⟩ => ⟨S100000x1, .f32⟩
  | .hbm, ⟨1, _⟩ => ⟨S2x800000, .i32⟩
  | .hbm, ⟨2, _⟩ => ⟨S100000, .i32⟩
  | .hbm, ⟨3, _⟩ => ⟨S1x128, .f32⟩
  | .hbm, ⟨4, _⟩ => ⟨S128, .f32⟩
  | .hbm, ⟨5, _⟩ => ⟨S1x128, .f32⟩
  | .hbm, ⟨6, _⟩ => ⟨S128x256, .f32⟩
  | .hbm, ⟨7, _⟩ => ⟨S256, .f32⟩
  | .hbm, ⟨8, _⟩ => ⟨S128x256, .f32⟩
  | .hbm, ⟨9, _⟩ => ⟨S256x512, .f32⟩
  | .hbm, ⟨10, _⟩ => ⟨S512, .f32⟩
  | .hbm, ⟨11, _⟩ => ⟨S256x512, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x1, .f32⟩
  | .hbm, ⟨25, _⟩ => ⟨S_, .f32⟩
  | .hbm, ⟨26, _⟩ => ⟨S100000x1, .f32⟩
  | .hbm, ⟨27, _⟩ => ⟨S800000x1, .i32⟩
  | .hbm, ⟨28, _⟩ => ⟨S100000x1, .f32⟩
  | .hbm, ⟨29, _⟩ => ⟨S1x128, .f32⟩
  | .hbm, ⟨30, _⟩ => ⟨S100000x128, .bf16⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .bf16⟩
  | .hbm, ⟨40, _⟩ => ⟨S800000x128, .f32⟩
  | .hbm, ⟨41, _⟩ => ⟨S_, .f32⟩
  | .hbm, ⟨42, _⟩ => ⟨S100000x128, .f32⟩
  | .hbm, ⟨43, _⟩ => ⟨S800000x1, .i32⟩
  | .hbm, ⟨44, _⟩ => ⟨S100000x128, .f32⟩
  | .hbm, ⟨45, _⟩ => ⟨S1x256, .f32⟩
  | .hbm, ⟨46, _⟩ => ⟨S100000x256, .bf16⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x256, .bf16⟩
  | .hbm, ⟨56, _⟩ => ⟨S800000x256, .f32⟩
  | .hbm, ⟨57, _⟩ => ⟨S_, .f32⟩
  | .hbm, ⟨58, _⟩ => ⟨S100000x256, .f32⟩
  | .hbm, ⟨59, _⟩ => ⟨S800000x1, .i32⟩
  | .hbm, ⟨60, _⟩ => ⟨S100000x256, .f32⟩
  | .hbm, ⟨61, _⟩ => ⟨S1x512, .f32⟩
  | .hbm, ⟨62, _⟩ => ⟨S64, .i32⟩
  | .hbm, ⟨63, _⟩ => ⟨S100000x1, .i32⟩
  | .hbm, ⟨64, _⟩ => ⟨S1x64, .i32⟩
  | .hbm, ⟨65, _⟩ => ⟨S100000x64, .i32⟩
  | .hbm, ⟨66, _⟩ => ⟨S100000x64, .i32⟩
  | .hbm, ⟨67, _⟩ => ⟨S100000x64, .i1⟩
  | .hbm, ⟨68, _⟩ => ⟨S100000x64, .bf16⟩
  | .hbm, ⟨69, _⟩ => ⟨S64x512, .f32⟩
  | .hbm, ⟨70, _⟩ => ⟨S_, .f32⟩
  | .hbm, ⟨71, _⟩ => ⟨S100000, .f32⟩
  | .hbm, ⟨72, _⟩ => ⟨S_, .f32⟩
  | .hbm, ⟨73, _⟩ => ⟨S64, .f32⟩
  | .hbm, ⟨74, _⟩ => ⟨S100000x1, .i32⟩
  | .hbm, ⟨75, _⟩ => ⟨S64, .f32⟩
  | .hbm, ⟨76, _⟩ => ⟨S_, .f32⟩
  | .hbm, ⟨77, _⟩ => ⟨S64, .f32⟩
  | .hbm, ⟨78, _⟩ => ⟨S64, .f32⟩
  | .hbm, ⟨79, _⟩ => ⟨S64x1, .f32⟩
  | .hbm, ⟨80, _⟩ => ⟨S64x512, .f32⟩
  | .hbm, ⟨81, _⟩ => ⟨S64x512, .f32⟩
  | .hbm, ⟨82, _⟩ => ⟨S64x512, .f32⟩
  | .hbm, ⟨83, _⟩ => ⟨S_, .f32⟩
  | .hbm, ⟨84, _⟩ => ⟨S64, .f32⟩
  | .hbm, ⟨85, _⟩ => ⟨S64x1, .f32⟩
  | .hbm, ⟨86, _⟩ => ⟨S64x1, .f32⟩
  | .hbm, ⟨87, _⟩ => ⟨S_, .f32⟩
  | .hbm, ⟨88, _⟩ => ⟨S64x1, .f32⟩
  | .hbm, ⟨89, _⟩ => ⟨S64x1, .f32⟩
  | .hbm, ⟨90, _⟩ => ⟨S64x512, .f32⟩
  | .hbm, ⟨91, _⟩ => ⟨S64x512, .f32⟩
  | .local _ .vmem, ⟨0, _⟩ => ⟨S2000x1, .f32⟩
  | .local _ .vmem, ⟨1, _⟩ => ⟨S2000x1, .f32⟩
  | .local _ .vmem, ⟨2, _⟩ => ⟨S2000x1, .f32⟩
  | .local _ .vmem, ⟨3, _⟩ => ⟨S2000x1, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S2000x128, .bf16⟩
  | .local _ .vmem, ⟨8, _⟩ => ⟨S2000x128, .bf16⟩
  | .local _ .vmem, ⟨9, _⟩ => ⟨S2000x128, .f32⟩
  | .local _ .vmem, ⟨10, _⟩ => ⟨S2000x128, .f32⟩
  | .local _ .vmem, ⟨11, _⟩ => ⟨S2000x128, .bf16⟩
  | .local _ .vmem, ⟨12, _⟩ => ⟨S2000x128, .bf16⟩
  | .local _ .vmem, ⟨13, _⟩ => ⟨S128x256, .f32⟩
  | .local _ .vmem, ⟨14, _⟩ => ⟨S128x256, .f32⟩
  | .local _ .vmem, ⟨15, _⟩ => ⟨S1x256, .f32⟩
  | .local _ .vmem, ⟨16, _⟩ => ⟨S2000x256, .bf16⟩
  | .local _ .vmem, ⟨17, _⟩ => ⟨S2000x256, .bf16⟩
  | .local _ .vmem, ⟨18, _⟩ => ⟨S2000x256, .f32⟩
  | .local _ .vmem, ⟨19, _⟩ => ⟨S2000x256, .f32⟩
  | .local _ .vmem, ⟨20, _⟩ => ⟨S2000x256, .bf16⟩
  | .local _ .vmem, ⟨21, _⟩ => ⟨S2000x256, .bf16⟩
  | .local _ .vmem, ⟨22, _⟩ => ⟨S256x512, .f32⟩
  | .local _ .vmem, ⟨23, _⟩ => ⟨S256x512, .f32⟩
  | .local _ .vmem, ⟨24, _⟩ => ⟨S1x512, .f32⟩
  | .local _ .vmem, ⟨25, _⟩ => ⟨S2000x64, .bf16⟩
  | .local _ .vmem, ⟨26, _⟩ => ⟨S2000x64, .bf16⟩
  | .local _ .vmem, ⟨27, _⟩ => ⟨S64x512, .f32⟩
  | .local _ .vmem, ⟨28, _⟩ => ⟨S64x512, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_1 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_cst_8 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_call0_v0 : Ref sig .tc := ⟨.hbm, 82, rfl⟩
abbrev main_call0_cst : Ref sig .tc := ⟨.hbm, 83, rfl⟩
abbrev main_call0_v1 : Ref sig .tc := ⟨.hbm, 84, rfl⟩
abbrev main_call0_v2 : Ref sig .tc := ⟨.hbm, 85, rfl⟩
abbrev main_v58 : Ref sig .tc := ⟨.hbm, 86, rfl⟩
abbrev main_cst_10 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc2_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc2_sem6_0 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def k2_cond2 (i : grid2.Coords) : BitVec 1 :=
  let arg0 : BitVec 32 := BitVec.ofNat 32 (i 0).val
  let c49_i32 : BitVec 32 := 49#32
  let v29 : BitVec 1 := Scalar.cmpi .eq arg0 c49_i32
  let v30 : BitVec 32 := Scalar.extui v29
  let c0_i32_18 : BitVec 32 := 0#32
  let v31 : BitVec 1 := Scalar.cmpi .ne v30 c0_i32_18
  v31

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S64x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x1 : S_.BroadcastsInDim S100000x1 (![] : Fin 0 → Fin S100000x1.rank)
  shapeCasts_S128_S1x128 : S128.ShapeCasts S1x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S_S100000x128 : S_.BroadcastsInDim S100000x128 (![] : Fin 0 → Fin S100000x128.rank)
  shapeCasts_S256_S1x256 : S256.ShapeCasts S1x256
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S100000x256 : S_.BroadcastsInDim S100000x256 (![] : Fin 0 → Fin S100000x256.rank)
  shapeCasts_S512_S1x512 : S512.ShapeCasts S1x512
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  inb_S64x512_S64x512_0_0 : ∀ a, (![0, 0] : Fin 2 → Nat) a + S64x512.size a ≤ S64x512.size a
  h_S64x512 : 0 < S64x512.numel
  shapeCasts_S64x512_S64x512 : S64x512.ShapeCasts S64x512
  shapeCasts_S2000x256_S2000x256 : S2000x256.ShapeCasts S2000x256
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  transposes_S2000x64_p1_0_S64x2000 : S2000x64.Transposes [1, 0] S64x2000
  bcast_S_S100000 : S_.BroadcastsInDim S100000 (![] : Fin 0 → Fin S100000.rank)
  bcast_S_S64 : S_.BroadcastsInDim S64 (![] : Fin 0 → Fin S64.rank)
  bcast_S64_S64x1_0 : S64.BroadcastsInDim S64x1 (![0] : Fin 1 → Fin S64x1.rank)
  bcast_S64x1_S64x512_0_1 : S64x1.BroadcastsInDim S64x512 (![0, 1] : Fin 2 → Fin S64x512.rank)
  reducesTo_S64x512_S64_d1 : S64x512.ReducesTo [1] S64
  h_S_ : 0 < S_.numel
  bcast_S_S64x1 : S_.BroadcastsInDim S64x1 (![] : Fin 0 → Fin S64x1.rank)
  gather_S100000x1_S800000x1_S800000x1_1_0_n_n_0_1_11_wf : GatherDims.WF S100000x1 S800000x1 S800000x1 [1] [0] [] [0] [] 1 ![1, 1]
  scatter_S100000x1_S800000x1_S800000x1_1_0_0_1_wf : ScatterDims.WF S100000x1 S800000x1 S800000x1 [1] [0] [0] 1
  dot_S2000x1_S1x128_S2000x128_1_0_0_1_n_n_wf : DotDims.WF S2000x1 S1x128 S2000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S2000x128_S128x256_S2000x256_1_0_0_1_n_n_wf : DotDims.WF S2000x128 S128x256 S2000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S2000x256_S256x512_S2000x512_1_0_0_1_n_n_wf : DotDims.WF S2000x256 S256x512 S2000x512 [1] [0] [0] [1] [] []
  dot_S64x2000_S2000x512_S64x512_1_0_0_1_n_n_wf : DotDims.WF S64x2000 S2000x512 S64x512 [1] [0] [0] [1] [] []
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S100000x1.size a
  hwx0_0 : ∀ i : grid0.Coords, EltTy.bits .f32 = 32 ∨ (Rect.block (s := S100000x1) S2000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .bf16 = 32 ∨ (Rect.block (s := S100000x128) S2000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .bf16 = 32 ∨ (Rect.block (s := S100000x128) S2000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S100000x256.size a
  hwx1_5 : ∀ i : grid1.Coords, EltTy.bits .bf16 = 32 ∨ (Rect.block (s := S100000x256) S2000x256.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S100000x256.size a
  hwx2_1 : ∀ i : grid2.Coords, EltTy.bits .bf16 = 32 ∨ (Rect.block (s := S100000x256) S2000x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x512.size a ≤ S256x512.size a
  hwx2_2 : ∀ i : grid2.Coords, EltTy.bits .f32 = 32 ∨ (Rect.block (s := S256x512) S256x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x512.size a ≤ S256x512.size a
  hwx2_3 : ∀ i : grid2.Coords, EltTy.bits .f32 = 32 ∨ (Rect.block (s := S256x512) S256x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .bf16 = 32 ∨ (Rect.block (s := S100000x64) S2000x64.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x512.size a ≤ S64x512.size a
  hwx2_6 : ∀ i : grid2.Coords, EltTy.bits .f32 = 32 ∨ (Rect.block (s := S64x512) S64x512.size (cc2_transform_6 i) (hinb2_6 i)).WholeWords (EltTy.packing .f32)

variable [Facts₀]

def gather_S100000x1_S800000x1_S800000x1_1_0_n_n_0_1_11 : GatherDims S100000x1 S800000x1 S800000x1 where
  offsetDims := [1]
  collapsedSliceDims := [0]
  operandBatchingDims := []
  startIndicesBatchingDims := []
  startIndexMap := [0]
  indexVectorDim := 1
  sliceSizes := ![1, 1]
  wf := gather_S100000x1_S800000x1_S800000x1_1_0_n_n_0_1_11_wf
def scatter_S100000x1_S800000x1_S800000x1_1_0_0_1 : ScatterDims S100000x1 S800000x1 S800000x1 where
  updateWindowDims := [1]
  insertedWindowDims := [0]
  scatterDimsToOperandDims := [0]
  indexVectorDim := 1
  wf := scatter_S100000x1_S800000x1_S800000x1_1_0_0_1_wf
def dot_S2000x1_S1x128_S2000x128_1_0_0_1_n_n : DotDims S2000x1 S1x128 S2000x128 where
  lhsContracting := [1]
  rhsContracting := [0]
  lhsNonContracting := [0]
  rhsNonContracting := [1]
  lhsBatch := []
  rhsBatch := []
  wf := dot_S2000x1_S1x128_S2000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S64x2000_S2000x512_S64x512_1_0_0_1_n_n : DotDims S64x2000 S2000x512 S64x512 where
  lhsContracting := [1]
  rhsContracting := [0]
  lhsNonContracting := [0]
  rhsNonContracting := [1]
  lhsBatch := []
  rhsBatch := []
  wf := dot_S64x2000_S2000x512_S64x512_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_v13) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S256x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S256x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S2000x64.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v48) S64x512.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S100000x1 : Shape := ⟨2, ![100000, 1]⟩
abbrev S2x800000 : Shape := ⟨2, ![2, 800000]⟩
abbrev S100000 : Shape := ⟨1, ![100000]⟩
abbrev S1x128 : Shape := ⟨2, ![1, 128]⟩
abbrev S128 : Shape := ⟨1, ![128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S100000x128 : Shape := ⟨2, ![100000, 128]⟩
abbrev S800000x128 : Shape := ⟨2, ![800000, 128]⟩
abbrev S100000x256 : Shape := ⟨2, ![100000, 256]⟩
abbrev S1x256 : Shape := ⟨2, ![1, 256]⟩
abbrev S800000x256 : Shape := ⟨2, ![800000, 256]⟩
abbrev S100000x512 : Shape := ⟨2, ![100000, 512]⟩
abbrev S1x512 : Shape := ⟨2, ![1, 512]⟩
abbrev S64 : Shape := ⟨1, ![64]⟩
abbrev S64x512 : Shape := ⟨2, ![64, 512]⟩
abbrev S64x1 : Shape := ⟨2, ![64, 1]⟩

abbrev nBuf : Space → Nat
  | .hbm => 105
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S2x800000, .i32⟩
  | .hbm, ⟨2, _⟩ => ⟨S100000, .i32⟩
  | .hbm, ⟨3, _⟩ => ⟨S1x128, .f32⟩
  | .hbm, ⟨4, _⟩ => ⟨S128, .f32⟩
  | .hbm, ⟨5, _⟩ => ⟨S1x128, .f32⟩
  | .hbm, ⟨6, _⟩ => ⟨S128x256, .f32⟩
  | .hbm, ⟨7, _⟩ => ⟨S256, .f32⟩
  | .hbm, ⟨8, _⟩ => ⟨S128x256, .f32⟩
  | .hbm, ⟨9, _⟩ => ⟨S256x512, .f32⟩
  | .hbm, ⟨10, _⟩ => ⟨S512, .f32⟩
  | .hbm, ⟨11, _⟩ => ⟨S256x512, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x1, .f32⟩
  | .hbm, ⟨25, _⟩ => ⟨S_, .f32⟩
  | .hbm, ⟨26, _⟩ => ⟨S100000x1, .f32⟩
  | .hbm, ⟨27, _⟩ => ⟨S800000x1, .i32⟩
  | .hbm, ⟨28, _⟩ => ⟨S100000x1, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S_, .f32⟩
  | .hbm, ⟨36, _⟩ => ⟨S100000x128, .f32⟩
  | .hbm, ⟨37, _⟩ => ⟨S100000x128, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S_, .f32⟩
  | .hbm, ⟨48, _⟩ => ⟨S100000x128, .f32⟩
  | .hbm, ⟨49, _⟩ => ⟨S800000x1, .i32⟩
  | .hbm, ⟨50, _⟩ => ⟨S100000x128, .f32⟩
  | .hbm, ⟨51, _⟩ => ⟨S100000x256, .f32⟩
  | .hbm, ⟨52, _⟩ => ⟨S1x256, .f32⟩
  | .hbm, ⟨53, _⟩ => ⟨S100000x256, .f32⟩
  | .hbm, ⟨54, _⟩ => ⟨S100000x256, .f32⟩
  | .hbm, ⟨55, _⟩ => ⟨S100000x256, .f32⟩
  | .hbm, ⟨56, _⟩ => ⟨S100000x256, .f32⟩
  | .hbm, ⟨57, _⟩ => ⟨S_, .f32⟩
  | .hbm, ⟨58, _⟩ => ⟨S100000x256, .f32⟩
  | .hbm, ⟨59, _⟩ => ⟨S100000x256, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x256, .f32⟩
  | .hbm, ⟨69, _⟩ => ⟨S_, .f32⟩
  | .hbm, ⟨70, _⟩ => ⟨S100000x256, .f32⟩
  | .hbm, ⟨71, _⟩ => ⟨S800000x1, .i32⟩
  | .hbm, ⟨72, _⟩ => ⟨S100000x256, .f32⟩
  | .hbm, ⟨73, _⟩ => ⟨S100000x512, .f32⟩
  | .hbm, ⟨74, _⟩ => ⟨S1x512, .f32⟩
  | .hbm, ⟨75, _⟩ => ⟨S100000x512, .f32⟩
  | .hbm, ⟨76, _⟩ => ⟨S100000x512, .f32⟩
  | .hbm, ⟨77, _⟩ => ⟨S100000x512, .f32⟩
  | .hbm, ⟨78, _⟩ => ⟨S100000x512, .f32⟩
  | .hbm, ⟨79, _⟩ => ⟨S_, .f32⟩
  | .hbm, ⟨80, _⟩ => ⟨S100000, .f32⟩
  | .hbm, ⟨81, _⟩ => ⟨S_, .f32⟩
  | .hbm, ⟨82, _⟩ => ⟨S64, .f32⟩
  | .hbm, ⟨83, _⟩ => ⟨S100000x1, .i32⟩
  | .hbm, ⟨84, _⟩ => ⟨S64, .f32⟩
  | .hbm, ⟨85, _⟩ => ⟨S_, .f32⟩
  | .hbm, ⟨86, _⟩ => ⟨S64x512, .f32⟩
  | .hbm, ⟨87, _⟩ => ⟨S100000x1, .i32⟩
  | .hbm, ⟨88, _⟩ => ⟨S64x512, .f32⟩
  | .hbm, ⟨89, _⟩ => ⟨S_, .f32⟩
  | .hbm, ⟨90, _⟩ => ⟨S64, .f32⟩
  | .hbm, ⟨91, _⟩ => ⟨S64, .f32⟩
  | .hbm, ⟨92, _⟩ => ⟨S64x1, .f32⟩
  | .hbm, ⟨93, _⟩ => ⟨S64x512, .f32⟩
  | .hbm, ⟨94, _⟩ => ⟨S64x512, .f32⟩
  | .hbm, ⟨95, _⟩ => ⟨S64x512, .f32⟩
  | .hbm, ⟨96, _⟩ => ⟨S_, .f32⟩
  | .hbm, ⟨97, _⟩ => ⟨S64, .f32⟩
  | .hbm, ⟨98, _⟩ => ⟨S64x1, .f32⟩
  | .hbm, ⟨99, _⟩ => ⟨S64x1, .f32⟩
  | .hbm, ⟨100, _⟩ => ⟨S_, .f32⟩
  | .hbm, ⟨101, _⟩ => ⟨S64x1, .f32⟩
  | .hbm, ⟨102, _⟩ => ⟨S64x1, .f32⟩
  | .hbm, ⟨103, _⟩ => ⟨S64x512, .f32⟩
  | .hbm, ⟨104, _⟩ => ⟨S64x512, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call0_cst : Ref sig .tc := ⟨.hbm, 35, rfl⟩
abbrev main_call0_v0 : Ref sig .tc := ⟨.hbm, 36, rfl⟩
abbrev main_v20 : Ref sig .tc := ⟨.hbm, 37, rfl⟩
abbrev main_c_1 : Ref sig .tc := ⟨.hbm, 38, rfl⟩
abbrev main_v21 : Ref sig .tc := ⟨.hbm, 39, rfl⟩
abbrev main_v22 : Ref sig .tc := ⟨.hbm, 40, rfl⟩
abbrev main_c_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call1_cst : Ref sig .tc := ⟨.hbm, 57, rfl⟩
abbrev main_call1_v0 : Ref sig .tc := ⟨.hbm, 58, rfl⟩
abbrev main_v37 : Ref sig .tc := ⟨.hbm, 59, rfl⟩
abbrev main_c_4 : Ref sig .tc := ⟨.hbm, 60, rfl⟩
abbrev main_v38 : Ref sig .tc := ⟨.hbm, 61, rfl⟩
abbrev main_v39 : Ref sig .tc := ⟨.hbm, 62, rfl⟩
abbrev main_c_5 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_6 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_7 : Ref sig .tc := ⟨.hbm, 79, rfl⟩
abbrev main_v54 : Ref sig .tc := ⟨.hbm, 80, rfl⟩
abbrev main_cst_8 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_9 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_10 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_call2_v0 : Ref sig .tc := ⟨.hbm, 95, rfl⟩
abbrev main_call2_cst : Ref sig .tc := ⟨.hbm, 96, rfl⟩
abbrev main_call2_v1 : Ref sig .tc := ⟨.hbm, 97, rfl⟩
abbrev main_call2_v2 : Ref sig .tc := ⟨.hbm, 98, rfl⟩
abbrev main_v66 : Ref sig .tc := ⟨.hbm, 99, rfl⟩
abbrev main_cst_11 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x1 : S_.BroadcastsInDim S100000x1 (![] : Fin 0 → Fin S100000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000 : S_.BroadcastsInDim S100000 (![] : Fin 0 → Fin S100000.rank)
  bcast_S_S64 : S_.BroadcastsInDim S64 (![] : Fin 0 → Fin S64.rank)
  bcast_S100000_S100000x1_0 : S100000.BroadcastsInDim S100000x1 (![0] : Fin 1 → Fin S100000x1.rank)
  bcast_S_S64x512 : S_.BroadcastsInDim S64x512 (![] : Fin 0 → Fin S64x512.rank)
  bcast_S64_S64x1_0 : S64.BroadcastsInDim S64x1 (![0] : Fin 1 → Fin S64x1.rank)
  bcast_S64x1_S64x512_0_1 : S64x1.BroadcastsInDim S64x512 (![0, 1] : Fin 2 → Fin S64x512.rank)
  reducesTo_S64x512_S64_d1 : S64x512.ReducesTo [1] S64
  h_S_ : 0 < S_.numel
  bcast_S_S64x1 : S_.BroadcastsInDim S64x1 (![] : Fin 0 → Fin S64x1.rank)
  gather_S100000x1_S800000x1_S800000x1_1_0_n_n_0_1_11_wf : GatherDims.WF S100000x1 S800000x1 S800000x1 [1] [0] [] [0] [] 1 ![1, 1]
  scatter_S100000x1_S800000x1_S800000x1_1_0_0_1_wf : ScatterDims.WF S100000x1 S800000x1 S800000x1 [1] [0] [0] 1
  dot_S100000x1_S1x128_S100000x128_1_0_0_1_n_n_wf : DotDims.WF S100000x1 S1x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x256_S100000x256_1_0_0_1_n_n_wf : DotDims.WF S100000x128 S128x256 S100000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S100000x256_S256x512_S100000x512_1_0_0_1_n_n_wf : DotDims.WF S100000x256 S256x512 S100000x512 [1] [0] [0] [1] [] []
  scatter_S64_S100000x1_S100000_n_0_0_1_wf : ScatterDims.WF S64 S100000x1 S100000 [] [0] [0] 1
  scatter_S64x512_S100000x1_S100000x512_1_0_0_1_wf : ScatterDims.WF S64x512 S100000x1 S100000x512 [1] [0] [0] 1

variable [Facts₀]

def gather_S100000x1_S800000x1_S800000x1_1_0_n_n_0_1_11 : GatherDims S100000x1 S800000x1 S800000x1 where
  offsetDims := [1]
  collapsedSliceDims := [0]
  operandBatchingDims := []
  startIndicesBatchingDims := []
  startIndexMap := [0]
  indexVectorDim := 1
  sliceSizes := ![1, 1]
  wf := gather_S100000x1_S800000x1_S800000x1_1_0_n_n_0_1_11_wf
def scatter_S100000x1_S800000x1_S800000x1_1_0_0_1 : ScatterDims S100000x1 S800000x1 S800000x1 where
  updateWindowDims := [1]
  insertedWindowDims := [0]
  scatterDimsToOperandDims := [0]
  indexVectorDim := 1
  wf := scatter_S100000x1_S800000x1_S800000x1_1_0_0_1_wf
def dot_S100000x1_S1x128_S100000x128_1_0_0_1_n_n : DotDims S100000x1 S1x128 S100000x128 where
  lhsContracting := [1]
  rhsContracting := [0]
  lhsNonContracting := [0]
  rhsNonContracting := [1]
  lhsBatch := []
  rhsBatch := []
  wf := dot_S100000x1_S1x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S100000x256_S256x512_S100000x512_1_0_0_1_n_n : DotDims S100000x256 S256x512 S100000x512 where
  lhsContracting := [1]
  rhsContracting := [0]
  lhsNonContracting := [0]
  rhsNonContracting := [1]
  lhsBatch := []
  rhsBatch := []
  wf := dot_S100000x256_S256x512_S100000x512_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x512_S100000x1_S100000x512_1_0_0_1 : ScatterDims S64x512 S100000x1 S100000x512 where
  updateWindowDims := [1]
  insertedWindowDims := [0]
  scatterDimsToOperandDims := [0]
  indexVectorDim := 1
  wf := scatter_S64x512_S100000x1_S100000x512_1_0_0_1_wf

class Facts : Prop extends Facts₀ where

variable [Facts]
-- ==== Proof.Kernel.Fr0.lean ====
/-
  Region 0 of the kernel program: the first GraphConv layer's dense part, one block of 2000 node rows per grid point.

  At a grid point the body reads five whole staging buffers — the aggregated neighbour features and the node features
  of the point's 2000 rows, the two weight rows and the bias row — and stores one whole block of the output: the
  payload of its single store, a pure function of the five loads. Everything here is stated at a PARAMETER `V`, the
  contents of the TensorCore's buffers when the region is entered, and for any float family `F`.

  What is proved: the body's triple on whole staging buffers (the output buffer ends at the store's payload read back
  as one piece covering it), the proof data of the pipeline (each input's buffer holds its block of the entry array at
  every point; the output's holds the payload of the input blocks), and the body obligation of the pipeline library at
  every grid point. Nothing is owed to another core and the region's invariant is the scoped rest with the generator
  register, untouched.
-/
import proofs.«415884_j3539053052569_2_alg».proof.Proof.Gen.Kernel.Launch
import proofs.«415884_j3539053052569_2_alg».proof.Proof.Gen.Kernel.Skeleton
import proofs.«415884_j3539053052569_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rows `2000 t … 2000 t + 1999` of its array as the region finds it (a weight or
    bias window: the whole array). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there or
    kept it from the point before (its block index did not move), for any proof data over the entry arrays whose body
    leaves the block in place. One statement per input window, each at its literal window index. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take a whole buffer -/

abbrev r0_col : Rect S2000x1 := Rect.unit (s := S2000x1) ![0, 0] S2000x1.size inb_S2000x1_S2000x1_0_0
abbrev r0_row : Rect S1x128 := Rect.unit (s := S1x128) ![0, 0] S1x128.size inb_S1x128_S1x128_0_0
abbrev r0_out : Rect S2000x128 := Rect.unit (s := S2000x128) ![0, 0] S2000x128.size inb_S2000x128_S2000x128_0_0

/-! ## What the body leaves in the output window's buffer -/

/-- The output staging buffer after the body, from the five input blocks: its one store as one piece. -/
def out0_5 (x0 x1 : Vec F S2000x1 .f32) (x2 x3 x4 : Vec F S1x128 .f32) : Vec F S2000x128 .bf16 :=
  View.canon [⟨r0_out, k0_pay1 (View.ld x0 r0_col) (View.ld x1 r0_col) (View.ld x2 r0_row) (View.ld x3 r0_row) (View.ld x4 r0_row)⟩]

/-- The one store's rectangle is the whole buffer, so it covers it. -/
theorem cover0_5 (p0 : Vec F S2000x128 .bf16) (y : S2000x128.Idx) :
    ∃ pc ∈ ([⟨r0_out, p0⟩] : List (View.Piece (Elt F) S2000x128 .bf16)), y ∈ pc.1.set :=
  View.cover_of_tiled [⟨r0_out, p0⟩] S2000x128.size (by rfl) y

/-! ## The body's triple -/

set_option maxHeartbeats 4000000 in
/-- The kernel body on whole staging buffers, the inputs' at contents `x0 … x4` and the output's at anything, runs to
    the continuation holding the inputs' as they were and the output's at `out0_5` of the inputs'. -/
theorem sound_kernel0 (c : Dev nD) (E : Set ℕ) (i : grid0.Coords)
    (arg1 : Memref sig .tc .vmem S2000x1 .f32) (harg1 : arg1.IsWhole) (arg2 : Memref sig .tc .vmem S2000x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .bf16) (harg6 : arg6.IsWhole)
    (x0 x1 : Vec F S2000x1 .f32) (x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__graphconv_kernel i arg1 harg1 arg2 harg2 arg3 harg3 arg4 harg4 arg5 harg5 arg6 harg6) K := by
  simp only [cc0__graphconv_kernel_eq_skeleton]; unfold cc0__graphconv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of this region's pipeline on core `c`: the arrays as the region finds them; after the body at point `t` each
    input's buffer at its block and the output's at `out0_5` of the input blocks; the invariant the scoped rest and
    the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 4000000 in
/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Fr1.lean ====
/-
  Region 1 of the kernel program: the second GraphConv layer's dense part, one block of 2000 node rows per grid point.

  At a grid point the body reads five whole staging buffers — the aggregated neighbour features (f32) and the node
  features (the first layer's output, stored as bf16) of the point's 2000 rows, the two weight matrices and the bias
  row — and stores one whole block of the output: the payload of its single store, a pure function of the five loads.
  Everything is stated at a PARAMETER `V`, the contents of the TensorCore's buffers when the region is entered, and for
  any float family `F`.

  What is proved: the body's triple on whole staging buffers, the proof data of the pipeline (each input's buffer holds
  its block of the entry array at every point; the output's holds the payload of the input blocks), and the body
  obligation of the pipeline library at every grid point. Nothing is owed to another core and the region's invariant is
  the scoped rest with the generator register, untouched.
-/
import proofs.«415884_j3539053052569_2_alg».proof.Proof.Gen.Kernel.Launch
import proofs.«415884_j3539053052569_2_alg».proof.Proof.Gen.Kernel.Skeleton
import proofs.«415884_j3539053052569_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rows `2000 t … 2000 t + 1999` of its array as the region finds it (a weight or
    bias window: the whole array). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the pipeline fetched it there or
    kept it from the point before (its block index did not move), for any proof data over the entry arrays whose body
    leaves the block in place. One statement per input window, each at its literal window index. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take a whole buffer -/

abbrev r1_in : Rect S2000x128 := Rect.unit (s := S2000x128) ![0, 0] S2000x128.size inb_S2000x128_S2000x128_0_0
abbrev r1_w : Rect S128x256 := Rect.unit (s := S128x256) ![0, 0] S128x256.size inb_S128x256_S128x256_0_0
abbrev r1_row : Rect S1x256 := Rect.unit (s := S1x256) ![0, 0] S1x256.size inb_S1x256_S1x256_0_0
abbrev r1_out : Rect S2000x256 := Rect.unit (s := S2000x256) ![0, 0] S2000x256.size inb_S2000x256_S2000x256_0_0

/-! ## What the body leaves in the output window's buffer -/

/-- The output staging buffer after the body, from the five input blocks: its one store as one piece. -/
def out1_5 (x0 : Vec F S2000x128 .f32) (x1 : Vec F S2000x128 .bf16) (x2 x3 : Vec F S128x256 .f32) (x4 : Vec F S1x256 .f32) : Vec F S2000x256 .bf16 :=
  View.canon [⟨r1_out, k1_pay1 (View.ld x0 r1_in) (View.ld x1 r1_in) (View.ld x2 r1_w) (View.ld x3 r1_w) (View.ld x4 r1_row)⟩]

/-- The one store's rectangle is the whole buffer, so it covers it. -/
theorem cover1_5 (p0 : Vec F S2000x256 .bf16) (y : S2000x256.Idx) :
    ∃ pc ∈ ([⟨r1_out, p0⟩] : List (View.Piece (Elt F) S2000x256 .bf16)), y ∈ pc.1.set :=
  View.cover_of_tiled [⟨r1_out, p0⟩] S2000x256.size (by rfl) y

/-! ## The body's triple -/

set_option maxHeartbeats 4000000 in
/-- The kernel body on whole staging buffers, the inputs' at contents `x0 … x4` and the output's at anything, runs to
    the continuation holding the inputs' as they were and the output's at `out1_5` of the inputs'. -/
theorem sound_kernel1 (c : Dev nD) (E : Set ℕ) (i : grid1.Coords)
    (arg1 : Memref sig .tc .vmem S2000x128 .f32) (harg1 : arg1.IsWhole) (arg2 : Memref sig .tc .vmem S2000x128 .bf16) (harg2 : arg2.IsWhole)
    (arg3 : Memref sig .tc .vmem S128x256 .f32) (harg3 : arg3.IsWhole) (arg4 : Memref sig .tc .vmem S128x256 .f32) (harg4 : arg4.IsWhole)
    (arg5 : Memref sig .tc .vmem S1x256 .f32) (harg5 : arg5.IsWhole) (arg6 : Memref sig .tc .vmem S2000x256 .bf16) (harg6 : arg6.IsWhole)
    (x0 : Vec F S2000x128 .f32) (x1 : Vec F S2000x128 .bf16) (x2 x3 : Vec F S128x256 .f32) (x4 : Vec F S1x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__graphconv_kernel i arg1 harg1 arg2 harg2 arg3 harg3 arg4 harg4 arg5 harg5 arg6 harg6) K := by
  simp only [cc1__graphconv_kernel_eq_skeleton]; unfold cc1__graphconv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this region's pipeline on core `c`: the arrays as the region finds them; after the body at point `t` each
    input's buffer at its block and the output's at `out1_5` of the input blocks; the invariant the scoped rest and
    the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 4000000 in
/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Fr2.lean ====
/-
  Region 2 of the kernel program: the second GraphConv layer's dense part fused with the pooling sum, one block of
  2000 node rows per grid point, fifty points.

  The kernel keeps a 64 × 512 accumulator in a scratch buffer of its own, which lives from point to point. At the
  first point it clears the accumulator; at every point it reads six whole staging buffers — the aggregated neighbour
  features and the node features of the point's 2000 rows, the two weight matrices, the bias row and the point's
  rows of the one-hot pooling matrix — and adds to the accumulator the pooling matrix transposed times the layer's
  output on these rows; at the last point it copies the accumulator into the output window's buffer. So a point is
  in one of three cases: the first point (A: clear, accumulate), a middle point (B: accumulate), the last point
  (C: accumulate, copy out). The output window is stored only in case C; at every other point its buffer is handed
  back as it was found and is not written back.

  Everything here is stated at a PARAMETER `V`, the contents of the TensorCore's buffers when the region is
  entered, and for any float family `F`.

  What is proved: the body's triple in each of the three cases on whole staging buffers (the pieces the stores leave
  in the output buffer and in the accumulator are found by running the body); what the output buffer and the
  accumulator hold after each point, by recursion on the point (`outsAt2`); the proof data of the pipeline (each
  input's buffer holds its block of the entry array at every point; the region's invariant names the accumulator's
  contents after each point); the body obligation of the pipeline library at every grid point; and that the
  invariant before the first point and after the last is the scoped rest with the generator register.
-/
import proofs.«415884_j3539053052569_2_alg».proof.Proof.Gen.Kernel.Launch
import proofs.«415884_j3539053052569_2_alg».proof.Proof.Gen.Kernel.Skeleton
import proofs.«415884_j3539053052569_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: for the three row-blocked inputs the rows `2000 t … 2000 t + 1999` of its array
    as the region finds it, for the weights, the bias and the output the whole array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the pipeline fetched it there or
    kept it from the point before (its block index did not move), for any proof data over the entry arrays whose body
    leaves the block in place. One statement per input window, each at its literal window index. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, over the grid -/

/-- The condition of the body's first `scf.if` (the accumulator is cleared), from the grid coordinate. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 50 = 0 :=
  (by decide +kernel : ∀ t : Fin grid2.N, cond2_0 (grid2.coords t) ↔ t.val % 50 = 0)

/-- The condition of the body's second `scf.if` (the accumulator is copied to the output window). -/
abbrev cond2_1 (i : grid2.Coords) : Prop := k2_cond2 i = 1#1
/-- It holds at the last point only. -/
theorem hcond2_1 : ∀ t : Fin cfg2.N, cond2_1 (grid2.coords t) ↔ t.val % 50 = 49 :=
  (by decide +kernel : ∀ t : Fin grid2.N, cond2_1 (grid2.coords t) ↔ t.val % 50 = 49)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- Away from the last point the output window is idle: the body stores nothing into it, -/
theorem idleAt2_6 : ∀ t : Fin cfg2.N, ¬cond2_1 (grid2.coords t) → cfg2.idle 6 (grid2.coords t) = true := by decide +kernel
/-- and the pipeline does not write its block back. -/
theorem noFlush2_6 : ∀ t : Fin cfg2.N, ¬cond2_1 (grid2.coords t) → (cfg2.win 6).flush t = false := by decide +kernel
/-- At the last point it is live. -/
theorem liveAt2_6 : ∀ t : Fin cfg2.N, cond2_1 (grid2.coords t) → cfg2.idle 6 (grid2.coords t) = false := by decide +kernel

/-! ## The memrefs the body is called with -/

/-- One staging buffer of the output window, through which its contents are stated (the choice does not matter). -/
abbrev VO2_6 : View sig .tc .vmem S64x512 .f32 := (Memref.whole cc2_stg6_0 : Memref sig .tc .vmem S64x512 .f32).view
/-- Each window's current staging memref at point `t`, spelled as the pipeline passes it, and its wholeness. -/
abbrev ms2_0 (t : Fin cfg2.N) : Memref sig .tc .vmem S2000x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S2000x64 .bf16 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S64x512 .f32 := win2_6.stage (cfg2.slots t 6)
abbrev hs2_6 (t : Fin cfg2.N) : (ms2_6 t).IsWhole := hstage2_6 ((cfg2.slots t 6).cast nbuf2_6)
/-- The accumulator: a whole scoped buffer of the kernel's own, passed beside the windows, -/
abbrev scM2_0 : Memref sig .tc .vmem S64x512 .f32 := Memref.whole cc2_scratch0
/-- and as a view: what it holds is stated through it. -/
abbrev VS2_0 : View sig .tc .vmem S64x512 .f32 := scM2_0.view

/-- The region's base invariant with the accumulator as a memref owned at some contents: the other two regions'
    staging buffers at some contents each, the accumulator, and the generator register at some state. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ d, owns (c : Thread nD τ) scM2_0 fullShare d)) ∗ (∃ r, prngReg c r)) := by
  unfold Pipeline.ΦA; rw [scopedRest2_eq]; simp only [scM2_0, owns_whole]; try rfl

/-! ## The kernel body on any whole memrefs, case by case -/

set_option maxHeartbeats 4000000 in
/-- CASE A, the first point (the accumulator cleared, then accumulated into; nothing copied out). The pieces the
    body's stores leave in the output buffer (none) and in the accumulator (last first), WITH the proof that on whole
    memrefs — the six inputs' at their contents, the output's at contents `xi6` handed back untouched, the accumulator
    at anything — the body runs to the continuation holding the inputs' and the output's as they were and the
    accumulator with its pieces written. The pieces are the witness the run finds. -/
noncomputable def kernelRun2_A (c : Dev nD) (i : grid2.Coords) (arg1 : Memref sig .tc .vmem S2000x256 .f32) (harg1 : arg1.IsWhole) (arg2 : Memref sig .tc .vmem S2000x256 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2000x64 .bf16) (harg6 : arg6.IsWhole) (arg7 : Memref sig .tc .vmem S64x512 .f32) (harg7 : arg7.IsWhole) (arg8 : Memref sig .tc .vmem S64x512 .f32) (harg8 : arg8.IsWhole) (hc0 : cond2_0 i) (hc1 : ¬cond2_1 i)
    (x0 : Vec F S2000x256 .f32) (x1 : Vec F S2000x256 .bf16) (x2 x3 : Vec F S256x512 .f32) (x4 : Vec F S1x512 .f32) (x5 : Vec F S2000x64 .bf16) :
    Σ' (L6 : List (View.Piece (Elt F) S64x512 .f32)), { LS0 : List (View.Piece (Elt F) S64x512 .f32) //
      ∀ (xi6 : Vec F S64x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc2__graphconv_pool_kernel i arg1 harg1 arg2 harg2 arg3 harg3 arg4 harg4 arg5 harg5 arg6 harg6 arg7 harg7 arg8 harg8) K } := by
  refine ⟨[], ?_, fun xi6 E K => ?run⟩
  case run =>
    simp only [cc2__graphconv_pool_kernel_eq_skeleton]; unfold cc2__graphconv_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

set_option maxHeartbeats 4000000 in
/-- CASE B, a middle point (accumulated into; nothing cleared, nothing copied out): as case A, the accumulator
    taken at the contents `xs0` the point before left. -/
noncomputable def kernelRun2_B (c : Dev nD) (i : grid2.Coords) (arg1 : Memref sig .tc .vmem S2000x256 .f32) (harg1 : arg1.IsWhole) (arg2 : Memref sig .tc .vmem S2000x256 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2000x64 .bf16) (harg6 : arg6.IsWhole) (arg7 : Memref sig .tc .vmem S64x512 .f32) (harg7 : arg7.IsWhole) (arg8 : Memref sig .tc .vmem S64x512 .f32) (harg8 : arg8.IsWhole) (hc0 : ¬cond2_0 i) (hc1 : ¬cond2_1 i)
    (x0 : Vec F S2000x256 .f32) (x1 : Vec F S2000x256 .bf16) (x2 x3 : Vec F S256x512 .f32) (x4 : Vec F S1x512 .f32) (x5 : Vec F S2000x64 .bf16) (xs0 : Vec F S64x512 .f32) :
    Σ' (L6 : List (View.Piece (Elt F) S64x512 .f32)), { LS0 : List (View.Piece (Elt F) S64x512 .f32) //
      ∀ (xi6 : Vec F S64x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc2__graphconv_pool_kernel i arg1 harg1 arg2 harg2 arg3 harg3 arg4 harg4 arg5 harg5 arg6 harg6 arg7 harg7 arg8 harg8) K } := by
  refine ⟨[], ?_, fun xi6 E K => ?run⟩
  case run =>
    simp only [cc2__graphconv_pool_kernel_eq_skeleton]; unfold cc2__graphconv_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

set_option maxHeartbeats 4000000 in
/-- CASE C, the last point (accumulated into, then copied to the output window): the accumulator taken at the
    contents `xs0` the point before left, the output's buffer at anything and left with its pieces written. -/
noncomputable def kernelRun2_C (c : Dev nD) (i : grid2.Coords) (arg1 : Memref sig .tc .vmem S2000x256 .f32) (harg1 : arg1.IsWhole) (arg2 : Memref sig .tc .vmem S2000x256 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2000x64 .bf16) (harg6 : arg6.IsWhole) (arg7 : Memref sig .tc .vmem S64x512 .f32) (harg7 : arg7.IsWhole) (arg8 : Memref sig .tc .vmem S64x512 .f32) (harg8 : arg8.IsWhole) (hc0 : ¬cond2_0 i) (hc1 : cond2_1 i)
    (x0 : Vec F S2000x256 .f32) (x1 : Vec F S2000x256 .bf16) (x2 x3 : Vec F S256x512 .f32) (x4 : Vec F S1x512 .f32) (x5 : Vec F S2000x64 .bf16) (xs0 : Vec F S64x512 .f32) :
    Σ' (L6 : List (View.Piece (Elt F) S64x512 .f32)), { LS0 : List (View.Piece (Elt F) S64x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc2__graphconv_pool_kernel i arg1 harg1 arg2 harg2 arg3 harg3 arg4 harg4 arg5 harg5 arg6 harg6 arg7 harg7 arg8 harg8) K } := by
  refine ⟨?_, ?_, fun E K => ?run⟩
  case run =>
    simp only [cc2__graphconv_pool_kernel_eq_skeleton]; unfold cc2__graphconv_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

/-! ## What each case leaves in the output buffer and in the accumulator -/

/-- Case A stores nothing into the output window (idle at its points and not written back there): no pieces — a
    placeholder (junk read back) that nothing consults. -/
def out2_A_6 (c : Dev nD) (i : grid2.Coords) (arg1 : Memref sig .tc .vmem S2000x256 .f32) (harg1 : arg1.IsWhole) (arg2 : Memref sig .tc .vmem S2000x256 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2000x64 .bf16) (harg6 : arg6.IsWhole) (arg7 : Memref sig .tc .vmem S64x512 .f32) (harg7 : arg7.IsWhole) (arg8 : Memref sig .tc .vmem S64x512 .f32) (harg8 : arg8.IsWhole) (hc0 : cond2_0 i) (hc1 : ¬cond2_1 i)
    (x0 : Vec F S2000x256 .f32) (x1 : Vec F S2000x256 .bf16) (x2 x3 : Vec F S256x512 .f32) (x4 : Vec F S1x512 .f32) (x5 : Vec F S2000x64 .bf16) : Vec F S64x512 .f32 :=
  VO2_6.read (Elt F) (VO2_6.writes (Elt F) VO2_6.junk (kernelRun2_A c i arg1 harg1 arg2 harg2 arg3 harg3 arg4 harg4 arg5 harg5 arg6 harg6 arg7 harg7 arg8 harg8 hc0 hc1 x0 x1 x2 x3 x4 x5).1)

/-- Case A's stores into the accumulator are of the whole buffer each, so its pieces cover it. -/
theorem scover2_A_0 (c : Dev nD) (i : grid2.Coords) (arg1 : Memref sig .tc .vmem S2000x256 .f32) (harg1 : arg1.IsWhole) (arg2 : Memref sig .tc .vmem S2000x256 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2000x64 .bf16) (harg6 : arg6.IsWhole) (arg7 : Memref sig .tc .vmem S64x512 .f32) (harg7 : arg7.IsWhole) (arg8 : Memref sig .tc .vmem S64x512 .f32) (harg8 : arg8.IsWhole) (hc0 : cond2_0 i) (hc1 : ¬cond2_1 i)
    (x0 : Vec F S2000x256 .f32) (x1 : Vec F S2000x256 .bf16) (x2 x3 : Vec F S256x512 .f32) (x4 : Vec F S1x512 .f32) (x5 : Vec F S2000x64 .bf16) (y : S64x512.Idx) :
    ∃ pc ∈ (kernelRun2_A c i arg1 harg1 arg2 harg2 arg3 harg3 arg4 harg4 arg5 harg5 arg6 harg6 arg7 harg7 arg8 harg8 hc0 hc1 x0 x1 x2 x3 x4 x5).2.1, y ∈ pc.1.set :=
  View.cover_of_tiledL (kernelRun2_A c i arg1 harg1 arg2 harg2 arg3 harg3 arg4 harg4 arg5 harg5 arg6 harg6 arg7 harg7 arg8 harg8 hc0 hc1 x0 x1 x2 x3 x4 x5).2.1 S64x512.size (by sl_kernel_rfl) y

/-- What case A leaves in the accumulator: its pieces read back over junk. -/
def sout2_A_0 (c : Dev nD) (i : grid2.Coords) (arg1 : Memref sig .tc .vmem S2000x256 .f32) (harg1 : arg1.IsWhole) (arg2 : Memref sig .tc .vmem S2000x256 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2000x64 .bf16) (harg6 : arg6.IsWhole) (arg7 : Memref sig .tc .vmem S64x512 .f32) (harg7 : arg7.IsWhole) (arg8 : Memref sig .tc .vmem S64x512 .f32) (harg8 : arg8.IsWhole) (hc0 : cond2_0 i) (hc1 : ¬cond2_1 i)
    (x0 : Vec F S2000x256 .f32) (x1 : Vec F S2000x256 .bf16) (x2 x3 : Vec F S256x512 .f32) (x4 : Vec F S1x512 .f32) (x5 : Vec F S2000x64 .bf16) : Vec F S64x512 .f32 :=
  VS2_0.read (Elt F) (VS2_0.writes (Elt F) VS2_0.junk (kernelRun2_A c i arg1 harg1 arg2 harg2 arg3 harg3 arg4 harg4 arg5 harg5 arg6 harg6 arg7 harg7 arg8 harg8 hc0 hc1 x0 x1 x2 x3 x4 x5).2.1)

/-- Case B stores nothing into the output window (idle at its points and not written back there): no pieces — a
    placeholder (junk read back) that nothing consults. -/
def out2_B_6 (c : Dev nD) (i : grid2.Coords) (arg1 : Memref sig .tc .vmem S2000x256 .f32) (harg1 : arg1.IsWhole) (arg2 : Memref sig .tc .vmem S2000x256 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2000x64 .bf16) (harg6 : arg6.IsWhole) (arg7 : Memref sig .tc .vmem S64x512 .f32) (harg7 : arg7.IsWhole) (arg8 : Memref sig .tc .vmem S64x512 .f32) (harg8 : arg8.IsWhole) (hc0 : ¬cond2_0 i) (hc1 : ¬cond2_1 i)
    (x0 : Vec F S2000x256 .f32) (x1 : Vec F S2000x256 .bf16) (x2 x3 : Vec F S256x512 .f32) (x4 : Vec F S1x512 .f32) (x5 : Vec F S2000x64 .bf16) (xs0 : Vec F S64x512 .f32) : Vec F S64x512 .f32 :=
  VO2_6.read (Elt F) (VO2_6.writes (Elt F) VO2_6.junk (kernelRun2_B c i arg1 harg1 arg2 harg2 arg3 harg3 arg4 harg4 arg5 harg5 arg6 harg6 arg7 harg7 arg8 harg8 hc0 hc1 x0 x1 x2 x3 x4 x5 xs0).1)

/-- Case B's stores into the accumulator are of the whole buffer each, so its pieces cover it. -/
theorem scover2_B_0 (c : Dev nD) (i : grid2.Coords) (arg1 : Memref sig .tc .vmem S2000x256 .f32) (harg1 : arg1.IsWhole) (arg2 : Memref sig .tc .vmem S2000x256 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2000x64 .bf16) (harg6 : arg6.IsWhole) (arg7 : Memref sig .tc .vmem S64x512 .f32) (harg7 : arg7.IsWhole) (arg8 : Memref sig .tc .vmem S64x512 .f32) (harg8 : arg8.IsWhole) (hc0 : ¬cond2_0 i) (hc1 : ¬cond2_1 i)
    (x0 : Vec F S2000x256 .f32) (x1 : Vec F S2000x256 .bf16) (x2 x3 : Vec F S256x512 .f32) (x4 : Vec F S1x512 .f32) (x5 : Vec F S2000x64 .bf16) (xs0 : Vec F S64x512 .f32) (y : S64x512.Idx) :
    ∃ pc ∈ (kernelRun2_B c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun2_B c i arg1 harg1 arg2 harg2 arg3 harg3 arg4 harg4 arg5 harg5 arg6 harg6 arg7 harg7 arg8 harg8 hc0 hc1 x0 x1 x2 x3 x4 x5 xs0).2.1 S64x512.size (by sl_kernel_rfl) y

/-- What case B leaves in the accumulator: its pieces read back over junk. -/
def sout2_B_0 (c : Dev nD) (i : grid2.Coords) (arg1 : Memref sig .tc .vmem S2000x256 .f32) (harg1 : arg1.IsWhole) (arg2 : Memref sig .tc .vmem S2000x256 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2000x64 .bf16) (harg6 : arg6.IsWhole) (arg7 : Memref sig .tc .vmem S64x512 .f32) (harg7 : arg7.IsWhole) (arg8 : Memref sig .tc .vmem S64x512 .f32) (harg8 : arg8.IsWhole) (hc0 : ¬cond2_0 i) (hc1 : ¬cond2_1 i)
    (x0 : Vec F S2000x256 .f32) (x1 : Vec F S2000x256 .bf16) (x2 x3 : Vec F S256x512 .f32) (x4 : Vec F S1x512 .f32) (x5 : Vec F S2000x64 .bf16) (xs0 : Vec F S64x512 .f32) : Vec F S64x512 .f32 :=
  VS2_0.read (Elt F) (VS2_0.writes (Elt F) VS2_0.junk (kernelRun2_B c i arg1 harg1 arg2 harg2 arg3 harg3 arg4 harg4 arg5 harg5 arg6 harg6 arg7 harg7 arg8 harg8 hc0 hc1 x0 x1 x2 x3 x4 x5 xs0).2.1)

/-- Case C's one store into the output window is the whole block, so its pieces cover it. -/
theorem cover2_C_6 (c : Dev nD) (i : grid2.Coords) (arg1 : Memref sig .tc .vmem S2000x256 .f32) (harg1 : arg1.IsWhole) (arg2 : Memref sig .tc .vmem S2000x256 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2000x64 .bf16) (harg6 : arg6.IsWhole) (arg7 : Memref sig .tc .vmem S64x512 .f32) (harg7 : arg7.IsWhole) (arg8 : Memref sig .tc .vmem S64x512 .f32) (harg8 : arg8.IsWhole) (hc0 : ¬cond2_0 i) (hc1 : cond2_1 i)
    (x0 : Vec F S2000x256 .f32) (x1 : Vec F S2000x256 .bf16) (x2 x3 : Vec F S256x512 .f32) (x4 : Vec F S1x512 .f32) (x5 : Vec F S2000x64 .bf16) (xs0 : Vec F S64x512 .f32) (y : S64x512.Idx) :
    ∃ pc ∈ (kernelRun2_C c i arg1 harg1 arg2 harg2 arg3 harg3 arg4 harg4 arg5 harg5 arg6 harg6 arg7 harg7 arg8 harg8 hc0 hc1 x0 x1 x2 x3 x4 x5 xs0).1, y ∈ pc.1.set :=
  View.cover_of_tiledL (kernelRun2_C c i arg1 harg1 arg2 harg2 arg3 harg3 arg4 harg4 arg5 harg5 arg6 harg6 arg7 harg7 arg8 harg8 hc0 hc1 x0 x1 x2 x3 x4 x5 xs0).1 S64x512.size (by sl_kernel_rfl) y

/-- What case C leaves in the output window's staging buffer: its pieces read back over junk. -/
def out2_C_6 (c : Dev nD) (i : grid2.Coords) (arg1 : Memref sig .tc .vmem S2000x256 .f32) (harg1 : arg1.IsWhole) (arg2 : Memref sig .tc .vmem S2000x256 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2000x64 .bf16) (harg6 : arg6.IsWhole) (arg7 : Memref sig .tc .vmem S64x512 .f32) (harg7 : arg7.IsWhole) (arg8 : Memref sig .tc .vmem S64x512 .f32) (harg8 : arg8.IsWhole) (hc0 : ¬cond2_0 i) (hc1 : cond2_1 i)
    (x0 : Vec F S2000x256 .f32) (x1 : Vec F S2000x256 .bf16) (x2 x3 : Vec F S256x512 .f32) (x4 : Vec F S1x512 .f32) (x5 : Vec F S2000x64 .bf16) (xs0 : Vec F S64x512 .f32) : Vec F S64x512 .f32 :=
  VO2_6.read (Elt F) (VO2_6.writes (Elt F) VO2_6.junk (kernelRun2_C c i arg1 harg1 arg2 harg2 arg3 harg3 arg4 harg4 arg5 harg5 arg6 harg6 arg7 harg7 arg8 harg8 hc0 hc1 x0 x1 x2 x3 x4 x5 xs0).1)

/-- Case C's stores into the accumulator are of the whole buffer each, so its pieces cover it. -/
theorem scover2_C_0 (c : Dev nD) (i : grid2.Coords) (arg1 : Memref sig .tc .vmem S2000x256 .f32) (harg1 : arg1.IsWhole) (arg2 : Memref sig .tc .vmem S2000x256 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2000x64 .bf16) (harg6 : arg6.IsWhole) (arg7 : Memref sig .tc .vmem S64x512 .f32) (harg7 : arg7.IsWhole) (arg8 : Memref sig .tc .vmem S64x512 .f32) (harg8 : arg8.IsWhole) (hc0 : ¬cond2_0 i) (hc1 : cond2_1 i)
    (x0 : Vec F S2000x256 .f32) (x1 : Vec F S2000x256 .bf16) (x2 x3 : Vec F S256x512 .f32) (x4 : Vec F S1x512 .f32) (x5 : Vec F S2000x64 .bf16) (xs0 : Vec F S64x512 .f32) (y : S64x512.Idx) :
    ∃ pc ∈ (kernelRun2_C c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun2_C c i arg1 harg1 arg2 harg2 arg3 harg3 arg4 harg4 arg5 harg5 arg6 harg6 arg7 harg7 arg8 harg8 hc0 hc1 x0 x1 x2 x3 x4 x5 xs0).2.1 S64x512.size (by sl_kernel_rfl) y

/-- What case C leaves in the accumulator: its pieces read back over junk. -/
def sout2_C_0 (c : Dev nD) (i : grid2.Coords) (arg1 : Memref sig .tc .vmem S2000x256 .f32) (harg1 : arg1.IsWhole) (arg2 : Memref sig .tc .vmem S2000x256 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2000x64 .bf16) (harg6 : arg6.IsWhole) (arg7 : Memref sig .tc .vmem S64x512 .f32) (harg7 : arg7.IsWhole) (arg8 : Memref sig .tc .vmem S64x512 .f32) (harg8 : arg8.IsWhole) (hc0 : ¬cond2_0 i) (hc1 : cond2_1 i)
    (x0 : Vec F S2000x256 .f32) (x1 : Vec F S2000x256 .bf16) (x2 x3 : Vec F S256x512 .f32) (x4 : Vec F S1x512 .f32) (x5 : Vec F S2000x64 .bf16) (xs0 : Vec F S64x512 .f32) : Vec F S64x512 .f32 :=
  VS2_0.read (Elt F) (VS2_0.writes (Elt F) VS2_0.junk (kernelRun2_C c i arg1 harg1 arg2 harg2 arg3 harg3 arg4 harg4 arg5 harg5 arg6 harg6 arg7 harg7 arg8 harg8 hc0 hc1 x0 x1 x2 x3 x4 x5 xs0).2.1)

/-! ## What the output buffer and the accumulator hold after each point -/

/-- THE ACCUMULATION. What the output window's staging buffer and the accumulator hold after the body at position `n`
    (a pair: the output buffer, then the accumulator): the case the closed forms select at `n`, run at the point's
    memrefs and input blocks, the accumulator taken at what this leaves at `n - 1`. An assignment of the conditions no
    point meets is no case. -/
def outsAt2 (c : Dev nD) : (n : ℕ) → n < cfg2.N → Vec F S64x512 .f32 × Vec F S64x512 .f32
  | 0, hn =>
      (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
       sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 50 = 0 then
      if h1 : (n + 1) % 50 = 49 then
        False.elim (by omega)
      else
        (out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩),
       sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))
    else
      if h1 : (n + 1) % 50 = 49 then
        (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2,
       sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)
      else
        (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2,
       sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)

/-- `outsAt2` at a point of case A: that case's contents. -/
theorem outsAt2_A (c : Dev nD) (t : Fin cfg2.N) (h0 : t.val % 50 = 0) (h1 : ¬t.val % 50 = 49) :
    outsAt2 V c t.val t.isLt =
      (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t),
       sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (dif_pos h0).trans ((dif_neg h1).trans rfl)

/-- `outsAt2` at a point of case B: that case's contents, over what the point before left in the accumulator. -/
theorem outsAt2_B (c : Dev nD) (t : Fin cfg2.N) (h0 : ¬t.val % 50 = 0) (h1 : ¬t.val % 50 = 49) :
    outsAt2 V c t.val t.isLt =
      (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2,
       sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left in the accumulator. -/
theorem outsAt2_C (c : Dev nD) (t : Fin cfg2.N) (h0 : ¬t.val % 50 = 0) (h1 : t.val % 50 = 49) :
    outsAt2 V c t.val t.isLt =
      (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2,
       sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the base invariant (the accumulator at anything);
    afterwards the same with the accumulator at what the point before left in it (`outsAt2`'s second component). -/
def PhiS2 (c : Dev nD) : (n : ℕ) → n ≤ cfg2.N → sProp 𝕄
  | 0, _ => Pipeline.ΦA spec2 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ owns (c : Thread nD τ) scM2_0 fullShare ((outsAt2 V c n hn).2)) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ owns (c : Thread nD τ) scM2_0 fullShare ((outsAt2 V c (n - 1) (by omega)).2)) ∗ (∃ r, prngReg c r)) := by
  cases n with
  | zero => exact absurd rfl hz
  | succ n => rfl

/-! ## The pipeline's proof data -/

/-- The proof data of pipeline 2 on core `c`: the arrays as the region finds them; after the body at point `t` each
    input's buffer at its block and the output's at `outsAt2`'s first component; the invariant `PhiS2`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 20000000 in
/-- The body at any point: the inputs' buffers hold their blocks; the closed forms say which case the point is in; the
    invariant hands the body the accumulator at what the point before left (at anything at the first point) and the
    other scoped buffers and the generator register pass through unread; the body's run in that case applies, and the
    accumulator comes back at this point's contents since its pieces cover it. Away from the last point the output
    window's buffer goes back as it came; at the last point its pieces cover it. The core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 50 := lt_of_lt_of_eq t.isLt (show cfg2.N = 50 from N_2)
  by_cases h0 : t.val % 50 = 0
  · by_cases h1 : t.val % 50 = 49
    · exfalso; omega
    · rw [show (dat2 V c).leavesExact 0 t = owns (c : Thread nD τ) (ms2_0 t) fullShare ((dat2 V c).after 0 t) from by
          unfold Dat.leavesExact; rw [liveAt2_0 t], after2_0]
      rw [show (dat2 V c).leavesExact 1 t = owns (c : Thread nD τ) (ms2_1 t) fullShare ((dat2 V c).after 1 t) from by
          unfold Dat.leavesExact; rw [liveAt2_1 t], after2_1]
      rw [show (dat2 V c).leavesExact 2 t = owns (c : Thread nD τ) (ms2_2 t) fullShare ((dat2 V c).after 2 t) from by
          unfold Dat.leavesExact; rw [liveAt2_2 t], after2_2]
      rw [show (dat2 V c).leavesExact 3 t = owns (c : Thread nD τ) (ms2_3 t) fullShare ((dat2 V c).after 3 t) from by
          unfold Dat.leavesExact; rw [liveAt2_3 t], after2_3]
      rw [show (dat2 V c).leavesExact 4 t = owns (c : Thread nD τ) (ms2_4 t) fullShare ((dat2 V c).after 4 t) from by
          unfold Dat.leavesExact; rw [liveAt2_4 t], after2_4]
      rw [show (dat2 V c).leavesExact 5 t = owns (c : Thread nD τ) (ms2_5 t) fullShare ((dat2 V c).after 5 t) from by
          unfold Dat.leavesExact; rw [liveAt2_5 t], after2_5]
      rw [Dat.leavesExact_idle (dat2 V c) 6 t (idleAt2_6 t (fun h => h1 ((hcond2_1 t).mp h))) (noFlush2_6 t (fun h => h1 ((hcond2_1 t).mp h)))]
      rw [outsAt2_A V c t h0 h1]
      unfold sout2_A_0; (try dsimp only)
      have hz : t.val = 0 := by omega
      rw [PhiS2_castSucc V c t, PhiS2_zero V c _ _ hz, PhiA2_eq]
      iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HR0 HR1 HR2 HR3 HR4 HR5 HR6 HR7 HR8 HR9 HR10 HR11 HR12 HR13 HR14 HR15 HR16 HR17 HS0 Hg]
      · isplitl [HR0 HR1 HR2 HR3 HR4 HR5 HR6 HR7 HR8 HR9 HR10 HR11 HR12 HR13 HR14 HR15 HR16 HR17 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          unfold owns; iexists _; isplitr
          swap; · iexact HS0
          ipureintro; exact View.read_writes_of_cover _ _ _ _ _ (scover2_A_0 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · by_cases h1 : t.val % 50 = 49
    · rw [show (dat2 V c).leavesExact 0 t = owns (c : Thread nD τ) (ms2_0 t) fullShare ((dat2 V c).after 0 t) from by
          unfold Dat.leavesExact; rw [liveAt2_0 t], after2_0]
      rw [show (dat2 V c).leavesExact 1 t = owns (c : Thread nD τ) (ms2_1 t) fullShare ((dat2 V c).after 1 t) from by
          unfold Dat.leavesExact; rw [liveAt2_1 t], after2_1]
      rw [show (dat2 V c).leavesExact 2 t = owns (c : Thread nD τ) (ms2_2 t) fullShare ((dat2 V c).after 2 t) from by
          unfold Dat.leavesExact; rw [liveAt2_2 t], after2_2]
      rw [show (dat2 V c).leavesExact 3 t = owns (c : Thread nD τ) (ms2_3 t) fullShare ((dat2 V c).after 3 t) from by
          unfold Dat.leavesExact; rw [liveAt2_3 t], after2_3]
      rw [show (dat2 V c).leavesExact 4 t = owns (c : Thread nD τ) (ms2_4 t) fullShare ((dat2 V c).after 4 t) from by
          unfold Dat.leavesExact; rw [liveAt2_4 t], after2_4]
      rw [show (dat2 V c).leavesExact 5 t = owns (c : Thread nD τ) (ms2_5 t) fullShare ((dat2 V c).after 5 t) from by
          unfold Dat.leavesExact; rw [liveAt2_5 t], after2_5]
      rw [show (dat2 V c).leavesExact 6 t = owns (c : Thread nD τ) (ms2_6 t) fullShare ((dat2 V c).after 6 t) from by
          unfold Dat.leavesExact; rw [liveAt2_6 t ((hcond2_1 t).mpr h1)], after2_6]
      rw [outsAt2_C V c t h0 h1]
      unfold out2_C_6 sout2_C_0; (try dsimp only)
      have hz : t.val ≠ 0 := by omega
      rw [PhiS2_castSucc V c t, PhiS2_pos V c _ _ hz]
      iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HR0 HR1 HR2 HR3 HR4 HR5 HR6 HR7 HR8 HR9 HR10 HR11 HR12 HR13 HR14 HR15 HR16 HR17 HS0 Hg]
      · isplitl [HR0 HR1 HR2 HR3 HR4 HR5 HR6 HR7 HR8 HR9 HR10 HR11 HR12 HR13 HR14 HR15 HR16 HR17 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          unfold owns; iexists _; isplitr
          swap; · iexact HS0
          ipureintro; exact View.read_writes_of_cover _ _ _ _ _ (scover2_C_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover2_C_6 c _ _ _ _ _ _ _ _ _ _ _ _ _ _ _ _ _ _ _ _ _ _ _ _ _ _)
    · rw [show (dat2 V c).leavesExact 0 t = owns (c : Thread nD τ) (ms2_0 t) fullShare ((dat2 V c).after 0 t) from by
          unfold Dat.leavesExact; rw [liveAt2_0 t], after2_0]
      rw [show (dat2 V c).leavesExact 1 t = owns (c : Thread nD τ) (ms2_1 t) fullShare ((dat2 V c).after 1 t) from by
          unfold Dat.leavesExact; rw [liveAt2_1 t], after2_1]
      rw [show (dat2 V c).leavesExact 2 t = owns (c : Thread nD τ) (ms2_2 t) fullShare ((dat2 V c).after 2 t) from by
          unfold Dat.leavesExact; rw [liveAt2_2 t], after2_2]
      rw [show (dat2 V c).leavesExact 3 t = owns (c : Thread nD τ) (ms2_3 t) fullShare ((dat2 V c).after 3 t) from by
          unfold Dat.leavesExact; rw [liveAt2_3 t], after2_3]
      rw [show (dat2 V c).leavesExact 4 t = owns (c : Thread nD τ) (ms2_4 t) fullShare ((dat2 V c).after 4 t) from by
          unfold Dat.leavesExact; rw [liveAt2_4 t], after2_4]
      rw [show (dat2 V c).leavesExact 5 t = owns (c : Thread nD τ) (ms2_5 t) fullShare ((dat2 V c).after 5 t) from by
          unfold Dat.leavesExact; rw [liveAt2_5 t], after2_5]
      rw [Dat.leavesExact_idle (dat2 V c) 6 t (idleAt2_6 t (fun h => h1 ((hcond2_1 t).mp h))) (noFlush2_6 t (fun h => h1 ((hcond2_1 t).mp h)))]
      rw [outsAt2_B V c t h0 h1]
      unfold sout2_B_0; (try dsimp only)
      have hz : t.val ≠ 0 := by omega
      rw [PhiS2_castSucc V c t, PhiS2_pos V c _ _ hz]
      iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HR0 HR1 HR2 HR3 HR4 HR5 HR6 HR7 HR8 HR9 HR10 HR11 HR12 HR13 HR14 HR15 HR16 HR17 HS0 Hg]
      · isplitl [HR0 HR1 HR2 HR3 HR4 HR5 HR6 HR7 HR8 HR9 HR10 HR11 HR12 HR13 HR14 HR15 HR16 HR17 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          unfold owns; iexists _; isplitr
          swap; · iexact HS0
          ipureintro; exact View.read_writes_of_cover _ _ _ _ _ (scover2_B_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the region's two ends -/

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the base invariant back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HR0, HR1, HR2, HR3, HR4, HR5, HR6, HR7, HR8, HR9, HR10, HR11, HR12, HR13, HR14, HR15, HR16, HR17, HS0⟩, Hg⟩
  isplitl [HR0 HR1 HR2 HR3 HR4 HR5 HR6 HR7 HR8 HR9 HR10 HR11 HR12 HR13 HR14 HR15 HR16 HR17 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    isplitl [HR17]; · iexact HR17
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 50 := N_2; omega)

end Cert.Kernel.Hand

end
-- ==== Proof.Kernel.FrRun.lean ====
/-
  The kernel program's run, assembled: three kernel regions among six stretches of host operations.

  The buffer contents at each boundary between two items of the program are a fold from the launch memory: a stretch of
  host operations applies them; a region leaves its input arrays as it found them and its output array at what the
  write-backs of its grid points leave, every other buffer untouched. Each region is entered from "every unscoped buffer
  at the boundary's contents, the generator register at some state, nothing owed" and left in the same shape at the
  next boundary's contents; region 2's invariant carries its scratch accumulator from point to point and forgets its
  contents at the end. The launch theorem for a list of such segments then says: every weakly fair execution terminates
  and every unscoped buffer ends at the last boundary's contents (`run_all`). The frame claim follows because no item
  writes an argument array (`frame`).
-/
import proofs.«415884_j3539053052569_2_alg».proof.Proof.Kernel.Fr0
import proofs.«415884_j3539053052569_2_alg».proof.Proof.Kernel.Fr1
import proofs.«415884_j3539053052569_2_alg».proof.Proof.Kernel.Fr2
import proofs.«415884_j3539053052569_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch. -/
abbrev W0 : Dev nD → Valuation τ sig (Elt F) := fun c b => (s₀ m ρ).mem ((c : Dev nD), b)
/-- After the first stretch of host operations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (each input as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (each input as entered, the output's write-backs folded),
    every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves (each input as entered, the output's write-backs folded),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the three closing stretches: the counts and the division, the row lengths, the final division. -/
abbrev W7 : Dev nD → Valuation τ sig (Elt F) := fun c => StableHlo.after hostOps3 (W6 m ρ c)
abbrev W8 : Dev nD → Valuation τ sig (Elt F) := fun c => StableHlo.after hostOps3_1 (W7 m ρ c)
abbrev W9 : Dev nD → Valuation τ sig (Elt F) := fun c => StableHlo.after hostOps3_2 (W8 m ρ c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (c : Dev nD) : sProp 𝕄 := iprop(StableHlo.held (c : Thread nD τ) (Pipeline.ucRefs τ sig) (W9 m ρ c) ∗ ∃ r, prngReg c r)

/-- Region 2's class invariant (the scoped rest, the generator register) from what the region's entry hands over, -/
theorem intoΦA2 (c : Dev nD) (P : sProp 𝕄) :
    iprop((∃ r, prngReg c r) ∗ P ∗ Pipeline.scopedRest spec2 c) ⊢ (Pipeline.ΦA spec2 c : sProp 𝕄) := by
  unfold Pipeline.ΦA
  iintro ⟨Hp, -, Hr⟩
  isplitl [Hr]; · iexact Hr
  iexact Hp
/-- and back at the exit. -/
theorem fromΦA2 (c : Dev nD) :
    (Pipeline.ΦA spec2 c : sProp 𝕄) ⊢ iprop((∃ r, prngReg c r) ∗ BI.emp ∗ Pipeline.scopedRest spec2 c) := by
  unfold Pipeline.ΦA
  iintro ⟨Hr, Hp⟩
  isplitl [Hp]; · iexact Hp
  isplitr; · iempintro
  iexact Hr

/-! ## The regions as segments -/

set_option backward.isDefEq.respectTransparency.types false in
/-- Region 0 over the thread state: entered from every unscoped buffer at `W1`, left at `W2`. Its arrays are split out
    of the unscoped buffers on entry and put back at their exit contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out
    of the unscoped buffers on entry and put back at their exit contents; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split out
    of the unscoped buffers on entry and put back at their exit contents; the generator register goes into the region's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (intoΦA2 c _).trans (hin2 (V5 m ρ) c)
  hout c := by
    rw [Pipeline.ownSems0_none]
    exact (hout2 (V5 m ρ) c).trans (fromΦA2 c)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .host (hseg hostOps3_1 hostOps3_1_sub hostOps3_1_fresh (W7 m ρ)),
    .host (hseg hostOps3_2 hostOps3_2_sub hostOps3_2_fresh (W8 m ρ)) ]

theorem main_run (c : Dev nD) : main (F := F) c = Pipeline.Seg.run (segs m ρ) := (main_chain c).trans (by chain_rfl)

set_option backward.isDefEq.respectTransparency.types false in
set_option maxHeartbeats 4000000 in
/-- THE RUN: from any memory with zero counters every weakly fair execution of the program terminates, nothing faulting,
    and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (W9 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.Kernel.Hand

end
-- ==== Proof.Kernel.FrFrame.lean ====
/-
  The frame claim of the kernel program, for any float family: the argument arrays end as launched.

  No stretch of host operations writes an argument array (each writes only the buffers of its own results), and a
  region changes only its output array — an argument it reads through an input window is left as found. So at every
  argument the fold of buffer contents through the program walks back to the launch memory, and the run's post, which
  has every unscoped buffer at the last boundary's contents, gives the claim.
-/
import proofs.«415884_j3539053052569_2_alg».proof.Proof.Kernel.FrRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What each item leaves unchanged -/

/-- A stretch of host operations leaves every buffer it does not write. -/
theorem W1_keep (c : Dev nD) (b : Ref sig .tc) (h : b ∉ hostOps0_W) : W1 m ρ c (Proc.devRef .tc b) = W0 m ρ c (Proc.devRef .tc b) :=
  StableHlo.after_of_writes_sub hostOps0 _ hostOps0_writes h
theorem W3_keep (c : Dev nD) (b : Ref sig .tc) (h : b ∉ hostOps1_W) : W3 m ρ c (Proc.devRef .tc b) = W2 m ρ c (Proc.devRef .tc b) :=
  StableHlo.after_of_writes_sub hostOps1 _ hostOps1_writes h
theorem W5_keep (c : Dev nD) (b : Ref sig .tc) (h : b ∉ hostOps2_W) : W5 m ρ c (Proc.devRef .tc b) = W4 m ρ c (Proc.devRef .tc b) :=
  StableHlo.after_of_writes_sub hostOps2 _ hostOps2_writes h
theorem W7_keep (c : Dev nD) (b : Ref sig .tc) (h : b ∉ hostOps3_W) : W7 m ρ c (Proc.devRef .tc b) = W6 m ρ c (Proc.devRef .tc b) :=
  StableHlo.after_of_writes_sub hostOps3 _ hostOps3_writes h
theorem W8_keep (c : Dev nD) (b : Ref sig .tc) (h : b ∉ hostOps3_1_W) : W8 m ρ c (Proc.devRef .tc b) = W7 m ρ c (Proc.devRef .tc b) :=
  StableHlo.after_of_writes_sub hostOps3_1 _ hostOps3_1_writes h
theorem W9_keep (c : Dev nD) (b : Ref sig .tc) (h : b ∉ hostOps3_2_W) : W9 m ρ c (Proc.devRef .tc b) = W8 m ρ c (Proc.devRef .tc b) :=
  StableHlo.after_of_writes_sub hostOps3_2 _ hostOps3_2_writes h

/-- Region 0 changes no buffer but its output array: an input window's array is left as found, and no other buffer is
    one of its windows' arrays. -/
theorem W2_keep (c : Dev nD) (b : Ref sig .tc) (hb : b ≠ main_v15) :
    W2 m ρ c (Proc.devRef .tc b) = W1 m ρ c (Proc.devRef .tc b) := by
  by_cases h : ∃ w, Pipeline.arrRef spec0 w = b
  · obtain ⟨w, rfl⟩ := h
    rw [W2_arr]
    match w, hb with
    | ⟨0, _⟩, _ => exact ((dat0 (V1 m ρ) c).arrAt_in 0 rfl _).trans (A_eq0 (V1 m ρ) c 0)
    | ⟨1, _⟩, _ => exact ((dat0 (V1 m ρ) c).arrAt_in 1 rfl _).trans (A_eq0 (V1 m ρ) c 1)
    | ⟨2, _⟩, _ => exact ((dat0 (V1 m ρ) c).arrAt_in 2 rfl _).trans (A_eq0 (V1 m ρ) c 2)
    | ⟨3, _⟩, _ => exact ((dat0 (V1 m ρ) c).arrAt_in 3 rfl _).trans (A_eq0 (V1 m ρ) c 3)
    | ⟨4, _⟩, _ => exact ((dat0 (V1 m ρ) c).arrAt_in 4 rfl _).trans (A_eq0 (V1 m ρ) c 4)
    | ⟨5, _⟩, hb => exact absurd rfl hb
  · exact W2_of_ne m ρ c b (fun w e => h ⟨w, e⟩)

/-- Region 1 changes no buffer but its output array: an input window's array is left as found, and no other buffer is
    one of its windows' arrays. -/
theorem W4_keep (c : Dev nD) (b : Ref sig .tc) (hb : b ≠ main_v28) :
    W4 m ρ c (Proc.devRef .tc b) = W3 m ρ c (Proc.devRef .tc b) := by
  by_cases h : ∃ w, Pipeline.arrRef spec1 w = b
  · obtain ⟨w, rfl⟩ := h
    rw [W4_arr]
    match w, hb with
    | ⟨0, _⟩, _ => exact ((dat1 (V3 m ρ) c).arrAt_in 0 rfl _).trans (A_eq1 (V3 m ρ) c 0)
    | ⟨1, _⟩, _ => exact ((dat1 (V3 m ρ) c).arrAt_in 1 rfl _).trans (A_eq1 (V3 m ρ) c 1)
    | ⟨2, _⟩, _ => exact ((dat1 (V3 m ρ) c).arrAt_in 2 rfl _).trans (A_eq1 (V3 m ρ) c 2)
    | ⟨3, _⟩, _ => exact ((dat1 (V3 m ρ) c).arrAt_in 3 rfl _).trans (A_eq1 (V3 m ρ) c 3)
    | ⟨4, _⟩, _ => exact ((dat1 (V3 m ρ) c).arrAt_in 4 rfl _).trans (A_eq1 (V3 m ρ) c 4)
    | ⟨5, _⟩, hb => exact absurd rfl hb
  · exact W4_of_ne m ρ c b (fun w e => h ⟨w, e⟩)

/-- Region 2 changes no buffer but its output array: an input window's array is left as found, and no other buffer is
    one of its windows' arrays. -/
theorem W6_keep (c : Dev nD) (b : Ref sig .tc) (hb : b ≠ main_v48) :
    W6 m ρ c (Proc.devRef .tc b) = W5 m ρ c (Proc.devRef .tc b) := by
  by_cases h : ∃ w, Pipeline.arrRef spec2 w = b
  · obtain ⟨w, rfl⟩ := h
    rw [W6_arr]
    match w, hb with
    | ⟨0, _⟩, _ => exact ((dat2 (V5 m ρ) c).arrAt_in 0 rfl _).trans (A_eq2 (V5 m ρ) c 0)
    | ⟨1, _⟩, _ => exact ((dat2 (V5 m ρ) c).arrAt_in 1 rfl _).trans (A_eq2 (V5 m ρ) c 1)
    | ⟨2, _⟩, _ => exact ((dat2 (V5 m ρ) c).arrAt_in 2 rfl _).trans (A_eq2 (V5 m ρ) c 2)
    | ⟨3, _⟩, _ => exact ((dat2 (V5 m ρ) c).arrAt_in 3 rfl _).trans (A_eq2 (V5 m ρ) c 3)
    | ⟨4, _⟩, _ => exact ((dat2 (V5 m ρ) c).arrAt_in 4 rfl _).trans (A_eq2 (V5 m ρ) c 4)
    | ⟨5, _⟩, _ => exact ((dat2 (V5 m ρ) c).arrAt_in 5 rfl _).trans (A_eq2 (V5 m ρ) c 5)
    | ⟨6, _⟩, hb => exact absurd rfl hb
  · exact W6_of_ne m ρ c b (fun w e => h ⟨w, e⟩)

/-- A buffer that no host stretch writes and that is no region's output array ends as launched. -/
theorem W9_launch (c : Dev nD) (b : Ref sig .tc) (h0 : b ∉ hostOps0_W) (h1 : b ∉ hostOps1_W) (h2 : b ∉ hostOps2_W)
    (h3 : b ∉ hostOps3_W) (h4 : b ∉ hostOps3_1_W) (h5 : b ∉ hostOps3_2_W)
    (hb0 : b ≠ main_v15) (hb1 : b ≠ main_v28) (hb2 : b ≠ main_v48) :
    W9 m ρ c (Proc.devRef .tc b) = m ((c : Thread nD τ).loc b) :=
  (W9_keep m ρ c b h5).trans <| (W8_keep m ρ c b h4).trans <| (W7_keep m ρ c b h3).trans <| (W6_keep m ρ c b hb2).trans <|
    (W5_keep m ρ c b h2).trans <| (W4_keep m ρ c b hb1).trans <| (W3_keep m ρ c b h1).trans <| (W2_keep m ρ c b hb0).trans <|
    (W1_keep m ρ c b h0).trans rfl

theorem W9_main_arg0 (c : Dev nD) : W9 m ρ c (Proc.devRef .tc main_arg0) = m ((c : Thread nD τ).loc main_arg0) :=
  W9_launch m ρ c main_arg0 (by decide) (by decide) (by decide) (by decide) (by decide) (by decide) (by decide) (by decide) (by decide)
theorem W9_main_arg1 (c : Dev nD) : W9 m ρ c (Proc.devRef .tc main_arg1) = m ((c : Thread nD τ).loc main_arg1) :=
  W9_launch m ρ c main_arg1 (by decide) (by decide) (by decide) (by decide) (by decide) (by decide) (by decide) (by decide) (by decide)
theorem W9_main_arg2 (c : Dev nD) : W9 m ρ c (Proc.devRef .tc main_arg2) = m ((c : Thread nD τ).loc main_arg2) :=
  W9_launch m ρ c main_arg2 (by decide) (by decide) (by decide) (by decide) (by decide) (by decide) (by decide) (by decide) (by decide)
theorem W9_main_arg3 (c : Dev nD) : W9 m ρ c (Proc.devRef .tc main_arg3) = m ((c : Thread nD τ).loc main_arg3) :=
  W9_launch m ρ c main_arg3 (by decide) (by decide) (by decide) (by decide) (by decide) (by decide) (by decide) (by decide) (by decide)
theorem W9_main_arg4 (c : Dev nD) : W9 m ρ c (Proc.devRef .tc main_arg4) = m ((c : Thread nD τ).loc main_arg4) :=
  W9_launch m ρ c main_arg4 (by decide) (by decide) (by decide) (by decide) (by decide) (by decide) (by decide) (by decide) (by decide)
theorem W9_main_arg5 (c : Dev nD) : W9 m ρ c (Proc.devRef .tc main_arg5) = m ((c : Thread nD τ).loc main_arg5) :=
  W9_launch m ρ c main_arg5 (by decide) (by decide) (by decide) (by decide) (by decide) (by decide) (by decide) (by decide) (by decide)
theorem W9_main_arg6 (c : Dev nD) : W9 m ρ c (Proc.devRef .tc main_arg6) = m ((c : Thread nD τ).loc main_arg6) :=
  W9_launch m ρ c main_arg6 (by decide) (by decide) (by decide) (by decide) (by decide) (by decide) (by decide) (by decide) (by decide)
theorem W9_main_arg7 (c : Dev nD) : W9 m ρ c (Proc.devRef .tc main_arg7) = m ((c : Thread nD τ).loc main_arg7) :=
  W9_launch m ρ c main_arg7 (by decide) (by decide) (by decide) (by decide) (by decide) (by decide) (by decide) (by decide) (by decide)
theorem W9_main_arg8 (c : Dev nD) : W9 m ρ c (Proc.devRef .tc main_arg8) = m ((c : Thread nD τ).loc main_arg8) :=
  W9_launch m ρ c main_arg8 (by decide) (by decide) (by decide) (by decide) (by decide) (by decide) (by decide) (by decide) (by decide)
theorem W9_main_arg9 (c : Dev nD) : W9 m ρ c (Proc.devRef .tc main_arg9) = m ((c : Thread nD τ).loc main_arg9) :=
  W9_launch m ρ c main_arg9 (by decide) (by decide) (by decide) (by decide) (by decide) (by decide) (by decide) (by decide) (by decide)
theorem W9_main_arg10 (c : Dev nD) : W9 m ρ c (Proc.devRef .tc main_arg10) = m ((c : Thread nD τ).loc main_arg10) :=
  W9_launch m ρ c main_arg10 (by decide) (by decide) (by decide) (by decide) (by decide) (by decide) (by decide) (by decide) (by decide)
theorem W9_main_arg11 (c : Dev nD) : W9 m ρ c (Proc.devRef .tc main_arg11) = m ((c : Thread nD τ).loc main_arg11) :=
  W9_launch m ρ c main_arg11 (by decide) (by decide) (by decide) (by decide) (by decide) (by decide) (by decide) (by decide) (by decide)

/-- THE FRAME: from any memory with zero counters every weakly fair execution of the program terminates, nothing
    faulting, and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W9_main_arg0 m ρ c),
    (h c _ (mem_uc main_arg1 (by decide))).trans (W9_main_arg1 m ρ c),
    (h c _ (mem_uc main_arg2 (by decide))).trans (W9_main_arg2 m ρ c),
    (h c _ (mem_uc main_arg3 (by decide))).trans (W9_main_arg3 m ρ c),
    (h c _ (mem_uc main_arg4 (by decide))).trans (W9_main_arg4 m ρ c),
    (h c _ (mem_uc main_arg5 (by decide))).trans (W9_main_arg5 m ρ c),
    (h c _ (mem_uc main_arg6 (by decide))).trans (W9_main_arg6 m ρ c),
    (h c _ (mem_uc main_arg7 (by decide))).trans (W9_main_arg7 m ρ c),
    (h c _ (mem_uc main_arg8 (by decide))).trans (W9_main_arg8 m ρ c),
    (h c _ (mem_uc main_arg9 (by decide))).trans (W9_main_arg9 m ρ c),
    (h c _ (mem_uc main_arg10 (by decide))).trans (W9_main_arg10 m ρ c),
    (h c _ (mem_uc main_arg11 (by decide))).trans (W9_main_arg11 m ρ c)⟩) (run_all m ρ)

end Cert.Kernel.Hand

end
-- ==== Proof.KernelIdeal.Fr0.lean ====
/-
  Region 0 of the kernel program: the first GraphConv layer's dense part, one block of 2000 node rows per grid point.

  At a grid point the body reads five whole staging buffers — the aggregated neighbour features and the node features
  of the point's 2000 rows, the two weight rows and the bias row — and stores one whole block of the output: the
  payload of its single store, a pure function of the five loads. Everything here is stated at a PARAMETER `V`, the
  contents of the TensorCore's buffers when the region is entered, and for any float family `F`.

  What is proved: the body's triple on whole staging buffers (the output buffer ends at the store's payload read back
  as one piece covering it), the proof data of the pipeline (each input's buffer holds its block of the entry array at
  every point; the output's holds the payload of the input blocks), and the body obligation of the pipeline library at
  every grid point. Nothing is owed to another core and the region's invariant is the scoped rest with the generator
  register, untouched.
-/
import proofs.«415884_j3539053052569_2_alg».proof.Proof.Gen.KernelIdeal.Launch
import proofs.«415884_j3539053052569_2_alg».proof.Proof.Gen.KernelIdeal.Skeleton
import proofs.«415884_j3539053052569_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rows `2000 t … 2000 t + 1999` of its array as the region finds it (a weight or
    bias window: the whole array). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there or
    kept it from the point before (its block index did not move), for any proof data over the entry arrays whose body
    leaves the block in place. One statement per input window, each at its literal window index. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take a whole buffer -/

abbrev r0_col : Rect S2000x1 := Rect.unit (s := S2000x1) ![0, 0] S2000x1.size inb_S2000x1_S2000x1_0_0
abbrev r0_row : Rect S1x128 := Rect.unit (s := S1x128) ![0, 0] S1x128.size inb_S1x128_S1x128_0_0
abbrev r0_out : Rect S2000x128 := Rect.unit (s := S2000x128) ![0, 0] S2000x128.size inb_S2000x128_S2000x128_0_0

/-! ## What the body leaves in the output window's buffer -/

/-- The output staging buffer after the body, from the five input blocks: its one store as one piece. -/
def out0_5 (x0 x1 : Vec F S2000x1 .f32) (x2 x3 x4 : Vec F S1x128 .f32) : Vec F S2000x128 .bf16 :=
  View.canon [⟨r0_out, k0_pay1 (View.ld x0 r0_col) (View.ld x1 r0_col) (View.ld x2 r0_row) (View.ld x3 r0_row) (View.ld x4 r0_row)⟩]

/-- The one store's rectangle is the whole buffer, so it covers it. -/
theorem cover0_5 (p0 : Vec F S2000x128 .bf16) (y : S2000x128.Idx) :
    ∃ pc ∈ ([⟨r0_out, p0⟩] : List (View.Piece (Elt F) S2000x128 .bf16)), y ∈ pc.1.set :=
  View.cover_of_tiled [⟨r0_out, p0⟩] S2000x128.size (by rfl) y

/-! ## The body's triple -/

set_option maxHeartbeats 4000000 in
/-- The kernel body on whole staging buffers, the inputs' at contents `x0 … x4` and the output's at anything, runs to
    the continuation holding the inputs' as they were and the output's at `out0_5` of the inputs'. -/
theorem sound_kernel0 (c : Dev nD) (E : Set ℕ) (i : grid0.Coords)
    (arg1 : Memref sig .tc .vmem S2000x1 .f32) (harg1 : arg1.IsWhole) (arg2 : Memref sig .tc .vmem S2000x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .bf16) (harg6 : arg6.IsWhole)
    (x0 x1 : Vec F S2000x1 .f32) (x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__graphconv_kernel i arg1 harg1 arg2 harg2 arg3 harg3 arg4 harg4 arg5 harg5 arg6 harg6) K := by
  simp only [cc0__graphconv_kernel_eq_skeleton]; unfold cc0__graphconv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of this region's pipeline on core `c`: the arrays as the region finds them; after the body at point `t` each
    input's buffer at its block and the output's at `out0_5` of the input blocks; the invariant the scoped rest and
    the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 4000000 in
/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Fr1.lean ====
/-
  Region 1 of the kernel program: the second GraphConv layer's dense part, one block of 2000 node rows per grid point.

  At a grid point the body reads five whole staging buffers — the aggregated neighbour features (f32) and the node
  features (the first layer's output, stored as bf16) of the point's 2000 rows, the two weight matrices and the bias
  row — and stores one whole block of the output: the payload of its single store, a pure function of the five loads.
  Everything is stated at a PARAMETER `V`, the contents of the TensorCore's buffers when the region is entered, and for
  any float family `F`.

  What is proved: the body's triple on whole staging buffers, the proof data of the pipeline (each input's buffer holds
  its block of the entry array at every point; the output's holds the payload of the input blocks), and the body
  obligation of the pipeline library at every grid point. Nothing is owed to another core and the region's invariant is
  the scoped rest with the generator register, untouched.
-/
import proofs.«415884_j3539053052569_2_alg».proof.Proof.Gen.KernelIdeal.Launch
import proofs.«415884_j3539053052569_2_alg».proof.Proof.Gen.KernelIdeal.Skeleton
import proofs.«415884_j3539053052569_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rows `2000 t … 2000 t + 1999` of its array as the region finds it (a weight or
    bias window: the whole array). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the pipeline fetched it there or
    kept it from the point before (its block index did not move), for any proof data over the entry arrays whose body
    leaves the block in place. One statement per input window, each at its literal window index. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take a whole buffer -/

abbrev r1_in : Rect S2000x128 := Rect.unit (s := S2000x128) ![0, 0] S2000x128.size inb_S2000x128_S2000x128_0_0
abbrev r1_w : Rect S128x256 := Rect.unit (s := S128x256) ![0, 0] S128x256.size inb_S128x256_S128x256_0_0
abbrev r1_row : Rect S1x256 := Rect.unit (s := S1x256) ![0, 0] S1x256.size inb_S1x256_S1x256_0_0
abbrev r1_out : Rect S2000x256 := Rect.unit (s := S2000x256) ![0, 0] S2000x256.size inb_S2000x256_S2000x256_0_0

/-! ## What the body leaves in the output window's buffer -/

/-- The output staging buffer after the body, from the five input blocks: its one store as one piece. -/
def out1_5 (x0 : Vec F S2000x128 .f32) (x1 : Vec F S2000x128 .bf16) (x2 x3 : Vec F S128x256 .f32) (x4 : Vec F S1x256 .f32) : Vec F S2000x256 .bf16 :=
  View.canon [⟨r1_out, k1_pay1 (View.ld x0 r1_in) (View.ld x1 r1_in) (View.ld x2 r1_w) (View.ld x3 r1_w) (View.ld x4 r1_row)⟩]

/-- The one store's rectangle is the whole buffer, so it covers it. -/
theorem cover1_5 (p0 : Vec F S2000x256 .bf16) (y : S2000x256.Idx) :
    ∃ pc ∈ ([⟨r1_out, p0⟩] : List (View.Piece (Elt F) S2000x256 .bf16)), y ∈ pc.1.set :=
  View.cover_of_tiled [⟨r1_out, p0⟩] S2000x256.size (by rfl) y

/-! ## The body's triple -/

set_option maxHeartbeats 4000000 in
/-- The kernel body on whole staging buffers, the inputs' at contents `x0 … x4` and the output's at anything, runs to
    the continuation holding the inputs' as they were and the output's at `out1_5` of the inputs'. -/
theorem sound_kernel1 (c : Dev nD) (E : Set ℕ) (i : grid1.Coords)
    (arg1 : Memref sig .tc .vmem S2000x128 .f32) (harg1 : arg1.IsWhole) (arg2 : Memref sig .tc .vmem S2000x128 .bf16) (harg2 : arg2.IsWhole)
    (arg3 : Memref sig .tc .vmem S128x256 .f32) (harg3 : arg3.IsWhole) (arg4 : Memref sig .tc .vmem S128x256 .f32) (harg4 : arg4.IsWhole)
    (arg5 : Memref sig .tc .vmem S1x256 .f32) (harg5 : arg5.IsWhole) (arg6 : Memref sig .tc .vmem S2000x256 .bf16) (harg6 : arg6.IsWhole)
    (x0 : Vec F S2000x128 .f32) (x1 : Vec F S2000x128 .bf16) (x2 x3 : Vec F S128x256 .f32) (x4 : Vec F S1x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__graphconv_kernel i arg1 harg1 arg2 harg2 arg3 harg3 arg4 harg4 arg5 harg5 arg6 harg6) K := by
  simp only [cc1__graphconv_kernel_eq_skeleton]; unfold cc1__graphconv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this region's pipeline on core `c`: the arrays as the region finds them; after the body at point `t` each
    input's buffer at its block and the output's at `out1_5` of the input blocks; the invariant the scoped rest and
    the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 4000000 in
/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Fr2.lean ====
/-
  Region 2 of the kernel program: the second GraphConv layer's dense part fused with the pooling sum, one block of
  2000 node rows per grid point, fifty points.

  The kernel keeps a 64 × 512 accumulator in a scratch buffer of its own, which lives from point to point. At the
  first point it clears the accumulator; at every point it reads six whole staging buffers — the aggregated neighbour
  features and the node features of the point's 2000 rows, the two weight matrices, the bias row and the point's
  rows of the one-hot pooling matrix — and adds to the accumulator the pooling matrix transposed times the layer's
  output on these rows; at the last point it copies the accumulator into the output window's buffer. So a point is
  in one of three cases: the first point (A: clear, accumulate), a middle point (B: accumulate), the last point
  (C: accumulate, copy out). The output window is stored only in case C; at every other point its buffer is handed
  back as it was found and is not written back.

  Everything here is stated at a PARAMETER `V`, the contents of the TensorCore's buffers when the region is
  entered, and for any float family `F`.

  What is proved: the body's triple in each of the three cases on whole staging buffers (the pieces the stores leave
  in the output buffer and in the accumulator are found by running the body); what the output buffer and the
  accumulator hold after each point, by recursion on the point (`outsAt2`); the proof data of the pipeline (each
  input's buffer holds its block of the entry array at every point; the region's invariant names the accumulator's
  contents after each point); the body obligation of the pipeline library at every grid point; and that the
  invariant before the first point and after the last is the scoped rest with the generator register.
-/
import proofs.«415884_j3539053052569_2_alg».proof.Proof.Gen.KernelIdeal.Launch
import proofs.«415884_j3539053052569_2_alg».proof.Proof.Gen.KernelIdeal.Skeleton
import proofs.«415884_j3539053052569_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: for the three row-blocked inputs the rows `2000 t … 2000 t + 1999` of its array
    as the region finds it, for the weights, the bias and the output the whole array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the pipeline fetched it there or
    kept it from the point before (its block index did not move), for any proof data over the entry arrays whose body
    leaves the block in place. One statement per input window, each at its literal window index. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, over the grid -/

/-- The condition of the body's first `scf.if` (the accumulator is cleared), from the grid coordinate. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 50 = 0 :=
  (by decide +kernel : ∀ t : Fin grid2.N, cond2_0 (grid2.coords t) ↔ t.val % 50 = 0)

/-- The condition of the body's second `scf.if` (the accumulator is copied to the output window). -/
abbrev cond2_1 (i : grid2.Coords) : Prop := k2_cond2 i = 1#1
/-- It holds at the last point only. -/
theorem hcond2_1 : ∀ t : Fin cfg2.N, cond2_1 (grid2.coords t) ↔ t.val % 50 = 49 :=
  (by decide +kernel : ∀ t : Fin grid2.N, cond2_1 (grid2.coords t) ↔ t.val % 50 = 49)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- Away from the last point the output window is idle: the body stores nothing into it, -/
theorem idleAt2_6 : ∀ t : Fin cfg2.N, ¬cond2_1 (grid2.coords t) → cfg2.idle 6 (grid2.coords t) = true := by decide +kernel
/-- and the pipeline does not write its block back. -/
theorem noFlush2_6 : ∀ t : Fin cfg2.N, ¬cond2_1 (grid2.coords t) → (cfg2.win 6).flush t = false := by decide +kernel
/-- At the last point it is live. -/
theorem liveAt2_6 : ∀ t : Fin cfg2.N, cond2_1 (grid2.coords t) → cfg2.idle 6 (grid2.coords t) = false := by decide +kernel

/-! ## The memrefs the body is called with -/

/-- One staging buffer of the output window, through which its contents are stated (the choice does not matter). -/
abbrev VO2_6 : View sig .tc .vmem S64x512 .f32 := (Memref.whole cc2_stg6_0 : Memref sig .tc .vmem S64x512 .f32).view
/-- Each window's current staging memref at point `t`, spelled as the pipeline passes it, and its wholeness. -/
abbrev ms2_0 (t : Fin cfg2.N) : Memref sig .tc .vmem S2000x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S2000x64 .bf16 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S64x512 .f32 := win2_6.stage (cfg2.slots t 6)
abbrev hs2_6 (t : Fin cfg2.N) : (ms2_6 t).IsWhole := hstage2_6 ((cfg2.slots t 6).cast nbuf2_6)
/-- The accumulator: a whole scoped buffer of the kernel's own, passed beside the windows, -/
abbrev scM2_0 : Memref sig .tc .vmem S64x512 .f32 := Memref.whole cc2_scratch0
/-- and as a view: what it holds is stated through it. -/
abbrev VS2_0 : View sig .tc .vmem S64x512 .f32 := scM2_0.view

/-- The region's base invariant with the accumulator as a memref owned at some contents: the other two regions'
    staging buffers at some contents each, the accumulator, and the generator register at some state. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ d, owns (c : Thread nD τ) scM2_0 fullShare d)) ∗ (∃ r, prngReg c r)) := by
  unfold Pipeline.ΦA; rw [scopedRest2_eq]; simp only [scM2_0, owns_whole]; try rfl

/-! ## The kernel body on any whole memrefs, case by case -/

set_option maxHeartbeats 4000000 in
/-- CASE A, the first point (the accumulator cleared, then accumulated into; nothing copied out). The pieces the
    body's stores leave in the output buffer (none) and in the accumulator (last first), WITH the proof that on whole
    memrefs — the six inputs' at their contents, the output's at contents `xi6` handed back untouched, the accumulator
    at anything — the body runs to the continuation holding the inputs' and the output's as they were and the
    accumulator with its pieces written. The pieces are the witness the run finds. -/
noncomputable def kernelRun2_A (c : Dev nD) (i : grid2.Coords) (arg1 : Memref sig .tc .vmem S2000x256 .f32) (harg1 : arg1.IsWhole) (arg2 : Memref sig .tc .vmem S2000x256 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2000x64 .bf16) (harg6 : arg6.IsWhole) (arg7 : Memref sig .tc .vmem S64x512 .f32) (harg7 : arg7.IsWhole) (arg8 : Memref sig .tc .vmem S64x512 .f32) (harg8 : arg8.IsWhole) (hc0 : cond2_0 i) (hc1 : ¬cond2_1 i)
    (x0 : Vec F S2000x256 .f32) (x1 : Vec F S2000x256 .bf16) (x2 x3 : Vec F S256x512 .f32) (x4 : Vec F S1x512 .f32) (x5 : Vec F S2000x64 .bf16) :
    Σ' (L6 : List (View.Piece (Elt F) S64x512 .f32)), { LS0 : List (View.Piece (Elt F) S64x512 .f32) //
      ∀ (xi6 : Vec F S64x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc2__graphconv_pool_kernel i arg1 harg1 arg2 harg2 arg3 harg3 arg4 harg4 arg5 harg5 arg6 harg6 arg7 harg7 arg8 harg8) K } := by
  refine ⟨[], ?_, fun xi6 E K => ?run⟩
  case run =>
    simp only [cc2__graphconv_pool_kernel_eq_skeleton]; unfold cc2__graphconv_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

set_option maxHeartbeats 4000000 in
/-- CASE B, a middle point (accumulated into; nothing cleared, nothing copied out): as case A, the accumulator
    taken at the contents `xs0` the point before left. -/
noncomputable def kernelRun2_B (c : Dev nD) (i : grid2.Coords) (arg1 : Memref sig .tc .vmem S2000x256 .f32) (harg1 : arg1.IsWhole) (arg2 : Memref sig .tc .vmem S2000x256 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2000x64 .bf16) (harg6 : arg6.IsWhole) (arg7 : Memref sig .tc .vmem S64x512 .f32) (harg7 : arg7.IsWhole) (arg8 : Memref sig .tc .vmem S64x512 .f32) (harg8 : arg8.IsWhole) (hc0 : ¬cond2_0 i) (hc1 : ¬cond2_1 i)
    (x0 : Vec F S2000x256 .f32) (x1 : Vec F S2000x256 .bf16) (x2 x3 : Vec F S256x512 .f32) (x4 : Vec F S1x512 .f32) (x5 : Vec F S2000x64 .bf16) (xs0 : Vec F S64x512 .f32) :
    Σ' (L6 : List (View.Piece (Elt F) S64x512 .f32)), { LS0 : List (View.Piece (Elt F) S64x512 .f32) //
      ∀ (xi6 : Vec F S64x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc2__graphconv_pool_kernel i arg1 harg1 arg2 harg2 arg3 harg3 arg4 harg4 arg5 harg5 arg6 harg6 arg7 harg7 arg8 harg8) K } := by
  refine ⟨[], ?_, fun xi6 E K => ?run⟩
  case run =>
    simp only [cc2__graphconv_pool_kernel_eq_skeleton]; unfold cc2__graphconv_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

set_option maxHeartbeats 4000000 in
/-- CASE C, the last point (accumulated into, then copied to the output window): the accumulator taken at the
    contents `xs0` the point before left, the output's buffer at anything and left with its pieces written. -/
noncomputable def kernelRun2_C (c : Dev nD) (i : grid2.Coords) (arg1 : Memref sig .tc .vmem S2000x256 .f32) (harg1 : arg1.IsWhole) (arg2 : Memref sig .tc .vmem S2000x256 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2000x64 .bf16) (harg6 : arg6.IsWhole) (arg7 : Memref sig .tc .vmem S64x512 .f32) (harg7 : arg7.IsWhole) (arg8 : Memref sig .tc .vmem S64x512 .f32) (harg8 : arg8.IsWhole) (hc0 : ¬cond2_0 i) (hc1 : cond2_1 i)
    (x0 : Vec F S2000x256 .f32) (x1 : Vec F S2000x256 .bf16) (x2 x3 : Vec F S256x512 .f32) (x4 : Vec F S1x512 .f32) (x5 : Vec F S2000x64 .bf16) (xs0 : Vec F S64x512 .f32) :
    Σ' (L6 : List (View.Piece (Elt F) S64x512 .f32)), { LS0 : List (View.Piece (Elt F) S64x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc2__graphconv_pool_kernel i arg1 harg1 arg2 harg2 arg3 harg3 arg4 harg4 arg5 harg5 arg6 harg6 arg7 harg7 arg8 harg8) K } := by
  refine ⟨?_, ?_, fun E K => ?run⟩
  case run =>
    simp only [cc2__graphconv_pool_kernel_eq_skeleton]; unfold cc2__graphconv_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

/-! ## What each case leaves in the output buffer and in the accumulator -/

/-- Case A stores nothing into the output window (idle at its points and not written back there): no pieces — a
    placeholder (junk read back) that nothing consults. -/
def out2_A_6 (c : Dev nD) (i : grid2.Coords) (arg1 : Memref sig .tc .vmem S2000x256 .f32) (harg1 : arg1.IsWhole) (arg2 : Memref sig .tc .vmem S2000x256 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2000x64 .bf16) (harg6 : arg6.IsWhole) (arg7 : Memref sig .tc .vmem S64x512 .f32) (harg7 : arg7.IsWhole) (arg8 : Memref sig .tc .vmem S64x512 .f32) (harg8 : arg8.IsWhole) (hc0 : cond2_0 i) (hc1 : ¬cond2_1 i)
    (x0 : Vec F S2000x256 .f32) (x1 : Vec F S2000x256 .bf16) (x2 x3 : Vec F S256x512 .f32) (x4 : Vec F S1x512 .f32) (x5 : Vec F S2000x64 .bf16) : Vec F S64x512 .f32 :=
  VO2_6.read (Elt F) (VO2_6.writes (Elt F) VO2_6.junk (kernelRun2_A c i arg1 harg1 arg2 harg2 arg3 harg3 arg4 harg4 arg5 harg5 arg6 harg6 arg7 harg7 arg8 harg8 hc0 hc1 x0 x1 x2 x3 x4 x5).1)

/-- Case A's stores into the accumulator are of the whole buffer each, so its pieces cover it. -/
theorem scover2_A_0 (c : Dev nD) (i : grid2.Coords) (arg1 : Memref sig .tc .vmem S2000x256 .f32) (harg1 : arg1.IsWhole) (arg2 : Memref sig .tc .vmem S2000x256 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2000x64 .bf16) (harg6 : arg6.IsWhole) (arg7 : Memref sig .tc .vmem S64x512 .f32) (harg7 : arg7.IsWhole) (arg8 : Memref sig .tc .vmem S64x512 .f32) (harg8 : arg8.IsWhole) (hc0 : cond2_0 i) (hc1 : ¬cond2_1 i)
    (x0 : Vec F S2000x256 .f32) (x1 : Vec F S2000x256 .bf16) (x2 x3 : Vec F S256x512 .f32) (x4 : Vec F S1x512 .f32) (x5 : Vec F S2000x64 .bf16) (y : S64x512.Idx) :
    ∃ pc ∈ (kernelRun2_A c i arg1 harg1 arg2 harg2 arg3 harg3 arg4 harg4 arg5 harg5 arg6 harg6 arg7 harg7 arg8 harg8 hc0 hc1 x0 x1 x2 x3 x4 x5).2.1, y ∈ pc.1.set :=
  View.cover_of_tiledL (kernelRun2_A c i arg1 harg1 arg2 harg2 arg3 harg3 arg4 harg4 arg5 harg5 arg6 harg6 arg7 harg7 arg8 harg8 hc0 hc1 x0 x1 x2 x3 x4 x5).2.1 S64x512.size (by sl_kernel_rfl) y

/-- What case A leaves in the accumulator: its pieces read back over junk. -/
def sout2_A_0 (c : Dev nD) (i : grid2.Coords) (arg1 : Memref sig .tc .vmem S2000x256 .f32) (harg1 : arg1.IsWhole) (arg2 : Memref sig .tc .vmem S2000x256 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2000x64 .bf16) (harg6 : arg6.IsWhole) (arg7 : Memref sig .tc .vmem S64x512 .f32) (harg7 : arg7.IsWhole) (arg8 : Memref sig .tc .vmem S64x512 .f32) (harg8 : arg8.IsWhole) (hc0 : cond2_0 i) (hc1 : ¬cond2_1 i)
    (x0 : Vec F S2000x256 .f32) (x1 : Vec F S2000x256 .bf16) (x2 x3 : Vec F S256x512 .f32) (x4 : Vec F S1x512 .f32) (x5 : Vec F S2000x64 .bf16) : Vec F S64x512 .f32 :=
  VS2_0.read (Elt F) (VS2_0.writes (Elt F) VS2_0.junk (kernelRun2_A c i arg1 harg1 arg2 harg2 arg3 harg3 arg4 harg4 arg5 harg5 arg6 harg6 arg7 harg7 arg8 harg8 hc0 hc1 x0 x1 x2 x3 x4 x5).2.1)

/-- Case B stores nothing into the output window (idle at its points and not written back there): no pieces — a
    placeholder (junk read back) that nothing consults. -/
def out2_B_6 (c : Dev nD) (i : grid2.Coords) (arg1 : Memref sig .tc .vmem S2000x256 .f32) (harg1 : arg1.IsWhole) (arg2 : Memref sig .tc .vmem S2000x256 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2000x64 .bf16) (harg6 : arg6.IsWhole) (arg7 : Memref sig .tc .vmem S64x512 .f32) (harg7 : arg7.IsWhole) (arg8 : Memref sig .tc .vmem S64x512 .f32) (harg8 : arg8.IsWhole) (hc0 : ¬cond2_0 i) (hc1 : ¬cond2_1 i)
    (x0 : Vec F S2000x256 .f32) (x1 : Vec F S2000x256 .bf16) (x2 x3 : Vec F S256x512 .f32) (x4 : Vec F S1x512 .f32) (x5 : Vec F S2000x64 .bf16) (xs0 : Vec F S64x512 .f32) : Vec F S64x512 .f32 :=
  VO2_6.read (Elt F) (VO2_6.writes (Elt F) VO2_6.junk (kernelRun2_B c i arg1 harg1 arg2 harg2 arg3 harg3 arg4 harg4 arg5 harg5 arg6 harg6 arg7 harg7 arg8 harg8 hc0 hc1 x0 x1 x2 x3 x4 x5 xs0).1)

/-- Case B's stores into the accumulator are of the whole buffer each, so its pieces cover it. -/
theorem scover2_B_0 (c : Dev nD) (i : grid2.Coords) (arg1 : Memref sig .tc .vmem S2000x256 .f32) (harg1 : arg1.IsWhole) (arg2 : Memref sig .tc .vmem S2000x256 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2000x64 .bf16) (harg6 : arg6.IsWhole) (arg7 : Memref sig .tc .vmem S64x512 .f32) (harg7 : arg7.IsWhole) (arg8 : Memref sig .tc .vmem S64x512 .f32) (harg8 : arg8.IsWhole) (hc0 : ¬cond2_0 i) (hc1 : ¬cond2_1 i)
    (x0 : Vec F S2000x256 .f32) (x1 : Vec F S2000x256 .bf16) (x2 x3 : Vec F S256x512 .f32) (x4 : Vec F S1x512 .f32) (x5 : Vec F S2000x64 .bf16) (xs0 : Vec F S64x512 .f32) (y : S64x512.Idx) :
    ∃ pc ∈ (kernelRun2_B c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun2_B c i arg1 harg1 arg2 harg2 arg3 harg3 arg4 harg4 arg5 harg5 arg6 harg6 arg7 harg7 arg8 harg8 hc0 hc1 x0 x1 x2 x3 x4 x5 xs0).2.1 S64x512.size (by sl_kernel_rfl) y

/-- What case B leaves in the accumulator: its pieces read back over junk. -/
def sout2_B_0 (c : Dev nD) (i : grid2.Coords) (arg1 : Memref sig .tc .vmem S2000x256 .f32) (harg1 : arg1.IsWhole) (arg2 : Memref sig .tc .vmem S2000x256 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2000x64 .bf16) (harg6 : arg6.IsWhole) (arg7 : Memref sig .tc .vmem S64x512 .f32) (harg7 : arg7.IsWhole) (arg8 : Memref sig .tc .vmem S64x512 .f32) (harg8 : arg8.IsWhole) (hc0 : ¬cond2_0 i) (hc1 : ¬cond2_1 i)
    (x0 : Vec F S2000x256 .f32) (x1 : Vec F S2000x256 .bf16) (x2 x3 : Vec F S256x512 .f32) (x4 : Vec F S1x512 .f32) (x5 : Vec F S2000x64 .bf16) (xs0 : Vec F S64x512 .f32) : Vec F S64x512 .f32 :=
  VS2_0.read (Elt F) (VS2_0.writes (Elt F) VS2_0.junk (kernelRun2_B c i arg1 harg1 arg2 harg2 arg3 harg3 arg4 harg4 arg5 harg5 arg6 harg6 arg7 harg7 arg8 harg8 hc0 hc1 x0 x1 x2 x3 x4 x5 xs0).2.1)

/-- Case C's one store into the output window is the whole block, so its pieces cover it. -/
theorem cover2_C_6 (c : Dev nD) (i : grid2.Coords) (arg1 : Memref sig .tc .vmem S2000x256 .f32) (harg1 : arg1.IsWhole) (arg2 : Memref sig .tc .vmem S2000x256 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2000x64 .bf16) (harg6 : arg6.IsWhole) (arg7 : Memref sig .tc .vmem S64x512 .f32) (harg7 : arg7.IsWhole) (arg8 : Memref sig .tc .vmem S64x512 .f32) (harg8 : arg8.IsWhole) (hc0 : ¬cond2_0 i) (hc1 : cond2_1 i)
    (x0 : Vec F S2000x256 .f32) (x1 : Vec F S2000x256 .bf16) (x2 x3 : Vec F S256x512 .f32) (x4 : Vec F S1x512 .f32) (x5 : Vec F S2000x64 .bf16) (xs0 : Vec F S64x512 .f32) (y : S64x512.Idx) :
    ∃ pc ∈ (kernelRun2_C c i arg1 harg1 arg2 harg2 arg3 harg3 arg4 harg4 arg5 harg5 arg6 harg6 arg7 harg7 arg8 harg8 hc0 hc1 x0 x1 x2 x3 x4 x5 xs0).1, y ∈ pc.1.set :=
  View.cover_of_tiledL (kernelRun2_C c i arg1 harg1 arg2 harg2 arg3 harg3 arg4 harg4 arg5 harg5 arg6 harg6 arg7 harg7 arg8 harg8 hc0 hc1 x0 x1 x2 x3 x4 x5 xs0).1 S64x512.size (by sl_kernel_rfl) y

/-- What case C leaves in the output window's staging buffer: its pieces read back over junk. -/
def out2_C_6 (c : Dev nD) (i : grid2.Coords) (arg1 : Memref sig .tc .vmem S2000x256 .f32) (harg1 : arg1.IsWhole) (arg2 : Memref sig .tc .vmem S2000x256 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2000x64 .bf16) (harg6 : arg6.IsWhole) (arg7 : Memref sig .tc .vmem S64x512 .f32) (harg7 : arg7.IsWhole) (arg8 : Memref sig .tc .vmem S64x512 .f32) (harg8 : arg8.IsWhole) (hc0 : ¬cond2_0 i) (hc1 : cond2_1 i)
    (x0 : Vec F S2000x256 .f32) (x1 : Vec F S2000x256 .bf16) (x2 x3 : Vec F S256x512 .f32) (x4 : Vec F S1x512 .f32) (x5 : Vec F S2000x64 .bf16) (xs0 : Vec F S64x512 .f32) : Vec F S64x512 .f32 :=
  VO2_6.read (Elt F) (VO2_6.writes (Elt F) VO2_6.junk (kernelRun2_C c i arg1 harg1 arg2 harg2 arg3 harg3 arg4 harg4 arg5 harg5 arg6 harg6 arg7 harg7 arg8 harg8 hc0 hc1 x0 x1 x2 x3 x4 x5 xs0).1)

/-- Case C's stores into the accumulator are of the whole buffer each, so its pieces cover it. -/
theorem scover2_C_0 (c : Dev nD) (i : grid2.Coords) (arg1 : Memref sig .tc .vmem S2000x256 .f32) (harg1 : arg1.IsWhole) (arg2 : Memref sig .tc .vmem S2000x256 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2000x64 .bf16) (harg6 : arg6.IsWhole) (arg7 : Memref sig .tc .vmem S64x512 .f32) (harg7 : arg7.IsWhole) (arg8 : Memref sig .tc .vmem S64x512 .f32) (harg8 : arg8.IsWhole) (hc0 : ¬cond2_0 i) (hc1 : cond2_1 i)
    (x0 : Vec F S2000x256 .f32) (x1 : Vec F S2000x256 .bf16) (x2 x3 : Vec F S256x512 .f32) (x4 : Vec F S1x512 .f32) (x5 : Vec F S2000x64 .bf16) (xs0 : Vec F S64x512 .f32) (y : S64x512.Idx) :
    ∃ pc ∈ (kernelRun2_C c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun2_C c i arg1 harg1 arg2 harg2 arg3 harg3 arg4 harg4 arg5 harg5 arg6 harg6 arg7 harg7 arg8 harg8 hc0 hc1 x0 x1 x2 x3 x4 x5 xs0).2.1 S64x512.size (by sl_kernel_rfl) y

/-- What case C leaves in the accumulator: its pieces read back over junk. -/
def sout2_C_0 (c : Dev nD) (i : grid2.Coords) (arg1 : Memref sig .tc .vmem S2000x256 .f32) (harg1 : arg1.IsWhole) (arg2 : Memref sig .tc .vmem S2000x256 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2000x64 .bf16) (harg6 : arg6.IsWhole) (arg7 : Memref sig .tc .vmem S64x512 .f32) (harg7 : arg7.IsWhole) (arg8 : Memref sig .tc .vmem S64x512 .f32) (harg8 : arg8.IsWhole) (hc0 : ¬cond2_0 i) (hc1 : cond2_1 i)
    (x0 : Vec F S2000x256 .f32) (x1 : Vec F S2000x256 .bf16) (x2 x3 : Vec F S256x512 .f32) (x4 : Vec F S1x512 .f32) (x5 : Vec F S2000x64 .bf16) (xs0 : Vec F S64x512 .f32) : Vec F S64x512 .f32 :=
  VS2_0.read (Elt F) (VS2_0.writes (Elt F) VS2_0.junk (kernelRun2_C c i arg1 harg1 arg2 harg2 arg3 harg3 arg4 harg4 arg5 harg5 arg6 harg6 arg7 harg7 arg8 harg8 hc0 hc1 x0 x1 x2 x3 x4 x5 xs0).2.1)

/-! ## What the output buffer and the accumulator hold after each point -/

/-- THE ACCUMULATION. What the output window's staging buffer and the accumulator hold after the body at position `n`
    (a pair: the output buffer, then the accumulator): the case the closed forms select at `n`, run at the point's
    memrefs and input blocks, the accumulator taken at what this leaves at `n - 1`. An assignment of the conditions no
    point meets is no case. -/
def outsAt2 (c : Dev nD) : (n : ℕ) → n < cfg2.N → Vec F S64x512 .f32 × Vec F S64x512 .f32
  | 0, hn =>
      (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
       sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 50 = 0 then
      if h1 : (n + 1) % 50 = 49 then
        False.elim (by omega)
      else
        (out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩),
       sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))
    else
      if h1 : (n + 1) % 50 = 49 then
        (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2,
       sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)
      else
        (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2,
       sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)

/-- `outsAt2` at a point of case A: that case's contents. -/
theorem outsAt2_A (c : Dev nD) (t : Fin cfg2.N) (h0 : t.val % 50 = 0) (h1 : ¬t.val % 50 = 49) :
    outsAt2 V c t.val t.isLt =
      (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t),
       sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (dif_pos h0).trans ((dif_neg h1).trans rfl)

/-- `outsAt2` at a point of case B: that case's contents, over what the point before left in the accumulator. -/
theorem outsAt2_B (c : Dev nD) (t : Fin cfg2.N) (h0 : ¬t.val % 50 = 0) (h1 : ¬t.val % 50 = 49) :
    outsAt2 V c t.val t.isLt =
      (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2,
       sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left in the accumulator. -/
theorem outsAt2_C (c : Dev nD) (t : Fin cfg2.N) (h0 : ¬t.val % 50 = 0) (h1 : t.val % 50 = 49) :
    outsAt2 V c t.val t.isLt =
      (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2,
       sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the base invariant (the accumulator at anything);
    afterwards the same with the accumulator at what the point before left in it (`outsAt2`'s second component). -/
def PhiS2 (c : Dev nD) : (n : ℕ) → n ≤ cfg2.N → sProp 𝕄
  | 0, _ => Pipeline.ΦA spec2 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ owns (c : Thread nD τ) scM2_0 fullShare ((outsAt2 V c n hn).2)) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ owns (c : Thread nD τ) scM2_0 fullShare ((outsAt2 V c (n - 1) (by omega)).2)) ∗ (∃ r, prngReg c r)) := by
  cases n with
  | zero => exact absurd rfl hz
  | succ n => rfl

/-! ## The pipeline's proof data -/

/-- The proof data of pipeline 2 on core `c`: the arrays as the region finds them; after the body at point `t` each
    input's buffer at its block and the output's at `outsAt2`'s first component; the invariant `PhiS2`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 20000000 in
/-- The body at any point: the inputs' buffers hold their blocks; the closed forms say which case the point is in; the
    invariant hands the body the accumulator at what the point before left (at anything at the first point) and the
    other scoped buffers and the generator register pass through unread; the body's run in that case applies, and the
    accumulator comes back at this point's contents since its pieces cover it. Away from the last point the output
    window's buffer goes back as it came; at the last point its pieces cover it. The core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 50 := lt_of_lt_of_eq t.isLt (show cfg2.N = 50 from N_2)
  by_cases h0 : t.val % 50 = 0
  · by_cases h1 : t.val % 50 = 49
    · exfalso; omega
    · rw [show (dat2 V c).leavesExact 0 t = owns (c : Thread nD τ) (ms2_0 t) fullShare ((dat2 V c).after 0 t) from by
          unfold Dat.leavesExact; rw [liveAt2_0 t], after2_0]
      rw [show (dat2 V c).leavesExact 1 t = owns (c : Thread nD τ) (ms2_1 t) fullShare ((dat2 V c).after 1 t) from by
          unfold Dat.leavesExact; rw [liveAt2_1 t], after2_1]
      rw [show (dat2 V c).leavesExact 2 t = owns (c : Thread nD τ) (ms2_2 t) fullShare ((dat2 V c).after 2 t) from by
          unfold Dat.leavesExact; rw [liveAt2_2 t], after2_2]
      rw [show (dat2 V c).leavesExact 3 t = owns (c : Thread nD τ) (ms2_3 t) fullShare ((dat2 V c).after 3 t) from by
          unfold Dat.leavesExact; rw [liveAt2_3 t], after2_3]
      rw [show (dat2 V c).leavesExact 4 t = owns (c : Thread nD τ) (ms2_4 t) fullShare ((dat2 V c).after 4 t) from by
          unfold Dat.leavesExact; rw [liveAt2_4 t], after2_4]
      rw [show (dat2 V c).leavesExact 5 t = owns (c : Thread nD τ) (ms2_5 t) fullShare ((dat2 V c).after 5 t) from by
          unfold Dat.leavesExact; rw [liveAt2_5 t], after2_5]
      rw [Dat.leavesExact_idle (dat2 V c) 6 t (idleAt2_6 t (fun h => h1 ((hcond2_1 t).mp h))) (noFlush2_6 t (fun h => h1 ((hcond2_1 t).mp h)))]
      rw [outsAt2_A V c t h0 h1]
      unfold sout2_A_0; (try dsimp only)
      have hz : t.val = 0 := by omega
      rw [PhiS2_castSucc V c t, PhiS2_zero V c _ _ hz, PhiA2_eq]
      iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HR0 HR1 HR2 HR3 HR4 HR5 HR6 HR7 HR8 HR9 HR10 HR11 HR12 HR13 HR14 HR15 HR16 HR17 HS0 Hg]
      · isplitl [HR0 HR1 HR2 HR3 HR4 HR5 HR6 HR7 HR8 HR9 HR10 HR11 HR12 HR13 HR14 HR15 HR16 HR17 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          unfold owns; iexists _; isplitr
          swap; · iexact HS0
          ipureintro; exact View.read_writes_of_cover _ _ _ _ _ (scover2_A_0 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · by_cases h1 : t.val % 50 = 49
    · rw [show (dat2 V c).leavesExact 0 t = owns (c : Thread nD τ) (ms2_0 t) fullShare ((dat2 V c).after 0 t) from by
          unfold Dat.leavesExact; rw [liveAt2_0 t], after2_0]
      rw [show (dat2 V c).leavesExact 1 t = owns (c : Thread nD τ) (ms2_1 t) fullShare ((dat2 V c).after 1 t) from by
          unfold Dat.leavesExact; rw [liveAt2_1 t], after2_1]
      rw [show (dat2 V c).leavesExact 2 t = owns (c : Thread nD τ) (ms2_2 t) fullShare ((dat2 V c).after 2 t) from by
          unfold Dat.leavesExact; rw [liveAt2_2 t], after2_2]
      rw [show (dat2 V c).leavesExact 3 t = owns (c : Thread nD τ) (ms2_3 t) fullShare ((dat2 V c).after 3 t) from by
          unfold Dat.leavesExact; rw [liveAt2_3 t], after2_3]
      rw [show (dat2 V c).leavesExact 4 t = owns (c : Thread nD τ) (ms2_4 t) fullShare ((dat2 V c).after 4 t) from by
          unfold Dat.leavesExact; rw [liveAt2_4 t], after2_4]
      rw [show (dat2 V c).leavesExact 5 t = owns (c : Thread nD τ) (ms2_5 t) fullShare ((dat2 V c).after 5 t) from by
          unfold Dat.leavesExact; rw [liveAt2_5 t], after2_5]
      rw [show (dat2 V c).leavesExact 6 t = owns (c : Thread nD τ) (ms2_6 t) fullShare ((dat2 V c).after 6 t) from by
          unfold Dat.leavesExact; rw [liveAt2_6 t ((hcond2_1 t).mpr h1)], after2_6]
      rw [outsAt2_C V c t h0 h1]
      unfold out2_C_6 sout2_C_0; (try dsimp only)
      have hz : t.val ≠ 0 := by omega
      rw [PhiS2_castSucc V c t, PhiS2_pos V c _ _ hz]
      iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HR0 HR1 HR2 HR3 HR4 HR5 HR6 HR7 HR8 HR9 HR10 HR11 HR12 HR13 HR14 HR15 HR16 HR17 HS0 Hg]
      · isplitl [HR0 HR1 HR2 HR3 HR4 HR5 HR6 HR7 HR8 HR9 HR10 HR11 HR12 HR13 HR14 HR15 HR16 HR17 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          unfold owns; iexists _; isplitr
          swap; · iexact HS0
          ipureintro; exact View.read_writes_of_cover _ _ _ _ _ (scover2_C_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover2_C_6 c _ _ _ _ _ _ _ _ _ _ _ _ _ _ _ _ _ _ _ _ _ _ _ _ _ _)
    · rw [show (dat2 V c).leavesExact 0 t = owns (c : Thread nD τ) (ms2_0 t) fullShare ((dat2 V c).after 0 t) from by
          unfold Dat.leavesExact; rw [liveAt2_0 t], after2_0]
      rw [show (dat2 V c).leavesExact 1 t = owns (c : Thread nD τ) (ms2_1 t) fullShare ((dat2 V c).after 1 t) from by
          unfold Dat.leavesExact; rw [liveAt2_1 t], after2_1]
      rw [show (dat2 V c).leavesExact 2 t = owns (c : Thread nD τ) (ms2_2 t) fullShare ((dat2 V c).after 2 t) from by
          unfold Dat.leavesExact; rw [liveAt2_2 t], after2_2]
      rw [show (dat2 V c).leavesExact 3 t = owns (c : Thread nD τ) (ms2_3 t) fullShare ((dat2 V c).after 3 t) from by
          unfold Dat.leavesExact; rw [liveAt2_3 t], after2_3]
      rw [show (dat2 V c).leavesExact 4 t = owns (c : Thread nD τ) (ms2_4 t) fullShare ((dat2 V c).after 4 t) from by
          unfold Dat.leavesExact; rw [liveAt2_4 t], after2_4]
      rw [show (dat2 V c).leavesExact 5 t = owns (c : Thread nD τ) (ms2_5 t) fullShare ((dat2 V c).after 5 t) from by
          unfold Dat.leavesExact; rw [liveAt2_5 t], after2_5]
      rw [Dat.leavesExact_idle (dat2 V c) 6 t (idleAt2_6 t (fun h => h1 ((hcond2_1 t).mp h))) (noFlush2_6 t (fun h => h1 ((hcond2_1 t).mp h)))]
      rw [outsAt2_B V c t h0 h1]
      unfold sout2_B_0; (try dsimp only)
      have hz : t.val ≠ 0 := by omega
      rw [PhiS2_castSucc V c t, PhiS2_pos V c _ _ hz]
      iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HR0 HR1 HR2 HR3 HR4 HR5 HR6 HR7 HR8 HR9 HR10 HR11 HR12 HR13 HR14 HR15 HR16 HR17 HS0 Hg]
      · isplitl [HR0 HR1 HR2 HR3 HR4 HR5 HR6 HR7 HR8 HR9 HR10 HR11 HR12 HR13 HR14 HR15 HR16 HR17 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          unfold owns; iexists _; isplitr
          swap; · iexact HS0
          ipureintro; exact View.read_writes_of_cover _ _ _ _ _ (scover2_B_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the region's two ends -/

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the base invariant back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HR0, HR1, HR2, HR3, HR4, HR5, HR6, HR7, HR8, HR9, HR10, HR11, HR12, HR13, HR14, HR15, HR16, HR17, HS0⟩, Hg⟩
  isplitl [HR0 HR1 HR2 HR3 HR4 HR5 HR6 HR7 HR8 HR9 HR10 HR11 HR12 HR13 HR14 HR15 HR16 HR17 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    isplitl [HR17]; · iexact HR17
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 50 := N_2; omega)

end Cert.KernelIdeal.Hand

end
-- ==== Proof.KernelIdeal.FrRun.lean ====
/-
  The kernel program's run, assembled: three kernel regions among six stretches of host operations.

  The buffer contents at each boundary between two items of the program are a fold from the launch memory: a stretch of
  host operations applies them; a region leaves its input arrays as it found them and its output array at what the
  write-backs of its grid points leave, every other buffer untouched. Each region is entered from "every unscoped buffer
  at the boundary's contents, the generator register at some state, nothing owed" and left in the same shape at the
  next boundary's contents; region 2's invariant carries its scratch accumulator from point to point and forgets its
  contents at the end. The launch theorem for a list of such segments then says: every weakly fair execution terminates
  and every unscoped buffer ends at the last boundary's contents (`run_all`). The frame claim follows because no item
  writes an argument array (`frame`).
-/
import proofs.«415884_j3539053052569_2_alg».proof.Proof.KernelIdeal.Fr0
import proofs.«415884_j3539053052569_2_alg».proof.Proof.KernelIdeal.Fr1
import proofs.«415884_j3539053052569_2_alg».proof.Proof.KernelIdeal.Fr2
import proofs.«415884_j3539053052569_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch. -/
abbrev W0 : Dev nD → Valuation τ sig (Elt F) := fun c b => (s₀ m ρ).mem ((c : Dev nD), b)
/-- After the first stretch of host operations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (each input as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (each input as entered, the output's write-backs folded),
    every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves (each input as entered, the output's write-backs folded),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the three closing stretches: the counts and the division, the row lengths, the final division. -/
abbrev W7 : Dev nD → Valuation τ sig (Elt F) := fun c => StableHlo.after hostOps3 (W6 m ρ c)
abbrev W8 : Dev nD → Valuation τ sig (Elt F) := fun c => StableHlo.after hostOps3_1 (W7 m ρ c)
abbrev W9 : Dev nD → Valuation τ sig (Elt F) := fun c => StableHlo.after hostOps3_2 (W8 m ρ c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (c : Dev nD) : sProp 𝕄 := iprop(StableHlo.held (c : Thread nD τ) (Pipeline.ucRefs τ sig) (W9 m ρ c) ∗ ∃ r, prngReg c r)

/-- Region 2's class invariant (the scoped rest, the generator register) from what the region's entry hands over, -/
theorem intoΦA2 (c : Dev nD) (P : sProp 𝕄) :
    iprop((∃ r, prngReg c r) ∗ P ∗ Pipeline.scopedRest spec2 c) ⊢ (Pipeline.ΦA spec2 c : sProp 𝕄) := by
  unfold Pipeline.ΦA
  iintro ⟨Hp, -, Hr⟩
  isplitl [Hr]; · iexact Hr
  iexact Hp
/-- and back at the exit. -/
theorem fromΦA2 (c : Dev nD) :
    (Pipeline.ΦA spec2 c : sProp 𝕄) ⊢ iprop((∃ r, prngReg c r) ∗ BI.emp ∗ Pipeline.scopedRest spec2 c) := by
  unfold Pipeline.ΦA
  iintro ⟨Hr, Hp⟩
  isplitl [Hp]; · iexact Hp
  isplitr; · iempintro
  iexact Hr

/-! ## The regions as segments -/

set_option backward.isDefEq.respectTransparency.types false in
/-- Region 0 over the thread state: entered from every unscoped buffer at `W1`, left at `W2`. Its arrays are split out
    of the unscoped buffers on entry and put back at their exit contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out
    of the unscoped buffers on entry and put back at their exit contents; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split out
    of the unscoped buffers on entry and put back at their exit contents; the generator register goes into the region's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (intoΦA2 c _).trans (hin2 (V5 m ρ) c)
  hout c := by
    rw [Pipeline.ownSems0_none]
    exact (hout2 (V5 m ρ) c).trans (fromΦA2 c)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .host (hseg hostOps3_1 hostOps3_1_sub hostOps3_1_fresh (W7 m ρ)),
    .host (hseg hostOps3_2 hostOps3_2_sub hostOps3_2_fresh (W8 m ρ)) ]

theorem main_run (c : Dev nD) : main (F := F) c = Pipeline.Seg.run (segs m ρ) := (main_chain c).trans (by chain_rfl)

set_option backward.isDefEq.respectTransparency.types false in
set_option maxHeartbeats 4000000 in
/-- THE RUN: from any memory with zero counters every weakly fair execution of the program terminates, nothing faulting,
    and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (W9 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.KernelIdeal.Hand

end
-- ==== Proof.KernelIdeal.FrFrame.lean ====
/-
  The frame claim of the kernel program, for any float family: the argument arrays end as launched.

  No stretch of host operations writes an argument array (each writes only the buffers of its own results), and a
  region changes only its output array — an argument it reads through an input window is left as found. So at every
  argument the fold of buffer contents through the program walks back to the launch memory, and the run's post, which
  has every unscoped buffer at the last boundary's contents, gives the claim.
-/
import proofs.«415884_j3539053052569_2_alg».proof.Proof.KernelIdeal.FrRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What each item leaves unchanged -/

/-- A stretch of host operations leaves every buffer it does not write. -/
theorem W1_keep (c : Dev nD) (b : Ref sig .tc) (h : b ∉ hostOps0_W) : W1 m ρ c (Proc.devRef .tc b) = W0 m ρ c (Proc.devRef .tc b) :=
  StableHlo.after_of_writes_sub hostOps0 _ hostOps0_writes h
theorem W3_keep (c : Dev nD) (b : Ref sig .tc) (h : b ∉ hostOps1_W) : W3 m ρ c (Proc.devRef .tc b) = W2 m ρ c (Proc.devRef .tc b) :=
  StableHlo.after_of_writes_sub hostOps1 _ hostOps1_writes h
theorem W5_keep (c : Dev nD) (b : Ref sig .tc) (h : b ∉ hostOps2_W) : W5 m ρ c (Proc.devRef .tc b) = W4 m ρ c (Proc.devRef .tc b) :=
  StableHlo.after_of_writes_sub hostOps2 _ hostOps2_writes h
theorem W7_keep (c : Dev nD) (b : Ref sig .tc) (h : b ∉ hostOps3_W) : W7 m ρ c (Proc.devRef .tc b) = W6 m ρ c (Proc.devRef .tc b) :=
  StableHlo.after_of_writes_sub hostOps3 _ hostOps3_writes h
theorem W8_keep (c : Dev nD) (b : Ref sig .tc) (h : b ∉ hostOps3_1_W) : W8 m ρ c (Proc.devRef .tc b) = W7 m ρ c (Proc.devRef .tc b) :=
  StableHlo.after_of_writes_sub hostOps3_1 _ hostOps3_1_writes h
theorem W9_keep (c : Dev nD) (b : Ref sig .tc) (h : b ∉ hostOps3_2_W) : W9 m ρ c (Proc.devRef .tc b) = W8 m ρ c (Proc.devRef .tc b) :=
  StableHlo.after_of_writes_sub hostOps3_2 _ hostOps3_2_writes h

/-- Region 0 changes no buffer but its output array: an input window's array is left as found, and no other buffer is
    one of its windows' arrays. -/
theorem W2_keep (c : Dev nD) (b : Ref sig .tc) (hb : b ≠ main_v15) :
    W2 m ρ c (Proc.devRef .tc b) = W1 m ρ c (Proc.devRef .tc b) := by
  by_cases h : ∃ w, Pipeline.arrRef spec0 w = b
  · obtain ⟨w, rfl⟩ := h
    rw [W2_arr]
    match w, hb with
    | ⟨0, _⟩, _ => exact ((dat0 (V1 m ρ) c).arrAt_in 0 rfl _).trans (A_eq0 (V1 m ρ) c 0)
    | ⟨1, _⟩, _ => exact ((dat0 (V1 m ρ) c).arrAt_in 1 rfl _).trans (A_eq0 (V1 m ρ) c 1)
    | ⟨2, _⟩, _ => exact ((dat0 (V1 m ρ) c).arrAt_in 2 rfl _).trans (A_eq0 (V1 m ρ) c 2)
    | ⟨3, _⟩, _ => exact ((dat0 (V1 m ρ) c).arrAt_in 3 rfl _).trans (A_eq0 (V1 m ρ) c 3)
    | ⟨4, _⟩, _ => exact ((dat0 (V1 m ρ) c).arrAt_in 4 rfl _).trans (A_eq0 (V1 m ρ) c 4)
    | ⟨5, _⟩, hb => exact absurd rfl hb
  · exact W2_of_ne m ρ c b (fun w e => h ⟨w, e⟩)

/-- Region 1 changes no buffer but its output array: an input window's array is left as found, and no other buffer is
    one of its windows' arrays. -/
theorem W4_keep (c : Dev nD) (b : Ref sig .tc) (hb : b ≠ main_v28) :
    W4 m ρ c (Proc.devRef .tc b) = W3 m ρ c (Proc.devRef .tc b) := by
  by_cases h : ∃ w, Pipeline.arrRef spec1 w = b
  · obtain ⟨w, rfl⟩ := h
    rw [W4_arr]
    match w, hb with
    | ⟨0, _⟩, _ => exact ((dat1 (V3 m ρ) c).arrAt_in 0 rfl _).trans (A_eq1 (V3 m ρ) c 0)
    | ⟨1, _⟩, _ => exact ((dat1 (V3 m ρ) c).arrAt_in 1 rfl _).trans (A_eq1 (V3 m ρ) c 1)
    | ⟨2, _⟩, _ => exact ((dat1 (V3 m ρ) c).arrAt_in 2 rfl _).trans (A_eq1 (V3 m ρ) c 2)
    | ⟨3, _⟩, _ => exact ((dat1 (V3 m ρ) c).arrAt_in 3 rfl _).trans (A_eq1 (V3 m ρ) c 3)
    | ⟨4, _⟩, _ => exact ((dat1 (V3 m ρ) c).arrAt_in 4 rfl _).trans (A_eq1 (V3 m ρ) c 4)
    | ⟨5, _⟩, hb => exact absurd rfl hb
  · exact W4_of_ne m ρ c b (fun w e => h ⟨w, e⟩)

/-- Region 2 changes no buffer but its output array: an input window's array is left as found, and no other buffer is
    one of its windows' arrays. -/
theorem W6_keep (c : Dev nD) (b : Ref sig .tc) (hb : b ≠ main_v48) :
    W6 m ρ c (Proc.devRef .tc b) = W5 m ρ c (Proc.devRef .tc b) := by
  by_cases h : ∃ w, Pipeline.arrRef spec2 w = b
  · obtain ⟨w, rfl⟩ := h
    rw [W6_arr]
    match w, hb with
    | ⟨0, _⟩, _ => exact ((dat2 (V5 m ρ) c).arrAt_in 0 rfl _).trans (A_eq2 (V5 m ρ) c 0)
    | ⟨1, _⟩, _ => exact ((dat2 (V5 m ρ) c).arrAt_in 1 rfl _).trans (A_eq2 (V5 m ρ) c 1)
    | ⟨2, _⟩, _ => exact ((dat2 (V5 m ρ) c).arrAt_in 2 rfl _).trans (A_eq2 (V5 m ρ) c 2)
    | ⟨3, _⟩, _ => exact ((dat2 (V5 m ρ) c).arrAt_in 3 rfl _).trans (A_eq2 (V5 m ρ) c 3)
    | ⟨4, _⟩, _ => exact ((dat2 (V5 m ρ) c).arrAt_in 4 rfl _).trans (A_eq2 (V5 m ρ) c 4)
    | ⟨5, _⟩, _ => exact ((dat2 (V5 m ρ) c).arrAt_in 5 rfl _).trans (A_eq2 (V5 m ρ) c 5)
    | ⟨6, _⟩, hb => exact absurd rfl hb
  · exact W6_of_ne m ρ c b (fun w e => h ⟨w, e⟩)

/-- A buffer that no host stretch writes and that is no region's output array ends as launched. -/
theorem W9_launch (c : Dev nD) (b : Ref sig .tc) (h0 : b ∉ hostOps0_W) (h1 : b ∉ hostOps1_W) (h2 : b ∉ hostOps2_W)
    (h3 : b ∉ hostOps3_W) (h4 : b ∉ hostOps3_1_W) (h5 : b ∉ hostOps3_2_W)
    (hb0 : b ≠ main_v15) (hb1 : b ≠ main_v28) (hb2 : b ≠ main_v48) :
    W9 m ρ c (Proc.devRef .tc b) = m ((c : Thread nD τ).loc b) :=
  (W9_keep m ρ c b h5).trans <| (W8_keep m ρ c b h4).trans <| (W7_keep m ρ c b h3).trans <| (W6_keep m ρ c b hb2).trans <|
    (W5_keep m ρ c b h2).trans <| (W4_keep m ρ c b hb1).trans <| (W3_keep m ρ c b h1).trans <| (W2_keep m ρ c b hb0).trans <|
    (W1_keep m ρ c b h0).trans rfl

theorem W9_main_arg0 (c : Dev nD) : W9 m ρ c (Proc.devRef .tc main_arg0) = m ((c : Thread nD τ).loc main_arg0) :=
  W9_launch m ρ c main_arg0 (by decide) (by decide) (by decide) (by decide) (by decide) (by decide) (by decide) (by decide) (by decide)
theorem W9_main_arg1 (c : Dev nD) : W9 m ρ c (Proc.devRef .tc main_arg1) = m ((c : Thread nD τ).loc main_arg1) :=
  W9_launch m ρ c main_arg1 (by decide) (by decide) (by decide) (by decide) (by decide) (by decide) (by decide) (by decide) (by decide)
theorem W9_main_arg2 (c : Dev nD) : W9 m ρ c (Proc.devRef .tc main_arg2) = m ((c : Thread nD τ).loc main_arg2) :=
  W9_launch m ρ c main_arg2 (by decide) (by decide) (by decide) (by decide) (by decide) (by decide) (by decide) (by decide) (by decide)
theorem W9_main_arg3 (c : Dev nD) : W9 m ρ c (Proc.devRef .tc main_arg3) = m ((c : Thread nD τ).loc main_arg3) :=
  W9_launch m ρ c main_arg3 (by decide) (by decide) (by decide) (by decide) (by decide) (by decide) (by decide) (by decide) (by decide)
theorem W9_main_arg4 (c : Dev nD) : W9 m ρ c (Proc.devRef .tc main_arg4) = m ((c : Thread nD τ).loc main_arg4) :=
  W9_launch m ρ c main_arg4 (by decide) (by decide) (by decide) (by decide) (by decide) (by decide) (by decide) (by decide) (by decide)
theorem W9_main_arg5 (c : Dev nD) : W9 m ρ c (Proc.devRef .tc main_arg5) = m ((c : Thread nD τ).loc main_arg5) :=
  W9_launch m ρ c main_arg5 (by decide) (by decide) (by decide) (by decide) (by decide) (by decide) (by decide) (by decide) (by decide)
theorem W9_main_arg6 (c : Dev nD) : W9 m ρ c (Proc.devRef .tc main_arg6) = m ((c : Thread nD τ).loc main_arg6) :=
  W9_launch m ρ c main_arg6 (by decide) (by decide) (by decide) (by decide) (by decide) (by decide) (by decide) (by decide) (by decide)
theorem W9_main_arg7 (c : Dev nD) : W9 m ρ c (Proc.devRef .tc main_arg7) = m ((c : Thread nD τ).loc main_arg7) :=
  W9_launch m ρ c main_arg7 (by decide) (by decide) (by decide) (by decide) (by decide) (by decide) (by decide) (by decide) (by decide)
theorem W9_main_arg8 (c : Dev nD) : W9 m ρ c (Proc.devRef .tc main_arg8) = m ((c : Thread nD τ).loc main_arg8) :=
  W9_launch m ρ c main_arg8 (by decide) (by decide) (by decide) (by decide) (by decide) (by decide) (by decide) (by decide) (by decide)
theorem W9_main_arg9 (c : Dev nD) : W9 m ρ c (Proc.devRef .tc main_arg9) = m ((c : Thread nD τ).loc main_arg9) :=
  W9_launch m ρ c main_arg9 (by decide) (by decide) (by decide) (by decide) (by decide) (by decide) (by decide) (by decide) (by decide)
theorem W9_main_arg10 (c : Dev nD) : W9 m ρ c (Proc.devRef .tc main_arg10) = m ((c : Thread nD τ).loc main_arg10) :=
  W9_launch m ρ c main_arg10 (by decide) (by decide) (by decide) (by decide) (by decide) (by decide) (by decide) (by decide) (by decide)
theorem W9_main_arg11 (c : Dev nD) : W9 m ρ c (Proc.devRef .tc main_arg11) = m ((c : Thread nD τ).loc main_arg11) :=
  W9_launch m ρ c main_arg11 (by decide) (by decide) (by decide) (by decide) (by decide) (by decide) (by decide) (by decide) (by decide)

/-- THE FRAME: from any memory with zero counters every weakly fair execution of the program terminates, nothing
    faulting, and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W9_main_arg0 m ρ c),
    (h c _ (mem_uc main_arg1 (by decide))).trans (W9_main_arg1 m ρ c),
    (h c _ (mem_uc main_arg2 (by decide))).trans (W9_main_arg2 m ρ c),
    (h c _ (mem_uc main_arg3 (by decide))).trans (W9_main_arg3 m ρ c),
    (h c _ (mem_uc main_arg4 (by decide))).trans (W9_main_arg4 m ρ c),
    (h c _ (mem_uc main_arg5 (by decide))).trans (W9_main_arg5 m ρ c),
    (h c _ (mem_uc main_arg6 (by decide))).trans (W9_main_arg6 m ρ c),
    (h c _ (mem_uc main_arg7 (by decide))).trans (W9_main_arg7 m ρ c),
    (h c _ (mem_uc main_arg8 (by decide))).trans (W9_main_arg8 m ρ c),
    (h c _ (mem_uc main_arg9 (by decide))).trans (W9_main_arg9 m ρ c),
    (h c _ (mem_uc main_arg10 (by decide))).trans (W9_main_arg10 m ρ c),
    (h c _ (mem_uc main_arg11 (by decide))).trans (W9_main_arg11 m ρ c)⟩) (run_all m ρ)

end Cert.KernelIdeal.Hand

end
-- ==== Proof.RefShape.lean ====
/-
  The reference program's result, layer by layer.

  The reference computes three GraphConv layers and a pooled, normalised read-out. Each layer first aggregates, for
  every node, the features of the nodes that point at it (a gather of rows by the edges' sources — negative sources
  wrapped once — followed by an accumulating scatter of those rows at the edges' destinations), then applies
  `aggregate · W_rel + b + features · W_root` (with a `max(·, 0)` after the first two layers). The read-out adds the
  last layer's rows graph by graph (an accumulating scatter at the nodes' graph ids), divides each graph's row by the
  number of its nodes (at least one), and divides the row by its Euclidean length (at least the smallest admitted one).

  The definitions below name these pieces as functions of whole arrays, for any float family; `res_eq` says the
  reference run's result term is their composition. Nothing is computed here: the equation holds by unfolding.
-/
import proofs.«415884_j3539053052569_2_alg».proof.Proof.Gen.ReferenceIdeal.Run

noncomputable section

namespace Cert.ReferenceIdeal.Shape

open Cert.ReferenceIdeal Cert.ReferenceIdeal.Gen
open Idealize.ShloMosaic Idealize.ShloMosaic.TcCoe Idealize.SL.Sem

variable {F : FTy → Type} [FloatOps F]

/-- The contents of a tensor of shape `S` and element type `e`. -/
abbrev Arr (F : FTy → Type) (S : Shape) (e : EltTy) : Type := (⟨S, e⟩ : BufTy).Contents (Elt F)

/-- The edges' sources: row 0 of the edge list. -/
def srcRow (e : Arr F S2x800000 .i32) : Arr F S800000 .i32 :=
  shapeCast S800000 (extractStridedSlice S1x800000 ![0, 0] e slices_S2x800000_S1x800000_0_0) shapeCasts_S1x800000_S800000

/-- The sources as a column of gather indices, a negative source wrapped once by the number of nodes. -/
def srcIx (e : Arr F S2x800000 .i32) : Arr F S800000x1 .i32 :=
  broadcastInDim S800000x1 ![0] bcast_S800000_S800000x1_0
    (select (cmpi .slt (srcRow e) (broadcastInDim S800000 ![] bcast_S_S800000 (constantI S_ 32 0#32)))
      (addi (srcRow e) (broadcastInDim S800000 ![] bcast_S_S800000 (constantI S_ 32 100000#32))) (srcRow e))

/-- The edges' destinations (row 1 of the edge list) as a column of scatter indices. -/
def dstIx (e : Arr F S2x800000 .i32) : Arr F S800000x1 .i32 :=
  broadcastInDim S800000x1 ![0] bcast_S800000_S800000x1_0
    (shapeCast S800000 (extractStridedSlice S1x800000 ![1, 0] e slices_S2x800000_S1x800000_1_0) shapeCasts_S1x800000_S800000)

/-- Layer 1's aggregate: for each node the sum of the features of the nodes pointing at it. -/
def agg1 (x : Arr F S100000x1 .f32) (e : Arr F S2x800000 .i32) : Arr F S100000x1 .f32 :=
  Host.scatterAdd scatter_S100000x1_S800000x1_S800000x1_1_0_0_1
    (broadcastInDim S100000x1 ![] bcast_S_S100000x1 (constant S_ .f32 0x00000000#32)) (dstIx e)
    (Host.gather gather_S100000x1_S800000x1_S800000x1_1_0_n_n_0_1_11 x (srcIx e))

/-- Layer 1 on an aggregate `a` and the features `x`: `max (a · W_rel + b + x · W_root) 0`. -/
def lay1 (a x : Arr F S100000x1 .f32) (w3 : Arr F S1x128 .f32) (b4 : Arr F S128 .f32) (w5 : Arr F S1x128 .f32) : Arr F S100000x128 .f32 :=
  maximumf
    (addf
      (addf (Host.dotGeneral dot_S100000x1_S1x128_S100000x128_1_0_0_1_n_n none a w3)
        (broadcastInDim S100000x128 ![0, 1] bcast_S1x128_S100000x128_0_1 (broadcastInDim S1x128 ![1] bcast_S128_S1x128_1 b4)))
      (Host.dotGeneral dot_S100000x1_S1x128_S100000x128_1_0_0_1_n_n none x w5))
    (broadcastInDim S100000x128 ![] bcast_S_S100000x128 (constant S_ .f32 0x00000000#32))

/-- Layer 2's aggregate. -/
def agg2 (h : Arr F S100000x128 .f32) (e : Arr F S2x800000 .i32) : Arr F S100000x128 .f32 :=
  Host.scatterAdd scatter_S100000x128_S800000x1_S800000x128_1_0_0_1
    (broadcastInDim S100000x128 ![] bcast_S_S100000x128 (constant S_ .f32 0x00000000#32)) (dstIx e)
    (Host.gather gather_S100000x128_S800000x1_S800000x128_1_0_n_n_0_1_1128 h (srcIx e))

/-- Layer 2 on an aggregate `a` and the features `h`. -/
def lay2 (a h : Arr F S100000x128 .f32) (w6 : Arr F S128x256 .f32) (b7 : Arr F S256 .f32) (w8 : Arr F S128x256 .f32) : Arr F S100000x256 .f32 :=
  maximumf
    (addf
      (addf (Host.dotGeneral dot_S100000x128_S128x256_S100000x256_1_0_0_1_n_n none a w6)
        (broadcastInDim S100000x256 ![0, 1] bcast_S1x256_S100000x256_0_1 (broadcastInDim S1x256 ![1] bcast_S256_S1x256_1 b7)))
      (Host.dotGeneral dot_S100000x128_S128x256_S100000x256_1_0_0_1_n_n none h w8))
    (broadcastInDim S100000x256 ![] bcast_S_S100000x256 (constant S_ .f32 0x00000000#32))

/-- Layer 3's aggregate. -/
def agg3 (h : Arr F S100000x256 .f32) (e : Arr F S2x800000 .i32) : Arr F S100000x256 .f32 :=
  Host.scatterAdd scatter_S100000x256_S800000x1_S800000x256_1_0_0_1
    (broadcastInDim S100000x256 ![] bcast_S_S100000x256 (constant S_ .f32 0x00000000#32)) (dstIx e)
    (Host.gather gather_S100000x256_S800000x1_S800000x256_1_0_n_n_0_1_1256 h (srcIx e))

/-- Layer 3 on an aggregate `a` and the features `h` (no `max`). -/
def lay3 (a h : Arr F S100000x256 .f32) (w9 : Arr F S256x512 .f32) (b10 : Arr F S512 .f32) (w11 : Arr F S256x512 .f32) : Arr F S100000x512 .f32 :=
  addf
    (addf (Host.dotGeneral dot_S100000x256_S256x512_S100000x512_1_0_0_1_n_n none a w9)
      (broadcastInDim S100000x512 ![0, 1] bcast_S1x512_S100000x512_0_1 (broadcastInDim S1x512 ![1] bcast_S512_S1x512_1 b10)))
    (Host.dotGeneral dot_S100000x256_S256x512_S100000x512_1_0_0_1_n_n none h w11)

/-- The node rows added graph by graph. -/
def pool (y : Arr F S100000x512 .f32) (g : Arr F S100000 .i32) : Arr F S64x512 .f32 :=
  Host.scatterAdd scatter_S64x512_S100000x1_S100000x512_1_0_0_1
    (broadcastInDim S64x512 ![] bcast_S_S64x512 (constant S_ .f32 0x00000000#32))
    (broadcastInDim S100000x1 ![0] bcast_S100000_S100000x1_0 g) y

/-- The number of nodes of each graph. -/
def count (g : Arr F S100000 .i32) : Arr F S64 .f32 :=
  Host.scatterAdd scatter_S64_S100000x1_S100000_n_0_0_1
    (broadcastInDim S64 ![] bcast_S_S64 (constant S_ .f32 0x00000000#32))
    (broadcastInDim S100000x1 ![0] bcast_S100000_S100000x1_0 g)
    (broadcastInDim S100000 ![] bcast_S_S100000 (constant S_ .f32 0x3F800000#32))

/-- The pooled sums divided, graph by graph, by the number of the graph's nodes, at least one. -/
def mean (p : Arr F S64x512 .f32) (g : Arr F S100000 .i32) : Arr F S64x512 .f32 :=
  Host.divf p
    (broadcastInDim S64x512 ![0, 1] bcast_S64x1_S64x512_0_1
      (broadcastInDim S64x1 ![0] bcast_S64_S64x1_0
        (maximumf (count g) (broadcastInDim S64 ![] bcast_S_S64 (constant S_ .f32 0x3F800000#32)))))

/-- Each row divided by its Euclidean length, at least the smallest admitted one. -/
def unit (q : Arr F S64x512 .f32) : Arr F S64x512 .f32 :=
  Host.divf q
    (broadcastInDim S64x512 ![0, 1] bcast_S64x1_S64x512_0_1
      (maximumf
        (Host.sqrt (broadcastInDim S64x1 ![0] bcast_S64_S64x1_0
          (Host.reduceAdd (mulf q q) (constant S_ .f32 0x00000000#32) reducesTo_S64x512_S64_d1 h_S_)))
        (broadcastInDim S64x1 ![] bcast_S_S64x1 (constant S_ .f32 0x2B8CBCCC#32))))

/-- The read-out of pooled sums `p` under graph ids `g`. -/
def readout (p : Arr F S64x512 .f32) (g : Arr F S100000 .i32) : Arr F S64x512 .f32 := unit (mean p g)

/-- The three layers' features from the arguments. -/
def h1 (x : Arr F S100000x1 .f32) (e : Arr F S2x800000 .i32) (w3 : Arr F S1x128 .f32) (b4 : Arr F S128 .f32) (w5 : Arr F S1x128 .f32) : Arr F S100000x128 .f32 :=
  lay1 (agg1 x e) x w3 b4 w5

variable (m : (ℓ : Loc nD τ sig) → Buf (Elt F) ℓ) (c : Dev nD)

/-- The arguments' launch contents. -/
abbrev a0 : Arr F S100000x1 .f32 := m ((c.tc : Thread nD τ).loc main_arg0)
abbrev a1 : Arr F S2x800000 .i32 := m ((c.tc : Thread nD τ).loc main_arg1)
abbrev a2 : Arr F S100000 .i32 := m ((c.tc : Thread nD τ).loc main_arg2)
abbrev a3 : Arr F S1x128 .f32 := m ((c.tc : Thread nD τ).loc main_arg3)
abbrev a4 : Arr F S128 .f32 := m ((c.tc : Thread nD τ).loc main_arg4)
abbrev a5 : Arr F S1x128 .f32 := m ((c.tc : Thread nD τ).loc main_arg5)
abbrev a6 : Arr F S128x256 .f32 := m ((c.tc : Thread nD τ).loc main_arg6)
abbrev a7 : Arr F S256 .f32 := m ((c.tc : Thread nD τ).loc main_arg7)
abbrev a8 : Arr F S128x256 .f32 := m ((c.tc : Thread nD τ).loc main_arg8)
abbrev a9 : Arr F S256x512 .f32 := m ((c.tc : Thread nD τ).loc main_arg9)
abbrev a10 : Arr F S512 .f32 := m ((c.tc : Thread nD τ).loc main_arg10)
abbrev a11 : Arr F S256x512 .f32 := m ((c.tc : Thread nD τ).loc main_arg11)

/-- Layer 1's and layer 2's features of the launch contents. -/
def f1 : Arr F S100000x128 .f32 := lay1 (agg1 (a0 m c) (a1 m c)) (a0 m c) (a3 m c) (a4 m c) (a5 m c)
def f2 : Arr F S100000x256 .f32 := lay2 (agg2 (f1 m c) (a1 m c)) (f1 m c) (a6 m c) (a7 m c) (a8 m c)
/-- Layer 3's rows, and the whole result. -/
def f3 : Arr F S100000x512 .f32 := lay3 (agg3 (f2 m c) (a1 m c)) (f2 m c) (a9 m c) (a10 m c) (a11 m c)
def result : Arr F S64x512 .f32 := readout (pool (f3 m c) (a2 m c)) (a2 m c)

set_option maxRecDepth 65536 in
set_option maxHeartbeats 4000000 in
/-- The reference run's result term is the composition of the layers and the read-out. -/
theorem res_eq : Cert.ReferenceIdeal.Value.res_main_v70 m c = result m c := by
  unfold Cert.ReferenceIdeal.Value.res_main_v70 result readout unit mean count pool f3 lay3 agg3 f2 lay2 agg2 f1 lay1 agg1 dstIx srcIx srcRow
  rfl

end Cert.ReferenceIdeal.Shape

end
-- ==== Proof.KShape.lean ====
/-
  The kernel program's host operations, stretch by stretch, as functions of whole arrays.

  Between its three kernel regions the kernel program runs the same host operations as the reference: each layer's
  aggregate (a gather of feature rows by the edges' sources, a negative source wrapped once, then an accumulating
  scatter at the edges' destinations), and at the end the read-out (pooled sums divided by the graphs' node counts,
  each row divided by its Euclidean length). Two things differ. The features of layers 1 and 2 are stored as bf16, so
  the gathered rows pass through a widening to f32 before they are scattered: at the exact instance a change of float
  format is the identity. And the kernel program builds a one-hot matrix of the graph ids for its third region.

  The definitions name these pieces for any float family; the theorems say that at the exact instance the aggregates
  and the read-out are the reference's.
-/
import proofs.«415884_j3539053052569_2_alg».proof.KernelIdeal
import proofs.«415884_j3539053052569_2_alg».proof.Proof.Gen.KernelIdeal
import proofs.«415884_j3539053052569_2_alg».proof.Proof.RefShape
import Idealize.ShloMosaic.PureOps.Ideal

noncomputable section

namespace Cert.KernelIdeal.Hand

open Cert.KernelIdeal Cert.KernelIdeal.Gen
open Idealize.ShloMosaic Idealize.ShloMosaic.TcCoe Idealize.SL.Sem

variable {F : FTy → Type} [FloatOps F]

/-- The contents of a tensor of shape `S` and element type `e`. -/
abbrev Arr (F : FTy → Type) (S : Shape) (e : EltTy) : Type := (⟨S, e⟩ : BufTy).Contents (Elt F)

/-- The edges' sources (row 0 of the edge list) and destinations (row 1). -/
def srcRow (e : Arr F S2x800000 .i32) : Arr F S800000 .i32 :=
  shapeCast S800000 (extractStridedSlice S1x800000 ![0, 0] e slices_S2x800000_S1x800000_0_0) shapeCasts_S1x800000_S800000
def dstRow (e : Arr F S2x800000 .i32) : Arr F S800000 .i32 :=
  shapeCast S800000 (extractStridedSlice S1x800000 ![1, 0] e slices_S2x800000_S1x800000_1_0) shapeCasts_S1x800000_S800000

/-- The sources as a column of gather indices, a negative source wrapped once by the number of nodes; from the row. -/
def srcIxOf (s : Arr F S800000 .i32) : Arr F S800000x1 .i32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 100000#32))) s)
/-- The destinations as a column of scatter indices; from the row. -/
def dstIxOf (d : Arr F S800000 .i32) : Arr F S800000x1 .i32 :=
  broadcastInDim S800000x1 ![0] bcast_S800000_S800000x1_0 d

/-- Layer 1's aggregate from the features, the sources' row and the destinations' row. -/
def kagg1 (x : Arr F S100000x1 .f32) (s d : Arr F S800000 .i32) : Arr F S100000x1 .f32 :=
  Host.scatterAdd scatter_S100000x1_S800000x1_S800000x1_1_0_0_1
    (broadcastInDim S100000x1 ![] bcast_S_S100000x1 (constant S_ .f32 0x00000000#32)) (dstIxOf d)
    (Host.gather gather_S100000x1_S800000x1_S800000x1_1_0_n_n_0_1_11 x (srcIxOf s))

/-- Layer 2's aggregate: the bf16 rows gathered, widened, scattered. -/
def kagg2 (h : Arr F S100000x128 .bf16) (s d : Arr F S800000 .i32) : Arr F S100000x128 .f32 :=
  Host.scatterAdd scatter_S100000x128_S800000x1_S800000x128_1_0_0_1
    (broadcastInDim S100000x128 ![] bcast_S_S100000x128 (constant S_ .f32 0x00000000#32)) (dstIxOf d)
    (extf .f32 (Host.gather gather_S100000x128_S800000x1_S800000x128_1_0_n_n_0_1_1128 h (srcIxOf s)) bitsLt_bf16_f32)

/-- Layer 3's aggregate. -/
def kagg3 (h : Arr F S100000x256 .bf16) (s d : Arr F S800000 .i32) : Arr F S100000x256 .f32 :=
  Host.scatterAdd scatter_S100000x256_S800000x1_S800000x256_1_0_0_1
    (broadcastInDim S100000x256 ![] bcast_S_S100000x256 (constant S_ .f32 0x00000000#32)) (dstIxOf d)
    (extf .f32 (Host.gather gather_S100000x256_S800000x1_S800000x256_1_0_n_n_0_1_1256 h (srcIxOf s)) bitsLt_bf16_f32)

/-- The one-hot matrix of the graph ids: entry `(n, j)` is one when node `n`'s id is the word `j`, else zero. -/
def onehot (g : Arr F S100000 .i32) : Arr F S100000x64 .bf16 :=
  uitofp .bf16
    (cmpi .eq
      (broadcastInDim S100000x64 ![0, 1] bcast_S100000x1_S100000x64_0_1 (broadcastInDim S100000x1 ![0] bcast_S100000_S100000x1_0 g))
      (broadcastInDim S100000x64 ![0, 1] bcast_S1x64_S100000x64_0_1 (broadcastInDim S1x64 ![1] bcast_S64_S1x64_1 (iotaInDim S64 32 0))))

/-- The number of nodes of each graph. -/
def kcount (g : Arr F S100000 .i32) : Arr F S64 .f32 :=
  Host.scatterAdd scatter_S64_S100000x1_S100000_n_0_0_1
    (broadcastInDim S64 ![] bcast_S_S64 (constant S_ .f32 0x00000000#32))
    (broadcastInDim S100000x1 ![0] bcast_S100000_S100000x1_0 g)
    (broadcastInDim S100000 ![] bcast_S_S100000 (constant S_ .f32 0x3F800000#32))

/-- The pooled sums divided, graph by graph, by the number of the graph's nodes, at least one. -/
def kmean (p : Arr F S64x512 .f32) (g : Arr F S100000 .i32) : Arr F S64x512 .f32 :=
  Host.divf p
    (broadcastInDim S64x512 ![0, 1] bcast_S64x1_S64x512_0_1
      (broadcastInDim S64x1 ![0] bcast_S64_S64x1_0
        (maximumf (kcount g) (broadcastInDim S64 ![] bcast_S_S64 (constant S_ .f32 0x3F800000#32)))))

/-- A row's Euclidean length, as a column. -/
def knorm (q : Arr F S64x512 .f32) : Arr F S64x1 .f32 :=
  Host.sqrt (broadcastInDim S64x1 ![0] bcast_S64_S64x1_0
    (Host.reduceAdd (mulf q q) (constant S_ .f32 0x00000000#32) reducesTo_S64x512_S64_d1 h_S_))

/-- Each row divided by its Euclidean length, at least the smallest admitted one. -/
def kunit (q : Arr F S64x512 .f32) : Arr F S64x512 .f32 :=
  Host.divf q
    (broadcastInDim S64x512 ![0, 1] bcast_S64x1_S64x512_0_1
      (maximumf (knorm q) (broadcastInDim S64x1 ![] bcast_S_S64x1 (constant S_ .f32 0x2B8CBCCC#32))))

/-- The read-out of pooled sums `p` under graph ids `g`. -/
def kreadout (p : Arr F S64x512 .f32) (g : Arr F S100000 .i32) : Arr F S64x512 .f32 := kunit (kmean p g)

/-! ## At the exact instance these are the reference's -/

open Cert.ReferenceIdeal.Shape in
theorem kagg1_eq (x : Arr Ideal S100000x1 .f32) (e : Arr Ideal S2x800000 .i32) :
    kagg1 (F := Ideal) x (srcRow e) (dstRow e) = Cert.ReferenceIdeal.Shape.agg1 x e := rfl

theorem kreadout_eq (p : Arr Ideal S64x512 .f32) (g : Arr Ideal S100000 .i32) :
    kreadout (F := Ideal) p g = Cert.ReferenceIdeal.Shape.readout p g := rfl

end Cert.KernelIdeal.Hand

end
-- ==== Proof.RefResult.lean ====
/-
  The reference's result as one function of the twelve argument arrays: the three layers and the read-out composed.
  The reference run's result term is this function of the launch contents.
-/
import proofs.«415884_j3539053052569_2_alg».proof.Proof.RefShape

noncomputable section

namespace Cert.ReferenceIdeal.Shape

open Cert.ReferenceIdeal Cert.ReferenceIdeal.Gen
open Idealize.ShloMosaic Idealize.ShloMosaic.TcCoe Idealize.SL.Sem

variable {F : FTy → Type} [FloatOps F]

/-- Layer 1's features, layer 2's features, layer 3's rows, and the result, from the arguments. -/
def feat1 (x : Arr F S100000x1 .f32) (e : Arr F S2x800000 .i32) (w3 : Arr F S1x128 .f32) (b4 : Arr F S128 .f32) (w5 : Arr F S1x128 .f32) :
    Arr F S100000x128 .f32 := lay1 (agg1 x e) x w3 b4 w5
def feat2 (p1 : Arr F S100000x128 .f32) (e : Arr F S2x800000 .i32) (w6 : Arr F S128x256 .f32) (b7 : Arr F S256 .f32) (w8 : Arr F S128x256 .f32) :
    Arr F S100000x256 .f32 := lay2 (agg2 p1 e) p1 w6 b7 w8
def rows3 (p2 : Arr F S100000x256 .f32) (e : Arr F S2x800000 .i32) (w9 : Arr F S256x512 .f32) (b10 : Arr F S512 .f32) (w11 : Arr F S256x512 .f32) :
    Arr F S100000x512 .f32 := lay3 (agg3 p2 e) p2 w9 b10 w11
def resultOf (x : Arr F S100000x1 .f32) (e : Arr F S2x800000 .i32) (g : Arr F S100000 .i32)
    (w3 : Arr F S1x128 .f32) (b4 : Arr F S128 .f32) (w5 : Arr F S1x128 .f32)
    (w6 : Arr F S128x256 .f32) (b7 : Arr F S256 .f32) (w8 : Arr F S128x256 .f32)
    (w9 : Arr F S256x512 .f32) (b10 : Arr F S512 .f32) (w11 : Arr F S256x512 .f32) : Arr F S64x512 .f32 :=
  readout (pool (rows3 (feat2 (feat1 x e w3 b4 w5) e w6 b7 w8) e w9 b10 w11) g) g

variable (m : (ℓ : Loc nD τ sig) → Buf (Elt F) ℓ) (c : Dev nD)

/-- The reference run's result term is `resultOf` of the launch contents. -/
theorem res_eq_resultOf :
    Cert.ReferenceIdeal.Value.res_main_v70 m c
      = resultOf (a0 m c) (a1 m c) (a2 m c) (a3 m c) (a4 m c) (a5 m c) (a6 m c) (a7 m c) (a8 m c) (a9 m c) (a10 m c) (a11 m c) :=
  (res_eq m c).trans rfl

end Cert.ReferenceIdeal.Shape

end
-- ==== Proof.KVal0.lean ====
/-
  The value of region 0 of the kernel program: the first GraphConv layer's dense part.

  Region 0 runs over 50 points. Point `t` holds rows `2000 t … 2000 t + 1999` of the aggregated neighbour features and
  of the node features (one feature each), the two weight rows and the bias row whole, and writes back the same 2000
  rows of the output, 128 entries each. Read at the extended reals — every operation exact, a change of float format
  the identity — entry `(r, j)` of what it writes is

      max ((a r · W_rel j + x r · W_root j) + b j) 0,

  each product a contraction over ONE index. The blocks of the 50 points tile the output (row `n` belongs to point
  `n / 2000`), so the array the output window ends holding is that function of the five arrays the region finds, entry
  by entry. The reference's layer 1 is the same function with the bias added before the features' product instead of
  after it; the two agree by commutativity and associativity of addition on the extended reals, where no finiteness
  is needed.

  The steps: the body's store at an entry (`pay_apply`); each input block as rows of its array (`agg_block` …
  `bias_block`); what a point writes back (`flushed0_eq`); the cover (`out_cover`); the array (`arr0_lay1Arr`); the
  reference's layer at an entry (`lay1Arr_eq_lay1`); and `arr0_eq`, the value of the region.
-/
import proofs.«415884_j3539053052569_2_alg».proof.Proof.KernelIdeal.Fr0
import proofs.«415884_j3539053052569_2_alg».proof.Proof.RefShape
import Idealize.ShloMosaic.Lib.Pipeline.Value
import Idealize.ShloMosaic.Lib.ValueIdx
import Idealize.ShloMosaic.PureOps.Ideal.Laws

set_option maxRecDepth 16384

noncomputable section

namespace Cert.KernelIdeal.Hand.Val0

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)
open scoped BigOperators

/-! ## Layer 1 at an entry

Entry `(r, j)` of the first layer is `max ((a r · W_rel j + x r · W_root j) + b j) 0`: the aggregate's and the node's
single feature, each times its weight row's entry `j` (a contraction over ONE index), the bias added, clipped below at
zero. The extended reals carry every operation exactly, so the kernel's changes of float format do nothing. -/

theorem zeros2 : (![0, 0] : Fin 2 → Nat) = fun _ => 0 := funext fun a => by fin_cases a <;> rfl

/-- The entry, from the five arrays read at literal coordinates: the sums are over the one contracted index. -/
def lay1Entry {R : Nat} (a x : (⟨2, ![R, 1]⟩ : Shape).Idx → EReal) (wrel wroot brow : (⟨2, ![1, 128]⟩ : Shape).Idx → EReal)
    (r : Fin R) (j : Fin 128) : EReal :=
  max (((∑ k : Fin 1, a (ix2 r k) * wrel (ix2 k j)) + (∑ k : Fin 1, x (ix2 r k) * wroot (ix2 k j))) + brow (ix2 (0 : Fin 1) j)) 0

/-! ### The kernel's matrix product: which operand entries an output entry multiplies -/

theorem lhs_rowdot_0 (i : S2000x128.Idx) (q : dot_S2000x1_S1x128_S2000x128_1_0_0_1_n_n.contr.Idx) :
    (dot_S2000x1_S1x128_S2000x128_1_0_0_1_n_n.lhsIdx i q 0).val = (i 0).val := by
  unfold DotDims.lhsIdx
  rw [dif_neg (show ¬(0 : Fin S2000x1.rank) ∈ dot_S2000x1_S1x128_S2000x128_1_0_0_1_n_n.lhsBatch by decide), dif_pos (show (0 : Fin S2000x1.rank) ∈ dot_S2000x1_S1x128_S2000x128_1_0_0_1_n_n.lhsNonContracting by decide)]
  rfl
theorem lhs_rowdot_1 (i : S2000x128.Idx) (q : dot_S2000x1_S1x128_S2000x128_1_0_0_1_n_n.contr.Idx) :
    (dot_S2000x1_S1x128_S2000x128_1_0_0_1_n_n.lhsIdx i q 1).val = (q ⟨0, by decide⟩).val :=
  dot_S2000x1_S1x128_S2000x128_1_0_0_1_n_n.lhsIdx_val_of_single rfl i q
theorem rhs_rowdot_0 (i : S2000x128.Idx) (q : dot_S2000x1_S1x128_S2000x128_1_0_0_1_n_n.contr.Idx) :
    (dot_S2000x1_S1x128_S2000x128_1_0_0_1_n_n.rhsIdx i q 0).val = (q ⟨0, by decide⟩).val :=
  dot_S2000x1_S1x128_S2000x128_1_0_0_1_n_n.rhsIdx_val_of_single rfl i q
theorem rhs_rowdot_1 (i : S2000x128.Idx) (q : dot_S2000x1_S1x128_S2000x128_1_0_0_1_n_n.contr.Idx) :
    (dot_S2000x1_S1x128_S2000x128_1_0_0_1_n_n.rhsIdx i q 1).val = (i 1).val := by
  unfold DotDims.rhsIdx
  rw [dif_neg (show ¬(1 : Fin S1x128.rank) ∈ dot_S2000x1_S1x128_S2000x128_1_0_0_1_n_n.rhsBatch by decide), dif_pos (show (1 : Fin S1x128.rank) ∈ dot_S2000x1_S1x128_S2000x128_1_0_0_1_n_n.rhsNonContracting by decide)]
  rfl

/-- A block's matrix product into a zero accumulator, at entry `(p, j)`: the sum over the one contracted index. -/
theorem rowdot_apply (l : FVec Ideal S2000x1 .bf16) (w : FVec Ideal S1x128 .bf16) (p : Fin 2000) (j : Fin 128) :
    matmul (F := Ideal) dot_S2000x1_S1x128_S2000x128_1_0_0_1_n_n none l w (constant (F := Ideal) S2000x128 .f32 0x00000000#32) (ix2 p j)
      = ∑ k : Fin 1, l (ix2 p k) * w (ix2 k j) := by
  simp only [matmul]
  rw [Ideal.matmul_constant_zero_apply, ← Equiv.sum_comp (contrEquiv1 dot_S2000x1_S1x128_S2000x128_1_0_0_1_n_n 1 rfl rfl).symm]
  refine Finset.sum_congr rfl fun k _ => ?_
  have hk := contrEquiv1_symm_val dot_S2000x1_S1x128_S2000x128_1_0_0_1_n_n 1 rfl rfl k
  have el : dot_S2000x1_S1x128_S2000x128_1_0_0_1_n_n.lhsIdx (ix2 p j) ((contrEquiv1 dot_S2000x1_S1x128_S2000x128_1_0_0_1_n_n 1 rfl rfl).symm k) = ix2 p k := funext fun a => Fin.ext (by
    match a with
    | ⟨0, _⟩ => exact lhs_rowdot_0 _ _
    | ⟨1, _⟩ => exact (lhs_rowdot_1 _ _).trans hk)
  have er : dot_S2000x1_S1x128_S2000x128_1_0_0_1_n_n.rhsIdx (ix2 p j) ((contrEquiv1 dot_S2000x1_S1x128_S2000x128_1_0_0_1_n_n 1 rfl rfl).symm k) = ix2 k j := funext fun a => Fin.ext (by
    match a with
    | ⟨0, _⟩ => exact (rhs_rowdot_0 _ _).trans hk
    | ⟨1, _⟩ => exact rhs_rowdot_1 _ _)
  rw [el, er]

/-- The bias row laid along every row of the block. -/
theorem biasrow_apply (b : S1x128.Idx → EReal) (p : Fin 2000) (j : Fin 128) :
    broadcastTo S2000x128 b broadcasts_S1x128_S2000x128 (ix2 p j) = b (ix2 (0 : Fin 1) j) :=
  broadcastTo_apply b broadcasts_S1x128_S2000x128 (ix2 p j) (ix2 (0 : Fin 1) j) (fun a => match a with
    | ⟨0, _⟩ => by show 0 = if (1 : Nat) = 1 then 0 else p.val; rw [if_pos rfl]
    | ⟨1, _⟩ => by show j.val = if (128 : Nat) = 1 then 0 else j.val; rw [if_neg (by decide)])

/-- THE BODY'S STORE AT AN ENTRY: entry `(p, j)` of what the body stores is the layer's entry of the five loaded blocks. -/
theorem pay_apply (v0 v3 : Vec Ideal S2000x1 .f32) (v5 v7 v12 : Vec Ideal S1x128 .f32) (p : Fin 2000) (j : Fin 128) :
    k0_pay1 (F := Ideal) v0 v3 v5 v7 v12 (ix2 p j) = lay1Entry v0 v3 v5 v7 v12 p j := by
  unfold k0_pay1 lay1Entry
  simp only [shapeCast_self]
  show max ((matmul (F := Ideal) dot_S2000x1_S1x128_S2000x128_1_0_0_1_n_n none (truncf .bf16 v0 bitsLt_bf16_f32) (truncf .bf16 v5 bitsLt_bf16_f32) (constant (F := Ideal) S2000x128 .f32 0x00000000#32) (ix2 p j)
      + matmul (F := Ideal) dot_S2000x1_S1x128_S2000x128_1_0_0_1_n_n none (truncf .bf16 v3 bitsLt_bf16_f32) (truncf .bf16 v7 bitsLt_bf16_f32) (constant (F := Ideal) S2000x128 .f32 0x00000000#32) (ix2 p j))
      + broadcastTo S2000x128 v12 broadcasts_S1x128_S2000x128 (ix2 p j)) (Ideal.ofBits .f32 0x00000000#32) = _
  rw [rowdot_apply, rowdot_apply, biasrow_apply, Ideal.ofBits_zero_f32]
  rfl

/-! ## The layer as one array, and the blocks of region 0

Point `t` of the 50 takes rows `2000 t … 2000 t + 1999` of the aggregate and of the features and writes the same
rows of the output; the two weight rows and the bias row are whole at every point. -/

/-- The whole output: entry `(r, j)` of the layer of the five whole arrays. -/
def lay1Arr (a x : S100000x1.Idx → EReal) (wrel wroot brow : S1x128.Idx → EReal) : S100000x128.Idx → EReal :=
  fun i => lay1Entry a x wrel wroot brow (i 0) (i 1)

/-- Which block of its array each window holds at point `t`, decided over the 50 points: the row windows and the
    output block `(t, 0)`, the weight and bias windows block `(0, 0)`. -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section Blocks

variable (V : (c : Dev nD) → (b : Ref sig .tc) → Buf (Elt Ideal) ((c : Thread nD τ).loc b))

/-- The aggregate's block at point `t` is its rows from `2000 t`. -/
theorem agg_block (c : Dev nD) (t : Fin cfg0.N) (p : Fin 2000) (k : Fin 1) (r : Fin 100000) (hr : r.val = 2000 * t.val + p.val) :
    (iblk0 V c 0 t : Vec Ideal S2000x1 .f32) (ix2 p k) = (V c main_v13 : S100000x1.Idx → EReal) (ix2 r k) := by
  obtain ⟨e0, e1, -⟩ := blockIndex0 t
  unfold iblk0
  rw [View.read_apply]
  show V c main_v13 _ = V c main_v13 _
  congr 1
  funext a; apply Fin.ext
  match a with
  | ⟨0, _⟩ => show win0_0.index t (0 : Fin 2) * 2000 + 1 * p.val = r.val; rw [e0, hr]; omega
  | ⟨1, _⟩ => show win0_0.index t (1 : Fin 2) * 1 + 1 * k.val = k.val; rw [e1]; omega

/-- The features' block at point `t` is their rows from `2000 t`. -/
theorem feat_block (c : Dev nD) (t : Fin cfg0.N) (p : Fin 2000) (k : Fin 1) (r : Fin 100000) (hr : r.val = 2000 * t.val + p.val) :
    (iblk0 V c 1 t : Vec Ideal S2000x1 .f32) (ix2 p k) = (V c main_arg0 : S100000x1.Idx → EReal) (ix2 r k) := by
  obtain ⟨-, -, e0, e1, -⟩ := blockIndex0 t
  unfold iblk0
  rw [View.read_apply]
  show V c main_arg0 _ = V c main_arg0 _
  congr 1
  funext a; apply Fin.ext
  match a with
  | ⟨0, _⟩ => show win0_1.index t (0 : Fin 2) * 2000 + 1 * p.val = r.val; rw [e0, hr]; omega
  | ⟨1, _⟩ => show win0_1.index t (1 : Fin 2) * 1 + 1 * k.val = k.val; rw [e1]; omega

/-- The two weight rows and the bias row are whole at every point. -/
theorem wrel_block (c : Dev nD) (t : Fin cfg0.N) : (iblk0 V c 2 t : Vec Ideal S1x128 .f32) = V c main_arg3 := by
  obtain ⟨-, -, -, -, e0, e1, -⟩ := blockIndex0 t
  funext y
  unfold iblk0
  rw [View.read_apply]
  show V c main_arg3 _ = V c main_arg3 _
  congr 1
  funext a; apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega
theorem wroot_block (c : Dev nD) (t : Fin cfg0.N) : (iblk0 V c 3 t : Vec Ideal S1x128 .f32) = V c main_arg5 := by
  obtain ⟨-, -, -, -, -, -, e0, e1, -⟩ := blockIndex0 t
  funext y
  unfold iblk0
  rw [View.read_apply]
  show V c main_arg5 _ = V c main_arg5 _
  congr 1
  funext a; apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega
theorem bias_block (c : Dev nD) (t : Fin cfg0.N) : (iblk0 V c 4 t : Vec Ideal S1x128 .f32) = V c main_v14 := by
  obtain ⟨-, -, -, -, -, -, -, -, e0, e1, -⟩ := blockIndex0 t
  funext y
  unfold iblk0
  rw [View.read_apply]
  show V c main_v14 _ = V c main_v14 _
  congr 1
  funext a; apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- Entry `(p, q)` of the output's block at point `t` is entry `(2000 t + p, q)` of the array. -/
theorem out_emb (t : Fin cfg0.N) (p : Fin 2000) (q : Fin 128) (r : Fin 100000) (hr : r.val = 2000 * t.val + p.val) :
    ((cfg0.win 5).blk t).view.emb (ix2 p q) = (ix2 r q : S100000x128.Idx) := by
  obtain ⟨-, -, -, -, -, -, -, -, -, -, e0, e1⟩ := blockIndex0 t
  funext a; apply Fin.ext
  match a with
  | ⟨0, _⟩ => show win0_5.index t (0 : Fin 2) * 2000 + 1 * p.val = r.val; rw [e0, hr]; omega
  | ⟨1, _⟩ => show win0_5.index t (1 : Fin 2) * 128 + 1 * q.val = q.val; rw [e1]; omega

end Blocks

/-! ## What a point writes back, and the array after the last point -/

/-- The layer's entry depends on the row blocks only through the rows they hold. -/
theorem lay1Entry_rows (A0 A1 : S100000x1.Idx → EReal) (x0 x1 : S2000x1.Idx → EReal) (wrel wroot brow : S1x128.Idx → EReal)
    (p : Fin 2000) (q : Fin 128) (r : Fin 100000)
    (h0 : ∀ k : Fin 1, x0 (ix2 p k) = A0 (ix2 r k)) (h1 : ∀ k : Fin 1, x1 (ix2 p k) = A1 (ix2 r k)) :
    lay1Entry x0 x1 wrel wroot brow p q = lay1Entry A0 A1 wrel wroot brow r q := by
  unfold lay1Entry
  simp only [h0, h1]

section Array

variable (V : (c : Dev nD) → (b : Ref sig .tc) → Buf (Elt Ideal) ((c : Thread nD τ).loc b))

/-- WHAT POINT `t` WRITES BACK is block `t` of the layer of the arrays as the region finds them. -/
theorem flushed0_eq (c : Dev nD) (t : Fin cfg0.N) :
    (dat0 V c).flushed 5 t = ((cfg0.win 5).blk t).view.read (Elt Ideal)
      (lay1Arr (V c main_v13) (V c main_arg0) (V c main_arg3) (V c main_arg5) (V c main_v14)) := by
  show (cfg0.win 5).cut (grid0.coords t) ((dat0 V c).after 5 t) = _
  rw [after0_5]
  unfold out0_5
  rw [View.canon_unit_zero zeros2]
  simp only [View.ld_unit_zero (S := S2000x1) zeros2, View.ld_unit_zero (S := S1x128) zeros2]
  funext y
  obtain ⟨p, q, rfl⟩ : ∃ (p : Fin 2000) (q : Fin 128), y = ix2 p q := ⟨y 0, y 1, eq_ix2 y⟩
  have hN : cfg0.N = 50 := N_0
  have hr : 2000 * t.val + p.val < 100000 := by have := t.isLt; omega
  rw [View.read_apply, out_emb t p q ⟨2000 * t.val + p.val, hr⟩ rfl]
  refine (pay_apply (iblk0 V c 0 t) (iblk0 V c 1 t) (iblk0 V c 2 t) (iblk0 V c 3 t) (iblk0 V c 4 t) p q).trans ?_
  rw [wrel_block V c t, wroot_block V c t, bias_block V c t]
  exact lay1Entry_rows (V c main_v13) (V c main_arg0) (iblk0 V c 0 t) (iblk0 V c 1 t) (V c main_arg3) (V c main_arg5) (V c main_v14) p q
    ⟨2000 * t.val + p.val, hr⟩ (fun k => agg_block V c t p k _ rfl) (fun k => feat_block V c t p k _ rfl)

/-- An entry of the array is in point `t`'s block iff each coordinate is in the block's range on its axis. -/
theorem mem_out_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v15).slice (win0_5.rect t)).set ↔ _
  rw [View.set_slice_whole, Rect.mem_set_unit]
  exact Iff.rfl

/-- Every entry is written back by some point: row `n` by point `n / 2000`. -/
theorem out_cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  have ht : (i 0).val / 2000 < cfg0.N := by rw [hN]; omega
  obtain ⟨-, -, -, -, -, -, -, -, -, -, e0, e1⟩ := blockIndex0 ⟨(i 0).val / 2000, ht⟩
  have e0' : win0_5.index ⟨(i 0).val / 2000, ht⟩ (0 : Fin 2) = (i 0).val / 2000 := e0
  refine ⟨⟨(i 0).val / 2000, ht⟩, flush0_5 _, ?_⟩
  rw [mem_out_blk]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [e0']; omega
  | ⟨1, _⟩ =>
    show win0_5.index ⟨(i 0).val / 2000, ht⟩ (1 : Fin 2) * 128 ≤ (i 1).val ∧ (i 1).val < win0_5.index ⟨(i 0).val / 2000, ht⟩ (1 : Fin 2) * 128 + 128
    rw [e1]; omega

/-- THE ARRAY the output window ends holding: the layer of the arrays as the region finds them. -/
theorem arr0_lay1Arr (c : Dev nD) :
    (dat0 V c).arrAt 5 cfg0.N = lay1Arr (V c main_v13) (V c main_arg0) (V c main_arg3) (V c main_arg5) (V c main_v14) :=
  (dat0 V c).arrAt_eq_of_cover 5 _ (fun t _ => flushed0_eq V c t) out_cover

end Array

/-! ## The reference's layer is the same array

The reference adds the bias BEFORE the features' product, the kernel after it: `(p + b) + q = (p + q) + b`, which holds
on the extended reals with no finiteness asked, addition there being commutative and associative. The bias reaches the
kernel as a `[1, 128]` row reshaped from the `[128]` vector the reference broadcasts. -/

/-! ### The reference's matrix product: which operand entries an output entry multiplies -/

theorem lhs_refdot_0 (i : S100000x128.Idx) (q : Cert.ReferenceIdeal.dot_S100000x1_S1x128_S100000x128_1_0_0_1_n_n.contr.Idx) :
    (Cert.ReferenceIdeal.dot_S100000x1_S1x128_S100000x128_1_0_0_1_n_n.lhsIdx i q 0).val = (i 0).val := by
  unfold DotDims.lhsIdx
  rw [dif_neg (show ¬(0 : Fin S100000x1.rank) ∈ Cert.ReferenceIdeal.dot_S100000x1_S1x128_S100000x128_1_0_0_1_n_n.lhsBatch by decide), dif_pos (show (0 : Fin S100000x1.rank) ∈ Cert.ReferenceIdeal.dot_S100000x1_S1x128_S100000x128_1_0_0_1_n_n.lhsNonContracting by decide)]
  rfl
theorem lhs_refdot_1 (i : S100000x128.Idx) (q : Cert.ReferenceIdeal.dot_S100000x1_S1x128_S100000x128_1_0_0_1_n_n.contr.Idx) :
    (Cert.ReferenceIdeal.dot_S100000x1_S1x128_S100000x128_1_0_0_1_n_n.lhsIdx i q 1).val = (q ⟨0, by decide⟩).val :=
  Cert.ReferenceIdeal.dot_S100000x1_S1x128_S100000x128_1_0_0_1_n_n.lhsIdx_val_of_single rfl i q
theorem rhs_refdot_0 (i : S100000x128.Idx) (q : Cert.ReferenceIdeal.dot_S100000x1_S1x128_S100000x128_1_0_0_1_n_n.contr.Idx) :
    (Cert.ReferenceIdeal.dot_S100000x1_S1x128_S100000x128_1_0_0_1_n_n.rhsIdx i q 0).val = (q ⟨0, by decide⟩).val :=
  Cert.ReferenceIdeal.dot_S100000x1_S1x128_S100000x128_1_0_0_1_n_n.rhsIdx_val_of_single rfl i q
theorem rhs_refdot_1 (i : S100000x128.Idx) (q : Cert.ReferenceIdeal.dot_S100000x1_S1x128_S100000x128_1_0_0_1_n_n.contr.Idx) :
    (Cert.ReferenceIdeal.dot_S100000x1_S1x128_S100000x128_1_0_0_1_n_n.rhsIdx i q 1).val = (i 1).val := by
  unfold DotDims.rhsIdx
  rw [dif_neg (show ¬(1 : Fin S1x128.rank) ∈ Cert.ReferenceIdeal.dot_S100000x1_S1x128_S100000x128_1_0_0_1_n_n.rhsBatch by decide), dif_pos (show (1 : Fin S1x128.rank) ∈ Cert.ReferenceIdeal.dot_S100000x1_S1x128_S100000x128_1_0_0_1_n_n.rhsNonContracting by decide)]
  rfl

/-- The reference's product of a one-column array with a weight row, at entry `(r, j)`. -/
theorem refdot_apply (a : FVec Ideal S100000x1 .f32) (w : FVec Ideal S1x128 .f32) (r : Fin 100000) (j : Fin 128) :
    Host.dotGeneral (F := Ideal) Cert.ReferenceIdeal.dot_S100000x1_S1x128_S100000x128_1_0_0_1_n_n none a w (ix2 r j)
      = ∑ k : Fin 1, a (ix2 r k) * w (ix2 k j) := by
  simp only [Host.dotGeneral]
  rw [Ideal.dotGeneral_apply, ← Equiv.sum_comp (contrEquiv1 Cert.ReferenceIdeal.dot_S100000x1_S1x128_S100000x128_1_0_0_1_n_n 1 rfl rfl).symm]
  refine Finset.sum_congr rfl fun k _ => ?_
  have hk := contrEquiv1_symm_val Cert.ReferenceIdeal.dot_S100000x1_S1x128_S100000x128_1_0_0_1_n_n 1 rfl rfl k
  have el : Cert.ReferenceIdeal.dot_S100000x1_S1x128_S100000x128_1_0_0_1_n_n.lhsIdx (ix2 r j) ((contrEquiv1 Cert.ReferenceIdeal.dot_S100000x1_S1x128_S100000x128_1_0_0_1_n_n 1 rfl rfl).symm k) = ix2 r k := funext fun a => Fin.ext (by
    match a with
    | ⟨0, _⟩ => exact lhs_refdot_0 _ _
    | ⟨1, _⟩ => exact (lhs_refdot_1 _ _).trans hk)
  have er : Cert.ReferenceIdeal.dot_S100000x1_S1x128_S100000x128_1_0_0_1_n_n.rhsIdx (ix2 r j) ((contrEquiv1 Cert.ReferenceIdeal.dot_S100000x1_S1x128_S100000x128_1_0_0_1_n_n 1 rfl rfl).symm k) = ix2 k j := funext fun a => Fin.ext (by
    match a with
    | ⟨0, _⟩ => exact (rhs_refdot_0 _ _).trans hk
    | ⟨1, _⟩ => exact rhs_refdot_1 _ _)
  rw [el, er]

/-- The reference's bias, the vector laid as a row and the row along every row of the array, at entry `(r, j)`. -/
theorem refbias_apply (h1 : S128.BroadcastsInDim S1x128 ![1]) (h2 : S1x128.BroadcastsInDim S100000x128 ![0, 1])
    (b : S128.Idx → EReal) (r : Fin 100000) (j : Fin 128) :
    broadcastInDim S100000x128 ![0, 1] h2 (broadcastInDim S1x128 ![1] h1 b) (ix2 r j) = b (ix1 j) := by
  refine (broadcastInDim_apply ![0, 1] h2 (broadcastInDim S1x128 ![1] h1 b) (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])).trans ?_
  exact broadcastInDim_apply ![1] h1 b (ix2 (0 : Fin 1) j) (ix1 j) (fun a => match a with
    | ⟨0, _⟩ => by show j.val = if (128 : Nat) = 1 then 0 else j.val; rw [if_neg (by decide)])

/-- The kernel's bias row, the same vector reshaped to one row, at entry `(0, j)`. -/
theorem biasrow_reshape_apply (h : S128.ShapeCasts S1x128) (b : S128.Idx → EReal) (j : Fin 128) :
    shapeCast S1x128 b h (ix2 (0 : Fin 1) j) = b (ix1 j) :=
  shapeCast_apply b h (ix2 (0 : Fin 1) j) (ix1 j) (by
    rw [Shape.rowMajor_val_one, Shape.rowMajor_val_two]
    show j.val = 0 * 128 + j.val
    omega)

/-- The reference's zero, a scalar laid over the array, is the extended real zero at every entry. -/
theorem refzero_apply (h : S_.BroadcastsInDim S100000x128 ![]) (i : S100000x128.Idx) :
    broadcastInDim S100000x128 ![] h (constant (F := Ideal) S_ .f32 0x00000000#32) i = 0 := by
  refine (broadcastInDim_apply ![] h (constant (F := Ideal) S_ .f32 0x00000000#32) i ix0 (fun a => a.elim0)).trans ?_
  show Ideal.ofBits .f32 0x00000000#32 = 0
  exact Ideal.ofBits_zero_f32

/-- THE REFERENCE'S LAYER 1 is the layer array, the bias row being the bias vector reshaped. -/
theorem lay1Arr_eq_lay1 (a x : Cert.ReferenceIdeal.Shape.Arr Ideal S100000x1 .f32) (w3 w5 : Cert.ReferenceIdeal.Shape.Arr Ideal S1x128 .f32)
    (b4 : Cert.ReferenceIdeal.Shape.Arr Ideal S128 .f32) :
    lay1Arr a x w3 w5 (shapeCast S1x128 b4 shapeCasts_S128_S1x128) = Cert.ReferenceIdeal.Shape.lay1 a x w3 b4 w5 := by
  funext i
  obtain ⟨r, j, rfl⟩ : ∃ (r : Fin 100000) (j : Fin 128), i = ix2 r j := ⟨i 0, i 1, eq_ix2 i⟩
  unfold Cert.ReferenceIdeal.Shape.lay1
  show lay1Entry a x w3 w5 (shapeCast S1x128 b4 shapeCasts_S128_S1x128) r j
    = max ((Host.dotGeneral (F := Ideal) Cert.ReferenceIdeal.dot_S100000x1_S1x128_S100000x128_1_0_0_1_n_n none a w3 (ix2 r j)
        + broadcastInDim S100000x128 ![0, 1] _ (broadcastInDim S1x128 ![1] _ b4) (ix2 r j))
        + Host.dotGeneral (F := Ideal) Cert.ReferenceIdeal.dot_S100000x1_S1x128_S100000x128_1_0_0_1_n_n none x w5 (ix2 r j))
      (broadcastInDim S100000x128 ![] _ (constant (F := Ideal) S_ .f32 0x00000000#32) (ix2 r j))
  rw [refdot_apply, refdot_apply, refbias_apply, refzero_apply]
  unfold lay1Entry
  rw [biasrow_reshape_apply, add_right_comm]

end Cert.KernelIdeal.Hand.Val0

namespace Cert.KernelIdeal.Hand

open Cert.KernelIdeal Cert.KernelIdeal.Gen Cert.KernelIdeal.Hand.Val0
open Idealize.ShloMosaic Idealize.ShloMosaic.TcCoe Idealize.SL.Sem

/-! ## Region 0's value -/

/-- THE VALUE OF REGION 0: the array its output window ends holding is the reference's layer 1 of the aggregate, the
    features, the two weight rows and the bias the region finds in its input arrays. -/
theorem arr0_eq (V : (c : Dev nD) → (b : Ref sig .tc) → Buf (Elt Ideal) ((c : Thread nD τ).loc b)) (c : Dev nD)
    (a x : Cert.ReferenceIdeal.Shape.Arr Ideal S100000x1 .f32) (w3 w5 : Cert.ReferenceIdeal.Shape.Arr Ideal S1x128 .f32) (b4 : Cert.ReferenceIdeal.Shape.Arr Ideal S128 .f32)
    (ha : V c main_v13 = a) (hx : V c main_arg0 = x) (h3 : V c main_arg3 = w3) (h5 : V c main_arg5 = w5)
    (hb : V c main_v14 = shapeCast S1x128 b4 shapeCasts_S128_S1x128) :
    (dat0 (F := Ideal) V c).arrAt 5 cfg0.N = Cert.ReferenceIdeal.Shape.lay1 a x w3 b4 w5 := by
  rw [arr0_lay1Arr V c, ha, hx, h3, h5, hb]
  exact lay1Arr_eq_lay1 a x w3 w5 b4

end Cert.KernelIdeal.Hand

end
-- ==== Proof.KVal1.lean ====
/-
  The value of region 1 of the idealized kernel program at the exact float family: the array the region's output
  window ends holding is the reference's second layer applied to the region's input arrays.

  The region runs the second GraphConv layer's dense part on 50 blocks of 2000 node rows. With every float an extended
  real, every operation exact and a change of format the identity, the body's one store holds, at row `r` and
  column `j` of its block,
      max ((∑ k, agg r k · W_rel k j) + (∑ k, feat r k · W_root k j) + bias 0 j) 0,
  the two sums over the 128 input features. Point `t`'s blocks of the aggregate and of the features are the rows
  `2000 t … 2000 t + 1999` of their arrays, the weights and the bias row are whole, and the output block is written
  back to the same rows; the 50 blocks cover the 100000 rows. So the output array ends holding ONE function of the five
  input arrays (`dense2`), index by index. The reference's layer adds the bias before the second product where the
  kernel adds it after: `(p + b) + q = (p + q) + b`, an identity of the extended reals' commutative addition.
-/
import proofs.«415884_j3539053052569_2_alg».proof.Proof.KernelIdeal.Fr1
import proofs.«415884_j3539053052569_2_alg».proof.Proof.RefShape
import Idealize.ShloMosaic.Lib.Pipeline.Value
import Idealize.ShloMosaic.Lib.ValueIdx
import Idealize.ShloMosaic.PureOps.Ideal.Laws

noncomputable section

namespace Cert.KernelIdeal.Hand.Val1

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open scoped BigOperators

/-! ## The specification: the dense part of layer 2, index by index -/

/-- Row `r`, column `j` of the layer: the aggregate's row times `W_rel`'s column, plus the features' row times
    `W_root`'s column, plus the bias, cut below at zero. -/
def dense2At (A H : Cert.KernelIdeal.S100000x128.Idx → EReal) (W6 W8 : Cert.KernelIdeal.S128x256.Idx → EReal) (B : Cert.KernelIdeal.S1x256.Idx → EReal)
    (r : Fin 100000) (j : Fin 256) : EReal :=
  max ((∑ k : Fin 128, A (ix2 r k) * W6 (ix2 k j)) + (∑ k : Fin 128, H (ix2 r k) * W8 (ix2 k j)) + B (ix2 (0 : Fin 1) j)) 0

/-- The whole output array as one function of the five input arrays. -/
def dense2 (A H : Cert.KernelIdeal.S100000x128.Idx → EReal) (W6 W8 : Cert.KernelIdeal.S128x256.Idx → EReal) (B : Cert.KernelIdeal.S1x256.Idx → EReal) :
    Cert.KernelIdeal.S100000x256.Idx → EReal :=
  fun i => dense2At A H W6 W8 B (i 0) (i 1)

theorem dense2_ix2 (A H : Cert.KernelIdeal.S100000x128.Idx → EReal) (W6 W8 : Cert.KernelIdeal.S128x256.Idx → EReal) (B : Cert.KernelIdeal.S1x256.Idx → EReal)
    (r : Fin 100000) (j : Fin 256) : dense2 A H W6 W8 B (ix2 r j) = dense2At A H W6 W8 B r j := rfl

/-! ## The body's payload at an index -/

/-- The four axis readings of the body's contraction (rows × features times features × columns). -/
theorem lhs_dot1_0 (i : Cert.KernelIdeal.S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin Cert.KernelIdeal.S2000x128.rank) ∈ dot_S2000x128_S128x256_S2000x256_1_0_0_1_n_n.lhsBatch by decide), dif_pos (show (0 : Fin Cert.KernelIdeal.S2000x128.rank) ∈ dot_S2000x128_S128x256_S2000x256_1_0_0_1_n_n.lhsNonContracting by decide)]
  rfl
theorem lhs_dot1_1 (i : Cert.KernelIdeal.S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_dot1_0 (i : Cert.KernelIdeal.S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_dot1_1 (i : Cert.KernelIdeal.S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin Cert.KernelIdeal.S128x256.rank) ∈ dot_S2000x128_S128x256_S2000x256_1_0_0_1_n_n.rhsBatch by decide), dif_pos (show (1 : Fin Cert.KernelIdeal.S128x256.rank) ∈ dot_S2000x128_S128x256_S2000x256_1_0_0_1_n_n.rhsNonContracting by decide)]
  rfl

/-- A matrix product of the body into a zero accumulator, at row `r` and column `j`: the sum over the 128 features. -/
theorem matmul1_apply {φ₁ φ₂ : FTy} (x : FVec Ideal Cert.KernelIdeal.S2000x128 φ₁) (w : FVec Ideal Cert.KernelIdeal.S128x256 φ₂) (r : Fin 2000) (j : Fin 256) :
    matmul (F := Ideal) dot_S2000x128_S128x256_S2000x256_1_0_0_1_n_n none x w (constant (F := Ideal) Cert.KernelIdeal.S2000x256 .f32 0x00000000#32) (ix2 r j)
      = ∑ k : Fin 128, x (ix2 r k) * w (ix2 k j) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 r j) ((contrEquiv1 dot_S2000x128_S128x256_S2000x256_1_0_0_1_n_n 128 rfl rfl).symm k) = ix2 r k := funext fun a => Fin.ext (by
    match a with
    | ⟨0, _⟩ => exact lhs_dot1_0 _ _
    | ⟨1, _⟩ => exact (lhs_dot1_1 _ _).trans hk)
  have er : dot_S2000x128_S128x256_S2000x256_1_0_0_1_n_n.rhsIdx (ix2 r j) ((contrEquiv1 dot_S2000x128_S128x256_S2000x256_1_0_0_1_n_n 128 rfl rfl).symm k) = ix2 k j := funext fun a => Fin.ext (by
    match a with
    | ⟨0, _⟩ => exact (rhs_dot1_0 _ _).trans hk
    | ⟨1, _⟩ => exact rhs_dot1_1 _ _)
  rw [el, er]

/-- The bias row spread over the 2000 rows reads the row's column. -/
theorem bias1_apply (b : FVec Ideal Cert.KernelIdeal.S1x256 .f32) (r : Fin 2000) (j : Fin 256) :
    broadcastTo Cert.KernelIdeal.S2000x256 b broadcasts_S1x256_S2000x256 (ix2 r j) = b (ix2 (0 : Fin 1) j) :=
  broadcastTo_apply b broadcasts_S1x256_S2000x256 (ix2 r j) (ix2 (0 : Fin 1) j) (fun a => match a with
    | ⟨0, _⟩ => by show (0 : ℕ) = if (1 : ℕ) = 1 then 0 else _; rw [if_pos rfl]
    | ⟨1, _⟩ => by show j.val = if (256 : ℕ) = 1 then 0 else j.val; rw [if_neg (by decide)])

/-- The body's stored value at row `r`, column `j` of the block. -/
theorem pay1_apply (v0 : Vec Ideal Cert.KernelIdeal.S2000x128 .f32) (v3 : Vec Ideal Cert.KernelIdeal.S2000x128 .bf16) (v5 v7 : Vec Ideal Cert.KernelIdeal.S128x256 .f32)
    (v12 : Vec Ideal Cert.KernelIdeal.S1x256 .f32) (r : Fin 2000) (j : Fin 256) :
    k1_pay1 (F := Ideal) v0 v3 v5 v7 v12 (ix2 r j)
      = max ((∑ k : Fin 128, v0 (ix2 r k) * v5 (ix2 k j)) + (∑ k : Fin 128, v3 (ix2 r k) * v7 (ix2 k j)) + v12 (ix2 (0 : Fin 1) j)) 0 := by
  unfold k1_pay1
  simp only [shapeCast_self]
  rw [truncf_apply, maximumf_apply, addf_apply, addf_apply, matmul1_apply, matmul1_apply, bias1_apply, broadcast_apply]
  simp only [truncf_apply]
  exact congrArg (max _) Ideal.ofBits_zero_f32

/-! ## The windows' blocks as rows of the entry arrays -/

section Blocks

variable (V : (c : Dev nD) → (b : Ref sig .tc) → Buf (Elt Ideal) ((c : Thread nD τ).loc b))

theorem hz1 : (![0, 0] : Fin 2 → Nat) = fun _ => 0 := funext fun a => by fin_cases a <;> rfl

/-- The printed index maps, decided once over the grid: the aggregate's, the features' and the output's block at point
    `t` is block `(t, 0)`; the weights' and the bias row's is block `(0, 0)`. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The aggregate's block at point `t` is rows `2000 t … 2000 t + 1999` of the aggregate. -/
theorem iblk1_0_apply (c : Dev nD) (t : Fin cfg1.N) (y : Cert.KernelIdeal.S2000x128.Idx) (k : Cert.KernelIdeal.S100000x128.Idx)
    (hk0 : (k 0).val = t.val * 2000 + (y 0).val) (hk1 : (k 1).val = (y 1).val) :
    (iblk1 V c 0 t : Vec Ideal Cert.KernelIdeal.S2000x128 .f32) y = (V c main_v26 : Cert.KernelIdeal.S100000x128.Idx → EReal) k := by
  obtain ⟨e0, e1, -⟩ := idx_facts1 t
  unfold iblk1
  rw [View.read_apply]
  show V c main_v26 _ = V c main_v26 _
  congr 1
  funext a
  apply Fin.ext
  match a with
  | ⟨0, _⟩ => show win1_0.index t (0 : Fin 2) * 2000 + 1 * (y 0).val = (k 0).val; rw [e0, hk0]; omega
  | ⟨1, _⟩ => show win1_0.index t (1 : Fin 2) * 128 + 1 * (y 1).val = (k 1).val; rw [e1, hk1]; omega

/-- The features' block at point `t` is rows `2000 t … 2000 t + 1999` of the features. -/
theorem iblk1_1_apply (c : Dev nD) (t : Fin cfg1.N) (y : Cert.KernelIdeal.S2000x128.Idx) (k : Cert.KernelIdeal.S100000x128.Idx)
    (hk0 : (k 0).val = t.val * 2000 + (y 0).val) (hk1 : (k 1).val = (y 1).val) :
    (iblk1 V c 1 t : Vec Ideal Cert.KernelIdeal.S2000x128 .bf16) y = (V c main_v15 : Cert.KernelIdeal.S100000x128.Idx → EReal) k := by
  obtain ⟨-, -, e0, e1, -⟩ := idx_facts1 t
  unfold iblk1
  rw [View.read_apply]
  show V c main_v15 _ = V c main_v15 _
  congr 1
  funext a
  apply Fin.ext
  match a with
  | ⟨0, _⟩ => show win1_1.index t (0 : Fin 2) * 2000 + 1 * (y 0).val = (k 0).val; rw [e0, hk0]; omega
  | ⟨1, _⟩ => show win1_1.index t (1 : Fin 2) * 128 + 1 * (y 1).val = (k 1).val; rw [e1, hk1]; omega

/-- The two weight windows and the bias row's hold their whole arrays at every point. -/
theorem iblk1_2_eq (c : Dev nD) (t : Fin cfg1.N) :
    (iblk1 V c 2 t : Vec Ideal Cert.KernelIdeal.S128x256 .f32) = (V c main_arg6 : Cert.KernelIdeal.S128x256.Idx → EReal) := by
  obtain ⟨-, -, -, -, e0, e1, -⟩ := idx_facts1 t
  funext y
  unfold iblk1
  rw [View.read_apply]
  show V c main_arg6 _ = V c main_arg6 _
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 256 + 1 * (y 1).val = (y 1).val; rw [e1]; omega
theorem iblk1_3_eq (c : Dev nD) (t : Fin cfg1.N) :
    (iblk1 V c 3 t : Vec Ideal Cert.KernelIdeal.S128x256 .f32) = (V c main_arg8 : Cert.KernelIdeal.S128x256.Idx → EReal) := by
  obtain ⟨-, -, -, -, -, -, e0, e1, -⟩ := idx_facts1 t
  funext y
  unfold iblk1
  rw [View.read_apply]
  show V c main_arg8 _ = V c main_arg8 _
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 256 + 1 * (y 1).val = (y 1).val; rw [e1]; omega
theorem iblk1_4_eq (c : Dev nD) (t : Fin cfg1.N) :
    (iblk1 V c 4 t : Vec Ideal Cert.KernelIdeal.S1x256 .f32) = (V c main_v27 : Cert.KernelIdeal.S1x256.Idx → EReal) := by
  obtain ⟨-, -, -, -, -, -, -, -, e0, e1, -⟩ := idx_facts1 t
  funext y
  unfold iblk1
  rw [View.read_apply]
  show V c main_v27 _ = V c main_v27 _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 256 + 1 * (y 1).val = (y 1).val; rw [e1]; omega

end Blocks

/-! ## What a point writes back -/

/-- The stored value at row `r`, column `q` of a block whose two row windows hold row `p` of their arrays at row `r`. -/
theorem point1 (x0 : Vec Ideal Cert.KernelIdeal.S2000x128 .f32) (x1 : Vec Ideal Cert.KernelIdeal.S2000x128 .bf16)
    (A H : Cert.KernelIdeal.S100000x128.Idx → EReal) (W6 W8 : Cert.KernelIdeal.S128x256.Idx → EReal) (B : Cert.KernelIdeal.S1x256.Idx → EReal)
    (r : Fin 2000) (p : Fin 100000) (q : Fin 256)
    (h0 : ∀ k : Fin 128, x0 (ix2 r k) = A (ix2 p k)) (h1 : ∀ k : Fin 128, x1 (ix2 r k) = H (ix2 p k)) :
    k1_pay1 (F := Ideal) x0 x1 W6 W8 B (ix2 r q) = dense2 A H W6 W8 B (ix2 p q) := by
  rw [pay1_apply, dense2_ix2]
  unfold dense2At
  simp only [h0, h1]

section Flush

variable (V : (c : Dev nD) → (b : Ref sig .tc) → Buf (Elt Ideal) ((c : Thread nD τ).loc b))

/-- The output array as the region leaves it, from the arrays as the region finds them. -/
abbrev arrOut1 (c : Dev nD) : Cert.KernelIdeal.S100000x256.Idx → EReal :=
  dense2 (V c main_v26) (V c main_v15) (V c main_arg6) (V c main_arg8) (V c main_v27)

/-- What point `t` writes back is block `t` of `arrOut1`. -/
theorem flushed1_5_eq (c : Dev nD) (t : Fin cfg1.N) :
    (dat1 (F := Ideal) V c).flushed 5 t = ((cfg1.win 5).blk t).view.read (Elt Ideal) (arrOut1 V c) := by
  show (cfg1.win 5).cut (grid1.coords t) ((dat1 V c).after 5 t) = _
  rw [after1_5]
  unfold out1_5
  rw [View.canon_unit_zero hz1]
  simp only [View.ld_unit_zero (S := Cert.KernelIdeal.S2000x128) hz1, View.ld_unit_zero (S := Cert.KernelIdeal.S128x256) hz1, View.ld_unit_zero (S := Cert.KernelIdeal.S1x256) hz1]
  rw [iblk1_2_eq, iblk1_3_eq, iblk1_4_eq]
  funext j
  obtain ⟨r, q, rfl⟩ : ∃ (r : Fin 2000) (q : Fin 256), j = ix2 r q := ⟨j 0, j 1, eq_ix2 j⟩
  obtain ⟨-, -, -, -, -, -, -, -, -, -, e0, e1⟩ := idx_facts1 t
  have ht : t.val < 50 := lt_of_lt_of_eq t.isLt N_1
  have hp : t.val * 2000 + r.val < 100000 := by have := r.isLt; omega
  have hemb : ((cfg1.win 5).blk t).view.emb (ix2 r q) = ix2 (⟨t.val * 2000 + r.val, hp⟩ : Fin 100000) q := by
    funext a
    apply Fin.ext
    match a with
    | ⟨0, _⟩ => show win1_5.index t (0 : Fin 2) * 2000 + 1 * r.val = t.val * 2000 + r.val; rw [e0]; omega
    | ⟨1, _⟩ => show win1_5.index t (1 : Fin 2) * 256 + 1 * q.val = q.val; rw [e1]; omega
  show k1_pay1 (F := Ideal) _ _ _ _ _ (ix2 r q) = arrOut1 V c (((cfg1.win 5).blk t).view.emb (ix2 r q))
  rw [hemb]
  refine point1 _ _ _ _ _ _ _ r _ q (fun k => ?_) (fun k => ?_)
  · exact iblk1_0_apply V c t (ix2 r k) (ix2 _ k) rfl rfl
  · exact iblk1_1_apply V c t (ix2 r k) (ix2 _ k) rfl rfl

/-- An index of the output array is in point `t`'s block iff each coordinate is in the block's range on its axis. -/
theorem mem_blk1_5 (t : Fin cfg1.N) (i : Cert.KernelIdeal.S100000x256.Idx) :
    i ∈ ((cfg1.win 5).blk t).view.set ↔ ∀ a : Fin 2, win1_5.index t a * Cert.KernelIdeal.S2000x256.size a ≤ (i a).val
      ∧ (i a).val < win1_5.index t a * Cert.KernelIdeal.S2000x256.size a + Cert.KernelIdeal.S2000x256.size a := by
  show i ∈ ((View.whole main_v28).slice (win1_5.rect t)).set ↔ _
  rw [View.set_slice_whole, Rect.mem_set_unit]
  exact Iff.rfl

/-- The 50 blocks cover the array: row `n` is in the block of point `n / 2000`. -/
theorem blocks_cover1_5 (i : Cert.KernelIdeal.S100000x256.Idx) :
    ∃ t : Fin cfg1.N, (cfg1.win 5).flush t = true ∧ i ∈ ((cfg1.win 5).blk t).view.set := by
  have hi0 : (i 0).val < 100000 := (i 0).isLt
  have hi1 : (i 1).val < 256 := (i 1).isLt
  have hN : (i 0).val / 2000 < cfg1.N := lt_of_lt_of_eq (by omega : (i 0).val / 2000 < 50) N_1.symm
  obtain ⟨-, -, -, -, -, -, -, -, -, -, e0, e1⟩ := idx_facts1 ⟨(i 0).val / 2000, hN⟩
  refine ⟨⟨(i 0).val / 2000, hN⟩, flush1_5 _, ?_⟩
  rw [mem_blk1_5]
  intro a
  match a with
  | ⟨0, _⟩ =>
    show win1_5.index ⟨(i 0).val / 2000, hN⟩ (0 : Fin 2) * 2000 ≤ (i 0).val ∧ (i 0).val < win1_5.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win1_5.index ⟨(i 0).val / 2000, hN⟩ (1 : Fin 2) * 256 ≤ (i 1).val ∧ (i 1).val < win1_5.index ⟨(i 0).val / 2000, hN⟩ (1 : Fin 2) * 256 + 256
    rw [e1]
    omega

/-- So the output array ends holding `arrOut1`. -/
theorem arr1_out (c : Dev nD) : (dat1 (F := Ideal) V c).arrAt 5 cfg1.N = arrOut1 V c :=
  (dat1 (F := Ideal) V c).arrAt_eq_of_cover 5 (arrOut1 V c) (fun t _ => flushed1_5_eq V c t) blocks_cover1_5

end Flush

/-! ## The specification is the reference's layer 2 -/

/-- The four axis readings of the reference's contraction (all rows × features times features × columns). -/
theorem lhs_dotR2_0 (i : Cert.ReferenceIdeal.S100000x256.Idx) (q : Cert.ReferenceIdeal.dot_S100000x128_S128x256_S100000x256_1_0_0_1_n_n.contr.Idx) :
    (Cert.ReferenceIdeal.dot_S100000x128_S128x256_S100000x256_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x256_S100000x256_1_0_0_1_n_n.lhsBatch by decide), dif_pos (show (0 : Fin Cert.ReferenceIdeal.S100000x128.rank) ∈ Cert.ReferenceIdeal.dot_S100000x128_S128x256_S100000x256_1_0_0_1_n_n.lhsNonContracting by decide)]
  rfl
theorem lhs_dotR2_1 (i : Cert.ReferenceIdeal.S100000x256.Idx) (q : Cert.ReferenceIdeal.dot_S100000x128_S128x256_S100000x256_1_0_0_1_n_n.contr.Idx) :
    (Cert.ReferenceIdeal.dot_S100000x128_S128x256_S100000x256_1_0_0_1_n_n.lhsIdx i q 1).val = (q ⟨0, by decide⟩).val :=
  Cert.ReferenceIdeal.dot_S100000x128_S128x256_S100000x256_1_0_0_1_n_n.lhsIdx_val_of_single rfl i q
theorem rhs_dotR2_0 (i : Cert.ReferenceIdeal.S100000x256.Idx) (q : Cert.ReferenceIdeal.dot_S100000x128_S128x256_S100000x256_1_0_0_1_n_n.contr.Idx) :
    (Cert.ReferenceIdeal.dot_S100000x128_S128x256_S100000x256_1_0_0_1_n_n.rhsIdx i q 0).val = (q ⟨0, by decide⟩).val :=
  Cert.ReferenceIdeal.dot_S100000x128_S128x256_S100000x256_1_0_0_1_n_n.rhsIdx_val_of_single rfl i q
theorem rhs_dotR2_1 (i : Cert.ReferenceIdeal.S100000x256.Idx) (q : Cert.ReferenceIdeal.dot_S100000x128_S128x256_S100000x256_1_0_0_1_n_n.contr.Idx) :
    (Cert.ReferenceIdeal.dot_S100000x128_S128x256_S100000x256_1_0_0_1_n_n.rhsIdx i q 1).val = (i 1).val := by
  unfold DotDims.rhsIdx
  rw [dif_neg (show ¬(1 : Fin Cert.ReferenceIdeal.S128x256.rank) ∈ Cert.ReferenceIdeal.dot_S100000x128_S128x256_S100000x256_1_0_0_1_n_n.rhsBatch by decide), dif_pos (show (1 : Fin Cert.ReferenceIdeal.S128x256.rank) ∈ Cert.ReferenceIdeal.dot_S100000x128_S128x256_S100000x256_1_0_0_1_n_n.rhsNonContracting by decide)]
  rfl

/-- The reference's matrix product at row `p` and column `q`: the sum over the 128 features. -/
theorem dotR2_apply (x : FVec Ideal Cert.ReferenceIdeal.S100000x128 .f32) (w : FVec Ideal Cert.ReferenceIdeal.S128x256 .f32) (p : Fin 100000) (q : Fin 256) :
    Host.dotGeneral (F := Ideal) Cert.ReferenceIdeal.dot_S100000x128_S128x256_S100000x256_1_0_0_1_n_n none x w (ix2 p q)
      = ∑ k : Fin 128, x (ix2 p k) * w (ix2 k q) := by
  simp only [Host.dotGeneral]
  rw [Ideal.dotGeneral_apply, ← Equiv.sum_comp (contrEquiv1 Cert.ReferenceIdeal.dot_S100000x128_S128x256_S100000x256_1_0_0_1_n_n 128 rfl rfl).symm]
  refine Finset.sum_congr rfl fun k _ => ?_
  have hk := contrEquiv1_symm_val Cert.ReferenceIdeal.dot_S100000x128_S128x256_S100000x256_1_0_0_1_n_n 128 rfl rfl k
  have el : Cert.ReferenceIdeal.dot_S100000x128_S128x256_S100000x256_1_0_0_1_n_n.lhsIdx (ix2 p q) ((contrEquiv1 Cert.ReferenceIdeal.dot_S100000x128_S128x256_S100000x256_1_0_0_1_n_n 128 rfl rfl).symm k) = ix2 p k := funext fun a => Fin.ext (by
    match a with
    | ⟨0, _⟩ => exact lhs_dotR2_0 _ _
    | ⟨1, _⟩ => exact (lhs_dotR2_1 _ _).trans hk)
  have er : Cert.ReferenceIdeal.dot_S100000x128_S128x256_S100000x256_1_0_0_1_n_n.rhsIdx (ix2 p q) ((contrEquiv1 Cert.ReferenceIdeal.dot_S100000x128_S128x256_S100000x256_1_0_0_1_n_n 128 rfl rfl).symm k) = ix2 k q := funext fun a => Fin.ext (by
    match a with
    | ⟨0, _⟩ => exact (rhs_dotR2_0 _ _).trans hk
    | ⟨1, _⟩ => exact rhs_dotR2_1 _ _)
  rw [el, er]

/-- The bias reshaped to a row reads the bias at the column. -/
theorem biasRow2_apply (b7 : Cert.KernelIdeal.S256.Idx → EReal) (q : Fin 256) :
    shapeCast Cert.KernelIdeal.S1x256 b7 shapeCasts_S256_S1x256 (ix2 (0 : Fin 1) q) = b7 (ix1 q) :=
  shapeCast_apply b7 shapeCasts_S256_S1x256 (ix2 (0 : Fin 1) q) (ix1 q)
    (by rewrite [Shape.rowMajor_val_one, Shape.rowMajor_val_two]; show q.val = 0 * 256 + q.val; omega)

/-- The reference's bias, spread first to a row and then over all rows, reads the bias at the column. -/
theorem biasR2_apply (b7 : Cert.ReferenceIdeal.S256.Idx → EReal) (p : Fin 100000) (q : Fin 256) :
    broadcastInDim Cert.ReferenceIdeal.S100000x256 ![0, 1] Cert.ReferenceIdeal.Gen.bcast_S1x256_S100000x256_0_1
      (broadcastInDim Cert.ReferenceIdeal.S1x256 ![1] Cert.ReferenceIdeal.Gen.bcast_S256_S1x256_1 b7) (ix2 p q) = b7 (ix1 q) := by
  refine (broadcastInDim_apply _ Cert.ReferenceIdeal.Gen.bcast_S1x256_S100000x256_0_1 _ (ix2 p q) (ix2 (0 : Fin 1) q) (fun a => match a with
    | ⟨0, _⟩ => by show (0 : ℕ) = if (1 : ℕ) = 1 then 0 else p.val; rw [if_pos rfl]
    | ⟨1, _⟩ => by show q.val = if (256 : ℕ) = 1 then 0 else q.val; rw [if_neg (by decide)])).trans ?_
  exact broadcastInDim_apply _ Cert.ReferenceIdeal.Gen.bcast_S256_S1x256_1 b7 (ix2 (0 : Fin 1) q) (ix1 q) (fun a => match a with
    | ⟨0, _⟩ => by show q.val = if (256 : ℕ) = 1 then 0 else q.val; rw [if_neg (by decide)])

/-- The reference's zero, spread over the array, is the extended real `0` everywhere. -/
theorem zeroR2_apply (i : Cert.ReferenceIdeal.S100000x256.Idx) :
    broadcastInDim Cert.ReferenceIdeal.S100000x256 ![] Cert.ReferenceIdeal.Gen.bcast_S_S100000x256
      (constant (F := Ideal) Cert.ReferenceIdeal.S_ .f32 0x00000000#32) i = 0 :=
  (broadcastInDim_apply _ Cert.ReferenceIdeal.Gen.bcast_S_S100000x256 _ i ix0 (fun a => a.elim0)).trans Ideal.ofBits_zero_f32

/-- The specification with the bias as the reshaped row is the reference's layer 2. -/
theorem dense2_eq_lay2 (a h : Cert.ReferenceIdeal.Shape.Arr Ideal Cert.ReferenceIdeal.S100000x128 .f32) (w6 w8 : Cert.ReferenceIdeal.Shape.Arr Ideal Cert.ReferenceIdeal.S128x256 .f32)
    (b7 : Cert.ReferenceIdeal.Shape.Arr Ideal Cert.ReferenceIdeal.S256 .f32) :
    dense2 a h w6 w8 (shapeCast Cert.KernelIdeal.S1x256 b7 shapeCasts_S256_S1x256) = Cert.ReferenceIdeal.Shape.lay2 a h w6 b7 w8 := by
  funext i
  obtain ⟨p, q, rfl⟩ : ∃ (p : Fin 100000) (q : Fin 256), i = ix2 p q := ⟨i 0, i 1, eq_ix2 i⟩
  rw [dense2_ix2]
  unfold dense2At Cert.ReferenceIdeal.Shape.lay2
  rw [maximumf_apply, addf_apply, addf_apply, dotR2_apply, dotR2_apply, biasR2_apply, biasRow2_apply, zeroR2_apply, add_right_comm]

end Cert.KernelIdeal.Hand.Val1

/-! ## The region's value -/

namespace Cert.KernelIdeal.Hand

open Cert.KernelIdeal Cert.KernelIdeal.Gen
open Idealize.ShloMosaic Idealize.ShloMosaic.TcCoe
open Idealize.SL.Sem

/-- Region 1's output array ends holding the reference's layer 2 of the region's input arrays. -/
theorem arr1_eq (V : (c : Dev nD) → (b : Ref sig .tc) → Buf (Elt Ideal) ((c : Thread nD τ).loc b)) (c : Dev nD)
    (a h : Cert.ReferenceIdeal.Shape.Arr Ideal Cert.ReferenceIdeal.S100000x128 .f32) (w6 w8 : Cert.ReferenceIdeal.Shape.Arr Ideal Cert.ReferenceIdeal.S128x256 .f32)
    (b7 : Cert.ReferenceIdeal.Shape.Arr Ideal Cert.ReferenceIdeal.S256 .f32)
    (ha : V c main_v26 = a) (hh : V c main_v15 = h) (h6 : V c main_arg6 = w6) (h8 : V c main_arg8 = w8)
    (hb : V c main_v27 = shapeCast Cert.KernelIdeal.S1x256 b7 shapeCasts_S256_S1x256) :
    (dat1 (F := Ideal) V c).arrAt 5 cfg1.N = Cert.ReferenceIdeal.Shape.lay2 a h w6 b7 w8 := by
  subst ha hh h6 h8
  rw [Val1.arr1_out V c]
  show Val1.dense2 _ _ _ _ (V c main_v27) = _
  rw [hb]
  exact Val1.dense2_eq_lay2 _ _ _ _ _

end Cert.KernelIdeal.Hand

end
-- ==== Proof.KVal2Pay.lean ====
/-
  The accumulating payload of the pooling region, read at an index, on the extended reals.

  At a grid point the region's body computes, from the point's blocks — the aggregate rows `a` and the feature rows `h`
  (`2000 × 256` each), the two weight matrices `w9`, `w11` (`256 × 512`), the bias as a row `b` (`1 × 512`) and the
  one-hot rows `oh` (`2000 × 64`) — and from the running sums `acc` (`64 × 512`):

      acc + ohᵀ · (a · w9 + h · w11 + b).

  Every change of float format on the way is the identity on the extended reals, each matrix product accumulates into a
  zero matrix, and the transpose only renames the index. So entry `(j, d)` is
  `acc (j, d) + ∑ r, oh (r, j) * ((∑ k, a (r, k) * w9 (k, d) + ∑ k, h (r, k) * w11 (k, d)) + b (0, d))`.
-/
import proofs.«415884_j3539053052569_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand.Val2

open Cert.KernelIdeal Cert.KernelIdeal.Gen
open Idealize.ShloMosaic Idealize.ShloMosaic.TcCoe Idealize.ShloMosaic.ValueIdx
open scoped BigOperators

/-- A product of an `M × K` by a `K × N` matrix (second axis of the left against first axis of the right, no batch axis)
    into the zero matrix, read at `(i, j)`: the sum over the contracted axis of the products. The four hypotheses say
    where the two operand indices of such a product sit. -/
theorem plain_matmul_zero_apply {M K N : ℕ} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    {φ₁ φ₂ : FTy} (lhs : FVec Ideal ⟨2, ![M, K]⟩ φ₁) (rhs : FVec Ideal ⟨2, ![K, N]⟩ φ₂) (i : Fin M) (j : Fin N) :
    matmul D none lhs rhs (constant ⟨2, ![M, N]⟩ .f32 0x00000000#32) (ix2 i j) = ∑ k : Fin K, lhs (ix2 i k) * rhs (ix2 k j) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 i j) ((contrEquiv1 D K hr hs).symm k) = ix2 i k := funext fun a => Fin.ext (by
    match a with
    | ⟨0, _⟩ => exact hl0 _ _
    | ⟨1, _⟩ => exact (hl1 _ _).trans hk)
  have er : D.rhsIdx (ix2 i j) ((contrEquiv1 D K hr hs).symm k) = ix2 k j := funext fun a => Fin.ext (by
    match a with
    | ⟨0, _⟩ => exact (hr0 _ _).trans hk
    | ⟨1, _⟩ => exact hr1 _ _)
  rw [el, er]

/-- The rows' product with a weight matrix: `[2000, 256] · [256, 512]` at `(r, d)`. -/
theorem rows_matmul_apply {φ₁ φ₂ : FTy} (lhs : FVec Ideal S2000x256 φ₁) (rhs : FVec Ideal S256x512 φ₂) (r : Fin 2000) (d : Fin 512) :
    matmul dot_S2000x256_S256x512_S2000x512_1_0_0_1_n_n none lhs rhs (constant S2000x512 .f32 0x00000000#32) (ix2 r d)
      = ∑ k : Fin 256, lhs (ix2 r k) * rhs (ix2 k d) :=
  plain_matmul_zero_apply dot_S2000x256_S256x512_S2000x512_1_0_0_1_n_n rfl rfl
    (fun i q => by
      unfold DotDims.lhsIdx
      rw [dif_neg (show ¬(0 : Fin S2000x256.rank) ∈ dot_S2000x256_S256x512_S2000x512_1_0_0_1_n_n.lhsBatch by decide), dif_pos (show (0 : Fin S2000x256.rank) ∈ dot_S2000x256_S256x512_S2000x512_1_0_0_1_n_n.lhsNonContracting by decide)]
      rfl)
    (fun i q => dot_S2000x256_S256x512_S2000x512_1_0_0_1_n_n.lhsIdx_val_of_single rfl i q)
    (fun i q => dot_S2000x256_S256x512_S2000x512_1_0_0_1_n_n.rhsIdx_val_of_single rfl i q)
    (fun i q => by
      unfold DotDims.rhsIdx
      rw [dif_neg (show ¬(1 : Fin S256x512.rank) ∈ dot_S2000x256_S256x512_S2000x512_1_0_0_1_n_n.rhsBatch by decide), dif_pos (show (1 : Fin S256x512.rank) ∈ dot_S2000x256_S256x512_S2000x512_1_0_0_1_n_n.rhsNonContracting by decide)]
      rfl)
    lhs rhs r d

/-- The pooling product: `[64, 2000] · [2000, 512]` at `(j, d)`. -/
theorem pool_matmul_apply {φ₁ φ₂ : FTy} (lhs : FVec Ideal S64x2000 φ₁) (rhs : FVec Ideal S2000x512 φ₂) (j : Fin 64) (d : Fin 512) :
    matmul dot_S64x2000_S2000x512_S64x512_1_0_0_1_n_n none lhs rhs (constant S64x512 .f32 0x00000000#32) (ix2 j d)
      = ∑ r : Fin 2000, lhs (ix2 j r) * rhs (ix2 r d) :=
  plain_matmul_zero_apply dot_S64x2000_S2000x512_S64x512_1_0_0_1_n_n rfl rfl
    (fun i q => by
      unfold DotDims.lhsIdx
      rw [dif_neg (show ¬(0 : Fin S64x2000.rank) ∈ dot_S64x2000_S2000x512_S64x512_1_0_0_1_n_n.lhsBatch by decide), dif_pos (show (0 : Fin S64x2000.rank) ∈ dot_S64x2000_S2000x512_S64x512_1_0_0_1_n_n.lhsNonContracting by decide)]
      rfl)
    (fun i q => dot_S64x2000_S2000x512_S64x512_1_0_0_1_n_n.lhsIdx_val_of_single rfl i q)
    (fun i q => dot_S64x2000_S2000x512_S64x512_1_0_0_1_n_n.rhsIdx_val_of_single rfl i q)
    (fun i q => by
      unfold DotDims.rhsIdx
      rw [dif_neg (show ¬(1 : Fin S2000x512.rank) ∈ dot_S64x2000_S2000x512_S64x512_1_0_0_1_n_n.rhsBatch by decide), dif_pos (show (1 : Fin S2000x512.rank) ∈ dot_S64x2000_S2000x512_S64x512_1_0_0_1_n_n.rhsNonContracting by decide)]
      rfl)
    lhs rhs j d

/-- THE ACCUMULATING PAYLOAD AT `(j, d)`: the running sum there plus the one-hot column `j` against the rows' layer-3
    values in column `d`. -/
theorem pool_acc_apply (a : Vec Ideal S2000x256 .f32) (h : Vec Ideal S2000x256 .bf16) (w9 w11 : Vec Ideal S256x512 .f32)
    (b : Vec Ideal S1x512 .f32) (oh : Vec Ideal S2000x64 .bf16) (acc : Vec Ideal S64x512 .f32) (j : Fin 64) (d : Fin 512) :
    k2_pay2 (F := Ideal) a h w9 w11 b oh acc (ix2 j d)
      = acc (ix2 j d) + ∑ r : Fin 2000, oh (ix2 r j)
          * ((∑ k : Fin 256, a (ix2 r k) * w9 (ix2 k d) + ∑ k : Fin 256, h (ix2 r k) * w11 (ix2 k d)) + b (ix2 0 d)) := by
  unfold k2_pay2
  simp only [shapeCast_self]
  rw [addf_apply, pool_matmul_apply]
  congr 1
  refine Finset.sum_congr rfl fun r _ => ?_
  rw [transpose_ix2_apply, truncf_apply, addf_apply, addf_apply, rows_matmul_apply, rows_matmul_apply, broadcastTo_1b_ab_apply]
  simp only [truncf_apply]

/-- The clearing payload is the zero matrix. -/
theorem pool_clear_apply (i : S64x512.Idx) : k2_pay1 (F := Ideal) i = 0 := by
  unfold k2_pay1
  simp only [shapeCast_self]
  show Ideal.ofBits .f32 0x00000000#32 = 0
  exact Ideal.ofBits_zero_f32

end Cert.KernelIdeal.Hand.Val2

end
-- ==== Proof.LibRowScatterAdd.lean ====
/-
  An accumulating scatter of whole rows, read at an index on the extended reals.

  `segment_sum(upd, idx)` of rows `upd : [R, C]` into `[N, C]` lowers to a scatter with an `add` body, update window
  axis 1, inserted window axis 0, the scatter index naming operand axis 0, over the indices as a column `[R, 1]`.
  Update element `(r, q')` lands on operand element `(idx[r, 0], q')` (the index read signed, NOT clamped; outside
  `[0, N)` the update is dropped). So element `(n, q)` of the result is the operand's plus the sum over the rows `r`
  whose index is `n` of `upd (r, q)`: columns never mix, which is why scattering rows laid side by side is scattering
  each part on its own.
-/
import Idealize.ShloMosaic.Lib.ValueIdx
import Idealize.ShloMosaic.PureOps.Ideal.Laws

noncomputable section

namespace Idealize.ShloMosaic.ValueIdx

section RowScatterAdd

/-- Those dimension numbers for an operand `[N, C]`, scatter indices `[R, 1]` and updates `[R, C]`. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Operand axis 1 is not an inserted window axis: it is the one axis the update window runs over. -/
theorem rs_mem_sKept {N R C : Nat}
    (wf : ScatterDims.WF ⟨2, ![N, C]⟩ ⟨2, ![R, 1]⟩ ⟨2, ![R, C]⟩ [1] [0] [0] 1) :
    (1 : Fin 2) ∈ (rowScatterDims N R C wf).sKept := by
  show (1 : Fin 2) ∈ (List.finRange 2).filter (fun a => a ∉ [(0 : Fin 2)])
  decide

/-- Operand axis 0 is the inserted window axis. -/
theorem rs_not_mem_sKept {N R C : Nat}
    (wf : ScatterDims.WF ⟨2, ![N, C]⟩ ⟨2, ![R, 1]⟩ ⟨2, ![R, C]⟩ [1] [0] [0] 1) :
    (0 : Fin 2) ∉ (rowScatterDims N R C wf).sKept := by
  show (0 : Fin 2) ∉ (List.finRange 2).filter (fun a => a ∉ [(0 : Fin 2)])
  decide

/-- On operand axis 0 the window coordinate is `0`. -/
theorem rs_window0 {N R C : Nat}
    (wf : ScatterDims.WF ⟨2, ![N, C]⟩ ⟨2, ![R, 1]⟩ ⟨2, ![R, C]⟩ [1] [0] [0] 1) (r : Fin R) (q' : Fin C) :
    (rowScatterDims N R C wf).window (ix2 r q') 0 = 0 := by
  unfold ScatterDims.window
  rw [dif_neg (rs_not_mem_sKept wf)]

/-- On operand axis 1 the window coordinate is the update's column `q'`. -/
theorem rs_window1 {N R C : Nat}
    (wf : ScatterDims.WF ⟨2, ![N, C]⟩ ⟨2, ![R, 1]⟩ ⟨2, ![R, C]⟩ [1] [0] [0] 1) (r : Fin R) (q' : Fin C) :
    (rowScatterDims N R C wf).window (ix2 r q') 1 = q'.val := by
  unfold ScatterDims.window
  rw [dif_pos (rs_mem_sKept wf)]
  rfl

/-- On operand axis 1, which the scatter index does not name, the window starts at `0`. -/
theorem rs_start1 {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) :
    (rowScatterDims N R C wf).start (ix2 r q') idx 1 = 0 := by
  unfold ScatterDims.start
  rw [dif_neg (show (1 : Fin 2) ∉ [(0 : Fin 2)] by decide)]

/-- On operand axis 0 the window starts at row `r`'s index `idx[r, 0]`, read signed. -/
theorem rs_start0 {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) :
    (rowScatterDims N R C wf).start (ix2 r q') idx 0 = (idx (ix2 r (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 r q') ⟨List.idxOf (0 : Fin 2) (rowScatterDims N R C wf).scatterDimsToOperandDims,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]

/-- Update element `(r, q')` lands on `(n, q)` iff row `r`'s index, read signed, is `n`, and the columns agree. -/
theorem rowScatter_resultIdx_iff {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) (n : Fin N) (q : Fin C) :
    (rowScatterDims N R C wf).resultIdx? (ix2 r q') idx = some (ix2 n q)
      ↔ (idx (ix2 r (0 : Fin 1))).toInt = (n.val : Int) ∧ q' = q := by
  unfold ScatterDims.resultIdx?
  have hN : (![N, C] 0 : Nat) = N := rfl
  have hC : (![N, C] 1 : Nat) = C := rfl
  have hn := n.isLt
  have hq' := q'.isLt
  simp only [Fin.forall_fin_two, rs_start0, rs_start1, rs_window0, rs_window1]
  split
  · rw [Option.some.injEq]
    constructor
    · intro he
      have e0 : ((rowScatterDims N R C wf).start (ix2 r q') idx 0
          + ((rowScatterDims N R C wf).window (ix2 r q') 0 : Nat)).toNat = n.val :=
        congrArg (fun f => (f 0).val) he
      have e1 : ((rowScatterDims N R C wf).start (ix2 r q') idx 1
          + ((rowScatterDims N R C wf).window (ix2 r q') 1 : Nat)).toNat = q.val :=
        congrArg (fun f => (f 1).val) he
      rw [rs_start0, rs_window0] at e0
      rw [rs_start1, rs_window1] at e1
      exact ⟨by omega, Fin.ext (by omega)⟩
    · rintro ⟨e0, e1⟩
      funext a
      refine Fin.ext ?_
      match a with
      | ⟨0, _⟩ =>
        show ((rowScatterDims N R C wf).start (ix2 r q') idx 0
          + ((rowScatterDims N R C wf).window (ix2 r q') 0 : Nat)).toNat = n.val
        rw [rs_start0, rs_window0]; omega
      | ⟨1, _⟩ =>
        show ((rowScatterDims N R C wf).start (ix2 r q') idx 1
          + ((rowScatterDims N R C wf).window (ix2 r q') 1 : Nat)).toNat = q.val
        rw [rs_start1, rs_window1, e1]; omega
  · rename_i h
    constructor
    · intro he; cases he
    · rintro ⟨e0, e1⟩
      exact absurd ⟨⟨by omega, by omega⟩, by omega, by omega⟩ h

/-- THE ROW SCATTER-ADD READ AT `(n, q)` on the extended reals: the operand's element plus the sum, over the rows whose
    index is `n`, of the update's element in column `q`. -/
theorem rowScatterAdd_apply {N R C w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (n : Fin N) (q : Fin C) :
    Ideal.hostScatterAdd (rowScatterDims N R C wf) x idx upd (ix2 n q)
      = x (ix2 n q) + ∑ r : Fin R, if (idx (ix2 r (0 : Fin 1))).toInt = (n.val : Int) then upd (ix2 r q) else 0 := by
  show x (ix2 n q) + ∑ j ∈ Finset.univ.filter
      (fun j => (rowScatterDims N R C wf).resultIdx? j idx = some (ix2 n q)), upd j = _
  congr 1
  rw [Finset.sum_filter, sum_idx2]
  refine Finset.sum_congr rfl (fun r _ => ?_)
  simp only [rowScatter_resultIdx_iff]
  by_cases h : (idx (ix2 r (0 : Fin 1))).toInt = (n.val : Int)
  · simp only [h, true_and, if_true]
    rw [Finset.sum_ite_eq' Finset.univ q (fun q' => upd (ix2 r q')), if_pos (Finset.mem_univ q)]
  · simp only [h, false_and, if_false, Finset.sum_const_zero]

end RowScatterAdd

end Idealize.ShloMosaic.ValueIdx

end
-- ==== Proof.KVal2Ref.lean ====
/-
  The reference's pooled layer-3 rows, read at an index, on the extended reals.

  Layer 3 gives node `n` the row `(a · w9 + b + h · w11) (n, ·)`; pooling adds the rows graph by graph: an accumulating
  scatter of the `100000` rows, onto a zero matrix, at the rows' graph ids read as signed integers — a row whose id is
  no graph's is dropped. So entry `(j, d)` of the pooled matrix is the sum, over the nodes whose id is `j`, of
  `(∑ k, a (n, k) * w9 (k, d) + b d) + ∑ k, h (n, k) * w11 (k, d)`.
-/
import proofs.«415884_j3539053052569_2_alg».proof.Proof.RefShape
import proofs.«415884_j3539053052569_2_alg».proof.Proof.LibRowScatterAdd
import Idealize.ShloMosaic.PureOps.Ideal
import Idealize.ShloMosaic.PureOps.Ideal.Laws
import Idealize.ShloMosaic.Lib.ValueIdx
import Idealize.ShloMosaic.Lib.Pipeline.Value

noncomputable section

namespace Cert.ReferenceIdeal.PoolRead

open Cert.ReferenceIdeal Cert.ReferenceIdeal.Gen Cert.ReferenceIdeal.Shape
open Idealize.ShloMosaic Idealize.ShloMosaic.TcCoe Idealize.ShloMosaic.ValueIdx
open scoped BigOperators

/-- The host's product of an `M × K` by a `K × N` matrix (second axis of the left against first axis of the right, no
    batch axis), read at `(i, j)`: the sum over the contracted axis of the products. The four hypotheses say where the two
    operand indices of such a product sit. -/
theorem plain_dotGeneral_apply {M K N : ℕ} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    {φ₁ φ₂ : FTy} (lhs : FVec Ideal ⟨2, ![M, K]⟩ φ₁) (rhs : FVec Ideal ⟨2, ![K, N]⟩ φ₂) (i : Fin M) (j : Fin N) :
    Host.dotGeneral D none lhs rhs (ix2 i j) = ∑ k : Fin K, lhs (ix2 i k) * rhs (ix2 k j) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 i j) ((contrEquiv1 D K hr hs).symm k) = ix2 i k := funext fun a => Fin.ext (by
    match a with
    | ⟨0, _⟩ => exact hl0 _ _
    | ⟨1, _⟩ => exact (hl1 _ _).trans hk)
  have er : D.rhsIdx (ix2 i j) ((contrEquiv1 D K hr hs).symm k) = ix2 k j := funext fun a => Fin.ext (by
    match a with
    | ⟨0, _⟩ => exact (hr0 _ _).trans hk
    | ⟨1, _⟩ => exact hr1 _ _)
  rw [el, er]

/-- The node rows' product with a weight matrix: `[100000, 256] · [256, 512]` at `(n, d)`. -/
theorem nodes_dot_apply {φ₁ φ₂ : FTy} (lhs : FVec Ideal S100000x256 φ₁) (rhs : FVec Ideal S256x512 φ₂) (n : Fin 100000) (d : Fin 512) :
    Host.dotGeneral dot_S100000x256_S256x512_S100000x512_1_0_0_1_n_n none lhs rhs (ix2 n d)
      = ∑ k : Fin 256, lhs (ix2 n k) * rhs (ix2 k d) :=
  plain_dotGeneral_apply dot_S100000x256_S256x512_S100000x512_1_0_0_1_n_n rfl rfl
    (fun i q => by
      unfold DotDims.lhsIdx
      rw [dif_neg (show ¬(0 : Fin S100000x256.rank) ∈ dot_S100000x256_S256x512_S100000x512_1_0_0_1_n_n.lhsBatch by decide), dif_pos (show (0 : Fin S100000x256.rank) ∈ dot_S100000x256_S256x512_S100000x512_1_0_0_1_n_n.lhsNonContracting by decide)]
      rfl)
    (fun i q => dot_S100000x256_S256x512_S100000x512_1_0_0_1_n_n.lhsIdx_val_of_single rfl i q)
    (fun i q => dot_S100000x256_S256x512_S100000x512_1_0_0_1_n_n.rhsIdx_val_of_single rfl i q)
    (fun i q => by
      unfold DotDims.rhsIdx
      rw [dif_neg (show ¬(1 : Fin S256x512.rank) ∈ dot_S100000x256_S256x512_S100000x512_1_0_0_1_n_n.rhsBatch by decide), dif_pos (show (1 : Fin S256x512.rank) ∈ dot_S100000x256_S256x512_S100000x512_1_0_0_1_n_n.rhsNonContracting by decide)]
      rfl)
    lhs rhs n d

/-- The bias broadcast over the rows, at `(n, d)`: the bias at `d`. -/
theorem bias_apply (b10 : Arr Ideal S512 .f32) (n : Fin 100000) (d : Fin 512) :
    broadcastInDim S100000x512 ![0, 1] bcast_S1x512_S100000x512_0_1 (broadcastInDim S1x512 ![1] bcast_S512_S1x512_1 b10) (ix2 n d)
      = b10 (ix1 d) := by
  refine (broadcastInDim_apply _ bcast_S1x512_S100000x512_0_1 _ (ix2 n d) (ix2 (0 : Fin 1) d) (fun a => match a with
    | ⟨0, _⟩ => by show (0 : Nat) = if (1 : Nat) = 1 then 0 else n.val; rw [if_pos rfl]
    | ⟨1, _⟩ => by show d.val = if (512 : Nat) = 1 then 0 else d.val; rw [if_neg (by decide)])).trans ?_
  exact broadcastInDim_apply _ bcast_S512_S1x512_1 b10 (ix2 (0 : Fin 1) d) (ix1 d) (fun a => match a with
    | ⟨0, _⟩ => by show d.val = if (512 : Nat) = 1 then 0 else d.val; rw [if_neg (by decide)])

/-- Layer 3 at `(n, d)`. -/
theorem lay3_apply (a h : Arr Ideal S100000x256 .f32) (w9 : Arr Ideal S256x512 .f32) (b10 : Arr Ideal S512 .f32)
    (w11 : Arr Ideal S256x512 .f32) (n : Fin 100000) (d : Fin 512) :
    lay3 a h w9 b10 w11 (ix2 n d)
      = (∑ k : Fin 256, a (ix2 n k) * w9 (ix2 k d) + b10 (ix1 d)) + ∑ k : Fin 256, h (ix2 n k) * w11 (ix2 k d) := by
  unfold lay3
  rw [addf_apply, addf_apply, nodes_dot_apply, nodes_dot_apply, bias_apply]

/-- The graph ids as a column of scatter indices, at row `n`: node `n`'s id. -/
theorem idcol_apply (g : Arr Ideal S100000 .i32) (n : Fin 100000) :
    broadcastInDim S100000x1 ![0] bcast_S100000_S100000x1_0 g (ix2 n (0 : Fin 1)) = g (ix1 n) :=
  broadcastInDim_apply _ bcast_S100000_S100000x1_0 g (ix2 n (0 : Fin 1)) (ix1 n) (fun a => match a with
    | ⟨0, _⟩ => by show n.val = if (100000 : Nat) = 1 then 0 else n.val; rw [if_neg (by decide)])

/-- POOLING AT `(j, d)`: the sum, over the nodes whose graph id read signed is `j`, of the node's entry in column `d`. -/
theorem pool_apply (y : Arr Ideal S100000x512 .f32) (g : Arr Ideal S100000 .i32) (j : Fin 64) (d : Fin 512) :
    Cert.ReferenceIdeal.Shape.pool y g (ix2 j d) = ∑ n : Fin 100000, if (g (ix1 n)).toInt = (j.val : ℤ) then y (ix2 n d) else 0 := by
  unfold Cert.ReferenceIdeal.Shape.pool
  show Ideal.hostScatterAdd (rowScatterDims 64 100000 512 Facts₀.scatter_S64x512_S100000x1_S100000x512_1_0_0_1_wf) _ _ _ (ix2 j d) = _
  rw [rowScatterAdd_apply]
  have h0 : broadcastInDim S64x512 ![] bcast_S_S64x512 (constant (F := Ideal) S_ .f32 0x00000000#32) (ix2 j d) = 0 :=
    Ideal.ofBits_zero_f32
  rw [h0, zero_add]
  refine Finset.sum_congr rfl fun n _ => ?_
  rw [idcol_apply]

end Cert.ReferenceIdeal.PoolRead

end
-- ==== Proof.LibTileSum.lean ====
/-
  Pure finite-sum reindexing over an additive commutative monoid (only commutativity and associativity of `+` and the
  neutral `0` are used: no subtraction, no cancellation).

  * `sum_fin_mul`: a sum over `[0, m·n)` is the double sum over the quotient `a < m` and the remainder `b < n` of the
    position `a·n + b`.
  * `sum_tiles`: a length-`T·(P·Q)` vector read as `T` tiles, each tile read row-major as `P` rows of `Q` lanes and summed
    down its rows, the `T × Q` partial sums then all added, is the sum of the whole vector.
  * `sum_below`: a sum over `[0, M₁)` of a function that is zero from `M₀` on is the sum over `[0, M₀)`.
  * `sum_first_rows`: an array of `T·S` rows of `Q` lanes whose only non-zero rows are the rows `t·S` sums to the sum of
    those rows.
-/
import Idealize.ShloMosaic.Lib.ValueIdx
import Mathlib.Algebra.BigOperators.Fin
import Mathlib.Data.Fintype.BigOperators
import Mathlib.Logic.Equiv.Fin.Basic

open scoped BigOperators

namespace Idealize.ShloMosaic.ValueIdx

open Idealize.ShloMosaic

/-- Position `a·n + b` with `a < m` and `b < n` lies below `m·n`: `a·n + b < a·n + n = (a+1)·n ≤ m·n`. -/
theorem mul_add_lt_mul {m n : Nat} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right _ a.isLt

/-- Position `t·(P·Q) + (p·Q + q)` with `t < T`, `p < P`, `q < Q` lies below `T·(P·Q)`: the inner position `p·Q + q` is
    below `P·Q`, and then the outer one is below `T·(P·Q)`. -/
theorem tile_pos_lt {T P Q : Nat} (t : Fin T) (p : Fin P) (q : Fin Q) :
    t.val * (P * Q) + (p.val * Q + q.val) < T * (P * Q) :=
  mul_add_lt_mul t (⟨p.val * Q + q.val, mul_add_lt_mul p q⟩ : Fin (P * Q))

/-- The first row `t·S` of the `t`-th group of `S` rows lies below `T·S` when a group is not empty. -/
theorem mul_lt_mul_fin {T S : Nat} (hS : 0 < S) (t : Fin T) : t.val * S < T * S :=
  mul_add_lt_mul t (⟨0, hS⟩ : Fin S)

/-- A sum over `[0, m·n)` is the double sum over quotient `a < m` and remainder `b < n` of the position `a·n + b`
    (the bijection `(a, b) ↦ a·n + b` between the product of the two ranges and `[0, m·n)`). -/
theorem sum_fin_mul {M : Type*} [AddCommMonoid M] (m n : Nat) (f : Fin (m * n) → M) :
    ∑ j : Fin (m * n), f j = ∑ a : Fin m, ∑ b : Fin n, f ⟨a.val * n + b.val, mul_add_lt_mul a b⟩ := by
  rw [← Equiv.sum_comp (finProdFinEquiv (m := m) (n := n)) f, Fintype.sum_prod_type]
  refine Finset.sum_congr rfl fun a _ => Finset.sum_congr rfl fun b _ => congrArg f (Fin.ext ?_)
  show b.val + n * a.val = a.val * n + b.val
  rw [Nat.add_comm, Nat.mul_comm]

/-- A length-`T·(P·Q)` vector read as `T` tiles, each tile read row-major as `P` rows of `Q` lanes (element `(p, q)` of
    tile `t` is position `t·(P·Q) + (p·Q + q)`) and summed down its rows, the `T × Q` partial sums then all added, is the
    sum of the whole vector: split the position into tile and offset, the offset into row and lane, and exchange the
    row sum with the lane sum. -/
theorem sum_tiles {M : Type*} [AddCommMonoid M] (T P Q : Nat) (g : Fin (T * (P * Q)) → M) :
    ∑ t : Fin T, ∑ q : Fin Q, ∑ p : Fin P,
        g ⟨t.val * (P * Q) + (p.val * Q + q.val), by exact tile_pos_lt t p q⟩ =
      ∑ j : Fin (T * (P * Q)), g j := by
  rw [sum_fin_mul T (P * Q) g]
  refine Finset.sum_congr rfl fun t _ => ?_
  rw [sum_fin_mul P Q (fun r : Fin (P * Q) => g ⟨t.val * (P * Q) + r.val, mul_add_lt_mul t r⟩)]
  exact Finset.sum_comm

/-- A sum over `[0, M₁)` of a function that is `h` below `M₀` and zero from `M₀` on is the sum of `h` over `[0, M₀)`:
    write `M₁ = M₀ + k`, split the range at `M₀`, and drop the zero part. -/
theorem sum_below {M : Type*} [AddCommMonoid M] {M₀ M₁ : Nat} (h01 : M₀ ≤ M₁) (h : Fin M₀ → M) :
    ∑ j : Fin M₁, (if hj : j.val < M₀ then h ⟨j.val, hj⟩ else 0) = ∑ v : Fin M₀, h v := by
  obtain ⟨k, rfl⟩ := Nat.exists_eq_add_of_le h01
  rw [Fin.sum_trunc]
  · refine Finset.sum_congr rfl fun v _ => ?_
    have hv : (Fin.castAdd k v).val < M₀ := v.isLt
    rw [dif_pos hv]
    exact congrArg h (Fin.ext rfl)
  · intro j
    have hj : ¬ (Fin.natAdd M₀ j).val < M₀ := by
      show ¬ M₀ + j.val < M₀
      exact Nat.not_lt.mpr (Nat.le_add_right _ _)
    rw [dif_neg hj]

/-- An array of `T·S` rows of `Q` lanes (`S > 0`) whose row `t·S` is `f t` and whose other rows `t·S + s`, `s ≠ 0`, are
    zero sums to the sum of the `f t q`: split the row into group `t` and offset `s`, and in each group only the
    offset `0` contributes. -/
theorem sum_first_rows {M : Type*} [AddCommMonoid M] (T S Q : Nat) (hS : 0 < S)
    (out : (⟨2, ![T * S, Q]⟩ : Shape).Idx → M) (f : Fin T → Fin Q → M)
    (h0 : ∀ (t : Fin T) (q : Fin Q), out (ix2 ⟨t.val * S, by exact mul_lt_mul_fin hS t⟩ q) = f t q)
    (hz : ∀ (t : Fin T) (s : Fin S) (q : Fin Q), s.val ≠ 0 →
      out (ix2 ⟨t.val * S + s.val, by exact mul_add_lt_mul t s⟩ q) = 0) :
    ∑ j, out j = ∑ t : Fin T, ∑ q : Fin Q, f t q := by
  rw [sum_idx2, sum_fin_mul T S (fun a : Fin (T * S) => ∑ b : Fin Q, out (ix2 a b))]
  refine Finset.sum_congr rfl fun t _ => ?_
  rw [Finset.sum_eq_single (⟨0, hS⟩ : Fin S)]
  · exact Finset.sum_congr rfl fun q _ => h0 t q
  · intro s _ hs
    have hs0 : s.val ≠ 0 := fun e => hs (Fin.ext e)
    exact Finset.sum_eq_zero fun q _ => hz t s q hs0
  · intro hn
    exact absurd (Finset.mem_univ _) hn

end Idealize.ShloMosaic.ValueIdx
-- ==== Proof.PoolMath.lean ====
/-
  The arithmetic of pooling rows by a graph id, on the extended reals — no program is involved.

  A pooled entry is `∑ n, [gid n = j] · y n` over all `100000` rows. It is computed as `50` tiles of `2000` rows, each
  tile contributing `∑ r, onehot (t, r) · y (t, r)`, the contributions accumulated one tile after the other into a
  running sum that starts at `0`. The facts used:

  * the one-hot coefficient is `1` or `0`, and `1 * y = y`, `0 * y = 0` hold for EVERY extended real, the two
    infinities included — so the product sum is the sum of the selected `y n`, whatever the `y n` are;
  * the word test `gid n = j` (as 32-bit words) and the signed-integer test `(gid n).toInt = j` agree for `j < 2^31`;
  * a sum over `[0, 100000)` is the double sum over tile and row of the position `2000 · t + r`;
  * a running sum `acc (t+1) = acc t + c (t+1)`, `acc 0 = 0 + c 0`, is `∑ t' ≤ t, c t'`.

  Only commutativity and associativity of `+` are used: nothing is assumed finite.
-/
import Idealize.ShloMosaic.PureOps.Ideal
import Idealize.ShloMosaic.PureOps.Ideal.Laws
import Idealize.ShloMosaic.Lib.ValueIdx
import proofs.«415884_j3539053052569_2_alg».proof.Proof.LibTileSum

open scoped BigOperators

namespace Cert.PoolMath

open Idealize.ShloMosaic Idealize.ShloMosaic.ValueIdx

/-! ### The word test and the signed test -/

/-- A natural number below `2^31`, as a 32-bit word read signed, is itself (its sign bit is clear). -/
theorem toInt_ofNat_small (j : ℕ) (hj : j < 2 ^ 31) : (BitVec.ofNat 32 j).toInt = (j : ℤ) := by
  rw [BitVec.toInt_eq_toNat_cond, BitVec.toNat_ofNat]
  have h : j % 2 ^ 32 = j := Nat.mod_eq_of_lt (by omega)
  rw [h, if_pos (by omega)]

/-- A 32-bit word is the word of `j < 2^31` iff, read signed, it is the integer `j`: reading signed is injective. -/
theorem word_eq_iff_toInt_eq (b : BitVec 32) (j : ℕ) (hj : j < 2 ^ 31) :
    b = BitVec.ofNat 32 j ↔ b.toInt = (j : ℤ) := by
  rw [← toInt_ofNat_small j hj, BitVec.toInt_inj]

/-- The one-hot coefficient: the truth value of a word equality, as a one-bit word, read unsigned as a real, is `1` where
    the words are equal and `0` elsewhere. -/
theorem indicator_cast (a b : BitVec 32) :
    (((BitVec.ofBool (a == b)).toNat : ℝ) : EReal) = if a = b then 1 else 0 := by
  by_cases h : a = b
  · rw [if_pos h, beq_iff_eq.mpr h]; simp
  · rw [if_neg h, beq_eq_false_iff_ne.mpr h]; simp

/-! ### (P1) multiplying by the one-hot coefficient selects -/

/-- One term: the coefficient `[g = j]` times `y` is `y` where the signed reading of `g` is `j`, and `0` elsewhere
    (`1 * y = y` and `0 * y = 0` for every extended real). -/
theorem onehot_mul (g : BitVec 32) (y : EReal) (j : ℕ) (hj : j < 2 ^ 31) :
    (if g = BitVec.ofNat 32 j then (1 : EReal) else 0) * y = if g.toInt = (j : ℤ) then y else 0 := by
  by_cases h : g = BitVec.ofNat 32 j
  · rw [if_pos h, if_pos ((word_eq_iff_toInt_eq _ j hj).mp h), one_mul]
  · rw [if_neg h, if_neg (fun e => h ((word_eq_iff_toInt_eq _ j hj).mpr e)), zero_mul]

/-- (P1) The product sum against the one-hot column `j` is the sum of the rows whose id, read signed, is `j`. -/
theorem onehot_mul_sum {N : ℕ} (gid : Fin N → BitVec 32) (y : Fin N → EReal) (j : ℕ) (hj : j < 2 ^ 31) :
    ∑ n, (if gid n = BitVec.ofNat 32 j then (1 : EReal) else 0) * y n
      = ∑ n, if (gid n).toInt = (j : ℤ) then y n else 0 :=
  Finset.sum_congr rfl fun n _ => onehot_mul (gid n) (y n) j hj

/-! ### (P2) the tile split -/

/-- Row `r` of tile `t` is row `2000 · t + r` of the `100000`. -/
theorem tile_row_lt (t : Fin 50) (r : Fin 2000) : 2000 * t.val + r.val < 100000 := by
  have := t.isLt; have := r.isLt; omega

/-- (P2) A sum over the `100000` rows is the sum over the `50` tiles of the sums over each tile's `2000` rows. -/
theorem sum_rows_eq_sum_tiles {M : Type*} [AddCommMonoid M] (f : Fin 100000 → M) :
    ∑ n, f n = ∑ t : Fin 50, ∑ r : Fin 2000, f ⟨2000 * t.val + r.val, tile_row_lt t r⟩ := by
  have h := sum_fin_mul 50 2000 (fun n : Fin (50 * 2000) => f ⟨n.val, n.isLt⟩)
  rw [show (∑ n, f n) = ∑ n : Fin (50 * 2000), f ⟨n.val, n.isLt⟩ from rfl, h]
  refine Finset.sum_congr rfl fun t _ => Finset.sum_congr rfl fun r _ => congrArg f (Fin.ext ?_)
  show t.val * 2000 + r.val = 2000 * t.val + r.val
  rw [Nat.mul_comm]

/-! ### (P3) the running sum -/

/-- (P3) A running sum that starts at `0 + c 0` and adds `c (t+1)` at step `t+1` is, after step `t`, the sum of
    `c 0 … c t`. -/
theorem acc_eq_sum {M : Type*} [AddCommMonoid M] (acc c : ℕ → M) (h0 : acc 0 = 0 + c 0)
    (hs : ∀ t, acc (t + 1) = acc t + c (t + 1)) (t : ℕ) :
    acc t = ∑ t' ∈ Finset.range (t + 1), c t' := by
  induction t with
  | zero => rw [h0, zero_add, Finset.sum_range_one]
  | succ t ih => rw [hs, ih, Finset.sum_range_succ (n := t + 1)]

/-- The sum of `c 0 … c 49` over the naturals below `50` is the sum over the `50` tiles. -/
theorem sum_range_50 {M : Type*} [AddCommMonoid M] (c : ℕ → M) :
    ∑ t' ∈ Finset.range (49 + 1), c t' = ∑ t : Fin 50, c t.val :=
  Finset.sum_range c

/-! ### The three together -/

/-- THE POOLED ENTRY. Accumulating over the `50` tiles the product sums of the tile's one-hot coefficients (column `j`)
    against the tile's rows gives the sum of all the rows whose id, read signed, is `j`. -/
theorem pooled_entry (gid : Fin 100000 → BitVec 32) (y : Fin 100000 → EReal) (j : ℕ) (hj : j < 2 ^ 31) :
    ∑ t : Fin 50, ∑ r : Fin 2000,
        (if gid ⟨2000 * t.val + r.val, tile_row_lt t r⟩ = BitVec.ofNat 32 j then (1 : EReal) else 0)
          * y ⟨2000 * t.val + r.val, tile_row_lt t r⟩
      = ∑ n, if (gid n).toInt = (j : ℤ) then y n else 0 := by
  rw [← onehot_mul_sum gid y j hj,
    sum_rows_eq_sum_tiles (fun n => (if gid n = BitVec.ofNat 32 j then (1 : EReal) else 0) * y n)]

end Cert.PoolMath
-- ==== Proof.KVal2.lean ====
/-
  The value of region 2 of the idealized kernel program at the exact float family: the array the region's output
  window ends holding is the reference's pooling of layer 3's rows.

  The region walks the 100000 node rows in 50 tiles of 2000. It keeps a 64 × 512 matrix of running sums: cleared at
  the first tile, and at every tile increased by `ohᵀ · (a · W_rel + h · W_root + b)` over the tile's rows — `a` the
  tile's aggregate rows, `h` its feature rows, `oh` its rows of the one-hot matrix of the graph ids. At the last tile
  the running sums are copied into the output block, which is the whole output array and is written back only then.

  With every float an extended real, every operation exact and a change of format the identity, the running sum at
  `(j, d)` after tile `t` is `∑ t' ≤ t, ∑ r, oh (2000 t' + r, j) * y (2000 t' + r, d)`, `y` being layer 3's value. The
  one-hot entry is `1` where the node's id is the word `j` and `0` elsewhere, so the final sum is the sum of `y (n, d)`
  over the nodes `n` whose id is `j` — the reference's accumulating scatter of the rows at their ids. The reference
  adds the bias before the second product where the kernel adds it after: `(p + b) + q = (p + q) + b`. Only
  commutativity and associativity of the extended reals' addition, `1 * y = y` and `0 * y = 0` are used; nothing is
  assumed finite.
-/
import proofs.«415884_j3539053052569_2_alg».proof.Proof.KernelIdeal.Fr2
import proofs.«415884_j3539053052569_2_alg».proof.Proof.KShape
import proofs.«415884_j3539053052569_2_alg».proof.Proof.KVal2Pay
import proofs.«415884_j3539053052569_2_alg».proof.Proof.KVal2Ref
import proofs.«415884_j3539053052569_2_alg».proof.Proof.PoolMath
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

namespace Cert.KernelIdeal.Hand.Val2

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open Cert.PoolMath (tile_row_lt)
open scoped BigOperators

theorem hz2 : (![0, 0] : Fin 2 → Nat) = fun _ => 0 := funext fun a => by fin_cases a <;> rfl

/-! ## What each case leaves in the running sums and in the output block -/

section Pieces

variable {F : FTy → Type} [FloatOps F]

/-- The first tile clears the running sums and then accumulates into them: the accumulating payload over the zero
    payload. -/
theorem sout2_A_eq (c : Dev nD) (i : grid2.Coords) (arg1 : Memref sig .tc .vmem S2000x256 .f32) (harg1 : arg1.IsWhole) (arg2 : Memref sig .tc .vmem S2000x256 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2000x64 .bf16) (harg6 : arg6.IsWhole) (arg7 : Memref sig .tc .vmem S64x512 .f32) (harg7 : arg7.IsWhole) (arg8 : Memref sig .tc .vmem S64x512 .f32) (harg8 : arg8.IsWhole) (hc0 : cond2_0 i) (hc1 : ¬cond2_1 i) (x0 : Vec F S2000x256 .f32) (x1 : Vec F S2000x256 .bf16) (x2 x3 : Vec F S256x512 .f32) (x4 : Vec F S1x512 .f32) (x5 : Vec F S2000x64 .bf16) :
    sout2_A_0 c i arg1 harg1 arg2 harg2 arg3 harg3 arg4 harg4 arg5 harg5 arg6 harg6 arg7 harg7 arg8 harg8 hc0 hc1 x0 x1 x2 x3 x4 x5 = k2_pay2 x0 x1 x2 x3 x4 x5 (k2_pay1 (F := F)) := by
  unfold sout2_A_0
  rw [View.read_writes_eq_canon _ _ _ (scover2_A_0 c i arg1 harg1 arg2 harg2 arg3 harg3 arg4 harg4 arg5 harg5 arg6 harg6 arg7 harg7 arg8 harg8 hc0 hc1 x0 x1 x2 x3 x4 x5)]
  unfold kernelRun2_A
  dsimp only
  try sl_unfold_words
  rw [View.canon_cons_unit_zero (S := S64x512) hz2]
  simp only [View.readAt_eq_ld, harg1.read_unread, harg2.read_unread, harg3.read_unread, harg4.read_unread, harg5.read_unread, harg6.read_unread, harg8.read_unread, View.ld_unit_zero (S := S2000x256) hz2, View.ld_unit_zero (S := S256x512) hz2, View.ld_unit_zero (S := S1x512) hz2, View.ld_unit_zero (S := S2000x64) hz2, View.ld_unit_zero (S := S64x512) hz2, View.readCov_unit_zero (S := S64x512) _ hz2]

/-- A middle tile accumulates into what the running sums held. -/
theorem sout2_B_eq (c : Dev nD) (i : grid2.Coords) (arg1 : Memref sig .tc .vmem S2000x256 .f32) (harg1 : arg1.IsWhole) (arg2 : Memref sig .tc .vmem S2000x256 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2000x64 .bf16) (harg6 : arg6.IsWhole) (arg7 : Memref sig .tc .vmem S64x512 .f32) (harg7 : arg7.IsWhole) (arg8 : Memref sig .tc .vmem S64x512 .f32) (harg8 : arg8.IsWhole) (hc0 : ¬cond2_0 i) (hc1 : ¬cond2_1 i) (x0 : Vec F S2000x256 .f32) (x1 : Vec F S2000x256 .bf16) (x2 x3 : Vec F S256x512 .f32) (x4 : Vec F S1x512 .f32) (x5 : Vec F S2000x64 .bf16) (xs0 : Vec F S64x512 .f32) :
    sout2_B_0 c i arg1 harg1 arg2 harg2 arg3 harg3 arg4 harg4 arg5 harg5 arg6 harg6 arg7 harg7 arg8 harg8 hc0 hc1 x0 x1 x2 x3 x4 x5 xs0 = k2_pay2 x0 x1 x2 x3 x4 x5 xs0 := by
  unfold sout2_B_0
  rw [View.read_writes_eq_canon _ _ _ (scover2_B_0 c i arg1 harg1 arg2 harg2 arg3 harg3 arg4 harg4 arg5 harg5 arg6 harg6 arg7 harg7 arg8 harg8 hc0 hc1 x0 x1 x2 x3 x4 x5 xs0)]
  unfold kernelRun2_B
  dsimp only
  try sl_unfold_words
  rw [View.canon_unit_zero (S := S64x512) hz2]
  simp only [View.readAt_eq_ld, harg1.read_unread, harg2.read_unread, harg3.read_unread, harg4.read_unread, harg5.read_unread, harg6.read_unread, harg8.read_unread, View.ld_unit_zero (S := S2000x256) hz2, View.ld_unit_zero (S := S256x512) hz2, View.ld_unit_zero (S := S1x512) hz2, View.ld_unit_zero (S := S2000x64) hz2, View.ld_unit_zero (S := S64x512) hz2, View.readCov_unit_zero (S := S64x512) _ hz2]

/-- The last tile accumulates likewise … -/
theorem sout2_C_eq (c : Dev nD) (i : grid2.Coords) (arg1 : Memref sig .tc .vmem S2000x256 .f32) (harg1 : arg1.IsWhole) (arg2 : Memref sig .tc .vmem S2000x256 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2000x64 .bf16) (harg6 : arg6.IsWhole) (arg7 : Memref sig .tc .vmem S64x512 .f32) (harg7 : arg7.IsWhole) (arg8 : Memref sig .tc .vmem S64x512 .f32) (harg8 : arg8.IsWhole) (hc0 : ¬cond2_0 i) (hc1 : cond2_1 i) (x0 : Vec F S2000x256 .f32) (x1 : Vec F S2000x256 .bf16) (x2 x3 : Vec F S256x512 .f32) (x4 : Vec F S1x512 .f32) (x5 : Vec F S2000x64 .bf16) (xs0 : Vec F S64x512 .f32) :
    sout2_C_0 c i arg1 harg1 arg2 harg2 arg3 harg3 arg4 harg4 arg5 harg5 arg6 harg6 arg7 harg7 arg8 harg8 hc0 hc1 x0 x1 x2 x3 x4 x5 xs0 = k2_pay2 x0 x1 x2 x3 x4 x5 xs0 := by
  unfold sout2_C_0
  rw [View.read_writes_eq_canon _ _ _ (scover2_C_0 c i arg1 harg1 arg2 harg2 arg3 harg3 arg4 harg4 arg5 harg5 arg6 harg6 arg7 harg7 arg8 harg8 hc0 hc1 x0 x1 x2 x3 x4 x5 xs0)]
  unfold kernelRun2_C
  dsimp only
  try sl_unfold_words
  rw [View.canon_unit_zero (S := S64x512) hz2]
  simp only [View.readAt_eq_ld, harg1.read_unread, harg2.read_unread, harg3.read_unread, harg4.read_unread, harg5.read_unread, harg6.read_unread, harg8.read_unread, View.ld_unit_zero (S := S2000x256) hz2, View.ld_unit_zero (S := S256x512) hz2, View.ld_unit_zero (S := S1x512) hz2, View.ld_unit_zero (S := S2000x64) hz2, View.ld_unit_zero (S := S64x512) hz2, View.readCov_unit_zero (S := S64x512) _ hz2]

/-- … and copies the running sums it has just stored into the output block. -/
theorem out2_C_eq (c : Dev nD) (i : grid2.Coords) (arg1 : Memref sig .tc .vmem S2000x256 .f32) (harg1 : arg1.IsWhole) (arg2 : Memref sig .tc .vmem S2000x256 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2000x64 .bf16) (harg6 : arg6.IsWhole) (arg7 : Memref sig .tc .vmem S64x512 .f32) (harg7 : arg7.IsWhole) (arg8 : Memref sig .tc .vmem S64x512 .f32) (harg8 : arg8.IsWhole) (hc0 : ¬cond2_0 i) (hc1 : cond2_1 i) (x0 : Vec F S2000x256 .f32) (x1 : Vec F S2000x256 .bf16) (x2 x3 : Vec F S256x512 .f32) (x4 : Vec F S1x512 .f32) (x5 : Vec F S2000x64 .bf16) (xs0 : Vec F S64x512 .f32) :
    out2_C_6 c i arg1 harg1 arg2 harg2 arg3 harg3 arg4 harg4 arg5 harg5 arg6 harg6 arg7 harg7 arg8 harg8 hc0 hc1 x0 x1 x2 x3 x4 x5 xs0 = k2_pay2 x0 x1 x2 x3 x4 x5 xs0 := by
  unfold out2_C_6
  rw [View.read_writes_eq_canon _ _ _ (cover2_C_6 c i arg1 harg1 arg2 harg2 arg3 harg3 arg4 harg4 arg5 harg5 arg6 harg6 arg7 harg7 arg8 harg8 hc0 hc1 x0 x1 x2 x3 x4 x5 xs0)]
  unfold kernelRun2_C
  dsimp only
  try sl_unfold_words
  rw [View.canon_unit_zero (S := S64x512) hz2]
  simp only [View.readAt_eq_ld, harg1.read_unread, harg2.read_unread, harg3.read_unread, harg4.read_unread, harg5.read_unread, harg6.read_unread, harg8.read_unread, View.ld_unit_zero (S := S2000x256) hz2, View.ld_unit_zero (S := S256x512) hz2, View.ld_unit_zero (S := S1x512) hz2, View.ld_unit_zero (S := S2000x64) hz2, View.ld_unit_zero (S := S64x512) hz2, View.readCov_unit_zero (S := S64x512) _ hz2]

end Pieces

/-! ## The specification: a tile's contribution, index by index -/

/-- Layer 3's value at node `n`, column `d`, the bias given as a row: the aggregate's row times `W_rel`'s column, plus
    the features' row times `W_root`'s column, plus the bias. -/
def rowVal (A H : S100000x256.Idx → EReal) (W9 W11 : S256x512.Idx → EReal) (B : S1x512.Idx → EReal)
    (n : Fin 100000) (d : Fin 512) : EReal :=
  (∑ k : Fin 256, A (ix2 n k) * W9 (ix2 k d) + ∑ k : Fin 256, H (ix2 n k) * W11 (ix2 k d)) + B (ix2 (0 : Fin 1) d)

/-- Tile `t`'s contribution to the running sum at `(j, d)`: its rows' values, each times the row's one-hot entry in
    column `j`. -/
def tileSum (A H : S100000x256.Idx → EReal) (W9 W11 : S256x512.Idx → EReal) (B : S1x512.Idx → EReal)
    (OH : S100000x64.Idx → EReal) (t : Fin 50) (j : Fin 64) (d : Fin 512) : EReal :=
  ∑ r : Fin 2000, OH (ix2 ⟨2000 * t.val + r.val, tile_row_lt t r⟩ j)
    * rowVal A H W9 W11 B ⟨2000 * t.val + r.val, tile_row_lt t r⟩ d

/-- The same with the tile a natural number (nothing from the fiftieth on). -/
def tileAt (A H : S100000x256.Idx → EReal) (W9 W11 : S256x512.Idx → EReal) (B : S1x512.Idx → EReal)
    (OH : S100000x64.Idx → EReal) (n : ℕ) (j : Fin 64) (d : Fin 512) : EReal :=
  if h : n < 50 then tileSum A H W9 W11 B OH ⟨n, h⟩ j d else 0

/-- The pooled matrix: all fifty tiles' contributions. -/
def pooled (A H : S100000x256.Idx → EReal) (W9 W11 : S256x512.Idx → EReal) (B : S1x512.Idx → EReal)
    (OH : S100000x64.Idx → EReal) : S64x512.Idx → EReal :=
  fun i => ∑ t' ∈ Finset.range (49 + 1), tileAt A H W9 W11 B OH t' (i 0) (i 1)

/-- The accumulating payload on blocks that hold tile `t`'s rows: the running sum plus the tile's contribution. -/
theorem tile_step (x0 : Vec Ideal S2000x256 .f32) (x1 : Vec Ideal S2000x256 .bf16) (x2 x3 : Vec Ideal S256x512 .f32)
    (x4 : Vec Ideal S1x512 .f32) (x5 : Vec Ideal S2000x64 .bf16) (acc : Vec Ideal S64x512 .f32)
    (A H : S100000x256.Idx → EReal) (OH : S100000x64.Idx → EReal) (t : Fin 50)
    (h0 : ∀ (r : Fin 2000) (k : Fin 256), x0 (ix2 r k) = A (ix2 ⟨2000 * t.val + r.val, tile_row_lt t r⟩ k))
    (h1 : ∀ (r : Fin 2000) (k : Fin 256), x1 (ix2 r k) = H (ix2 ⟨2000 * t.val + r.val, tile_row_lt t r⟩ k))
    (h5 : ∀ (r : Fin 2000) (j : Fin 64), x5 (ix2 r j) = OH (ix2 ⟨2000 * t.val + r.val, tile_row_lt t r⟩ j))
    (j : Fin 64) (d : Fin 512) :
    k2_pay2 (F := Ideal) x0 x1 x2 x3 x4 x5 acc (ix2 j d) = acc (ix2 j d) + tileSum A H x2 x3 x4 OH t j d := by
  rw [pool_acc_apply]
  unfold tileSum rowVal
  simp only [h0, h1, h5]

/-! ## The windows' blocks as rows of the entry arrays -/

section Blocks

variable (V : (c : Dev nD) → (b : Ref sig .tc) → Buf (Elt Ideal) ((c : Thread nD τ).loc b))

/-- The printed index maps, decided once over the grid: the aggregate's, the features' and the one-hot matrix's block at
    point `t` is block `(t, 0)`; the weights', the bias row's and the output's is block `(0, 0)`. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0 ∧ True :=
  (by decide +kernel : ∀ t : Fin grid2.N, _)

/-- The aggregate's block at point `t` is rows `2000 t … 2000 t + 1999` of the aggregate. -/
theorem iblk2_0_apply (c : Dev nD) (t : Fin cfg2.N) (y : S2000x256.Idx) (k : S100000x256.Idx)
    (hk0 : (k 0).val = t.val * 2000 + (y 0).val) (hk1 : (k 1).val = (y 1).val) :
    (iblk2 V c 0 t : Vec Ideal S2000x256 .f32) y = (V c main_v39 : S100000x256.Idx → EReal) k := by
  obtain ⟨e0, e1, -⟩ := idx_facts2 t
  unfold iblk2
  rw [View.read_apply]
  show V c main_v39 _ = V c main_v39 _
  congr 1
  funext a
  apply Fin.ext
  match a with
  | ⟨0, _⟩ => show win2_0.index t (0 : Fin 2) * 2000 + 1 * (y 0).val = (k 0).val; rw [e0, hk0]; omega
  | ⟨1, _⟩ => show win2_0.index t (1 : Fin 2) * 256 + 1 * (y 1).val = (k 1).val; rw [e1, hk1]; omega

/-- The features' block at point `t` is rows `2000 t … 2000 t + 1999` of the features. -/
theorem iblk2_1_apply (c : Dev nD) (t : Fin cfg2.N) (y : S2000x256.Idx) (k : S100000x256.Idx)
    (hk0 : (k 0).val = t.val * 2000 + (y 0).val) (hk1 : (k 1).val = (y 1).val) :
    (iblk2 V c 1 t : Vec Ideal S2000x256 .bf16) y = (V c main_v28 : S100000x256.Idx → EReal) k := by
  obtain ⟨-, -, e0, e1, -⟩ := idx_facts2 t
  unfold iblk2
  rw [View.read_apply]
  show V c main_v28 _ = V c main_v28 _
  congr 1
  funext a
  apply Fin.ext
  match a with
  | ⟨0, _⟩ => show win2_1.index t (0 : Fin 2) * 2000 + 1 * (y 0).val = (k 0).val; rw [e0, hk0]; omega
  | ⟨1, _⟩ => show win2_1.index t (1 : Fin 2) * 256 + 1 * (y 1).val = (k 1).val; rw [e1, hk1]; omega

/-- The one-hot matrix's block at point `t` is its rows `2000 t … 2000 t + 1999`. -/
theorem iblk2_5_apply (c : Dev nD) (t : Fin cfg2.N) (y : S2000x64.Idx) (k : S100000x64.Idx)
    (hk0 : (k 0).val = t.val * 2000 + (y 0).val) (hk1 : (k 1).val = (y 1).val) :
    (iblk2 V c 5 t : Vec Ideal S2000x64 .bf16) y = (V c main_v47 : S100000x64.Idx → EReal) k := by
  obtain ⟨-, -, -, -, -, -, -, -, -, -, e0, e1, -⟩ := idx_facts2 t
  unfold iblk2
  rw [View.read_apply]
  show V c main_v47 _ = V c main_v47 _
  congr 1
  funext a
  apply Fin.ext
  match a with
  | ⟨0, _⟩ => show win2_5.index t (0 : Fin 2) * 2000 + 1 * (y 0).val = (k 0).val; rw [e0, hk0]; omega
  | ⟨1, _⟩ => show win2_5.index t (1 : Fin 2) * 64 + 1 * (y 1).val = (k 1).val; rw [e1, hk1]; omega

/-- The two weight windows and the bias row's hold their whole arrays at every point. -/
theorem iblk2_2_eq (c : Dev nD) (t : Fin cfg2.N) :
    (iblk2 V c 2 t : Vec Ideal S256x512 .f32) = (V c main_arg9 : S256x512.Idx → EReal) := by
  obtain ⟨-, -, -, -, e0, e1, -⟩ := idx_facts2 t
  funext y
  unfold iblk2
  rw [View.read_apply]
  show V c main_arg9 _ = V c main_arg9 _
  congr 1
  funext a
  apply Fin.ext
  match a with
  | ⟨0, _⟩ => show win2_2.index t (0 : Fin 2) * 256 + 1 * (y 0).val = (y 0).val; rw [e0]; omega
  | ⟨1, _⟩ => show win2_2.index t (1 : Fin 2) * 512 + 1 * (y 1).val = (y 1).val; rw [e1]; omega

theorem iblk2_3_eq (c : Dev nD) (t : Fin cfg2.N) :
    (iblk2 V c 3 t : Vec Ideal S256x512 .f32) = (V c main_arg11 : S256x512.Idx → EReal) := by
  obtain ⟨-, -, -, -, -, -, e0, e1, -⟩ := idx_facts2 t
  funext y
  unfold iblk2
  rw [View.read_apply]
  show V c main_arg11 _ = V c main_arg11 _
  congr 1
  funext a
  apply Fin.ext
  match a with
  | ⟨0, _⟩ => show win2_3.index t (0 : Fin 2) * 256 + 1 * (y 0).val = (y 0).val; rw [e0]; omega
  | ⟨1, _⟩ => show win2_3.index t (1 : Fin 2) * 512 + 1 * (y 1).val = (y 1).val; rw [e1]; omega

theorem iblk2_4_eq (c : Dev nD) (t : Fin cfg2.N) :
    (iblk2 V c 4 t : Vec Ideal S1x512 .f32) = (V c main_v40 : S1x512.Idx → EReal) := by
  obtain ⟨-, -, -, -, -, -, -, -, e0, e1, -⟩ := idx_facts2 t
  funext y
  unfold iblk2
  rw [View.read_apply]
  show V c main_v40 _ = V c main_v40 _
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 512 + 1 * (y 1).val = (y 1).val; rw [e1]; omega

/-- The blocks and the entry arrays under names of their literal types. -/
abbrev aggBlk (c : Dev nD) (t : Fin cfg2.N) : Vec Ideal S2000x256 .f32 := iblk2 V c 0 t
abbrev featBlk (c : Dev nD) (t : Fin cfg2.N) : Vec Ideal S2000x256 .bf16 := iblk2 V c 1 t
abbrev wrelBlk (c : Dev nD) (t : Fin cfg2.N) : Vec Ideal S256x512 .f32 := iblk2 V c 2 t
abbrev wrootBlk (c : Dev nD) (t : Fin cfg2.N) : Vec Ideal S256x512 .f32 := iblk2 V c 3 t
abbrev biasBlk (c : Dev nD) (t : Fin cfg2.N) : Vec Ideal S1x512 .f32 := iblk2 V c 4 t
abbrev hotBlk (c : Dev nD) (t : Fin cfg2.N) : Vec Ideal S2000x64 .bf16 := iblk2 V c 5 t
abbrev aggArr (c : Dev nD) : S100000x256.Idx → EReal := V c main_v39
abbrev featArr (c : Dev nD) : S100000x256.Idx → EReal := V c main_v28
abbrev wrelArr (c : Dev nD) : S256x512.Idx → EReal := V c main_arg9
abbrev wrootArr (c : Dev nD) : S256x512.Idx → EReal := V c main_arg11
abbrev biasArr (c : Dev nD) : S1x512.Idx → EReal := V c main_v40
abbrev hotArr (c : Dev nD) : S100000x64.Idx → EReal := V c main_v47

/-- The grid has fifty points. -/
theorem lt50 (t : Fin cfg2.N) : t.val < 50 := lt_of_lt_of_eq t.isLt (show cfg2.N = 50 from N_2)

/-- THE BODY AT POINT `t`: on the point's blocks the accumulating payload adds tile `t`'s contribution, stated over the
    entry arrays. -/
theorem point_step (c : Dev nD) (t : Fin cfg2.N) (acc : Vec Ideal S64x512 .f32) (j : Fin 64) (d : Fin 512) :
    k2_pay2 (F := Ideal) (aggBlk V c t) (featBlk V c t) (wrelBlk V c t) (wrootBlk V c t) (biasBlk V c t) (hotBlk V c t) acc (ix2 j d)
      = acc (ix2 j d) + tileAt (aggArr V c) (featArr V c) (wrelArr V c) (wrootArr V c) (biasArr V c) (hotArr V c) t.val j d := by
  refine (tile_step (aggBlk V c t) (featBlk V c t) (wrelBlk V c t) (wrootBlk V c t) (biasBlk V c t) (hotBlk V c t) acc (aggArr V c) (featArr V c) (hotArr V c) ⟨t.val, lt50 t⟩
    (fun r k => iblk2_0_apply V c t (ix2 r k) (ix2 ⟨2000 * t.val + r.val, tile_row_lt ⟨t.val, lt50 t⟩ r⟩ k) (by show 2000 * t.val + r.val = t.val * 2000 + r.val; omega) rfl)
    (fun r k => iblk2_1_apply V c t (ix2 r k) (ix2 ⟨2000 * t.val + r.val, tile_row_lt ⟨t.val, lt50 t⟩ r⟩ k) (by show 2000 * t.val + r.val = t.val * 2000 + r.val; omega) rfl)
    (fun r j => iblk2_5_apply V c t (ix2 r j) (ix2 ⟨2000 * t.val + r.val, tile_row_lt ⟨t.val, lt50 t⟩ r⟩ j) (by show 2000 * t.val + r.val = t.val * 2000 + r.val; omega) rfl)
    j d).trans ?_
  rw [show wrelBlk V c t = wrelArr V c from iblk2_2_eq V c t, show wrootBlk V c t = wrootArr V c from iblk2_3_eq V c t,
    show biasBlk V c t = biasArr V c from iblk2_4_eq V c t]
  unfold tileAt
  rw [dif_pos (lt50 t)]

/-! ## The running sums after each point -/

/-- THE INVARIANT: after point `n` the running sum at `(j, d)` is the sum of the contributions of tiles `0 … n`. -/
theorem sums_after (c : Dev nD) (n : ℕ) (hn : n < cfg2.N) (j : Fin 64) (d : Fin 512) :
    (outsAt2 V c n hn).2 (ix2 j d) = ∑ t' ∈ Finset.range (n + 1), tileAt (aggArr V c) (featArr V c) (wrelArr V c) (wrootArr V c) (biasArr V c) (hotArr V c) t' j d := by
  induction n with
  | zero =>
    have h0 : (⟨0, hn⟩ : Fin cfg2.N).val % 50 = 0 := Nat.zero_mod _
    have h1 : ¬(⟨0, hn⟩ : Fin cfg2.N).val % 50 = 49 := by show ¬(0 % 50 = 49); decide
    rw [outsAt2_A V c ⟨0, hn⟩ h0 h1]
    dsimp only
    refine (congrFun (sout2_A_eq (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr h0) (fun h => h1 ((hcond2_1 ⟨0, hn⟩).mp h)) (aggBlk V c ⟨0, hn⟩) (featBlk V c ⟨0, hn⟩) (wrelBlk V c ⟨0, hn⟩) (wrootBlk V c ⟨0, hn⟩) (biasBlk V c ⟨0, hn⟩) (hotBlk V c ⟨0, hn⟩)) (ix2 j d)).trans ?_
    refine (point_step V c ⟨0, hn⟩ (k2_pay1 (F := Ideal)) j d).trans ?_
    rw [pool_clear_apply, zero_add, Finset.sum_range_one]
  | succ n ih =>
    have hN : n + 1 < 50 := lt_of_lt_of_eq hn (show cfg2.N = 50 from N_2)
    have h0 : ¬(⟨n + 1, hn⟩ : Fin cfg2.N).val % 50 = 0 := by show ¬((n + 1) % 50 = 0); omega
    have hprev := ih (Nat.lt_of_succ_lt hn)
    by_cases h1 : (⟨n + 1, hn⟩ : Fin cfg2.N).val % 50 = 49
    · rw [outsAt2_C V c ⟨n + 1, hn⟩ h0 h1]
      dsimp only
      refine (congrFun (sout2_C_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (aggBlk V c ⟨n + 1, hn⟩) (featBlk V c ⟨n + 1, hn⟩) (wrelBlk V c ⟨n + 1, hn⟩) (wrootBlk V c ⟨n + 1, hn⟩) (biasBlk V c ⟨n + 1, hn⟩) (hotBlk V c ⟨n + 1, hn⟩) (outsAt2 V c n (Nat.lt_of_succ_lt hn)).2) (ix2 j d)).trans ?_
      refine (point_step V c ⟨n + 1, hn⟩ (outsAt2 V c n (Nat.lt_of_succ_lt hn)).2 j d).trans ?_
      rw [hprev, Finset.sum_range_succ (n := n + 1)]
    · rw [outsAt2_B V c ⟨n + 1, hn⟩ h0 h1]
      dsimp only
      refine (congrFun (sout2_B_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (aggBlk V c ⟨n + 1, hn⟩) (featBlk V c ⟨n + 1, hn⟩) (wrelBlk V c ⟨n + 1, hn⟩) (wrootBlk V c ⟨n + 1, hn⟩) (biasBlk V c ⟨n + 1, hn⟩) (hotBlk V c ⟨n + 1, hn⟩) (outsAt2 V c n (Nat.lt_of_succ_lt hn)).2) (ix2 j d)).trans ?_
      refine (point_step V c ⟨n + 1, hn⟩ (outsAt2 V c n (Nat.lt_of_succ_lt hn)).2 j d).trans ?_
      rw [hprev, Finset.sum_range_succ (n := n + 1)]

end Blocks

/-! ## The output array -/

section Final

variable (V : (c : Dev nD) → (b : Ref sig .tc) → Buf (Elt Ideal) ((c : Thread nD τ).loc b))

/-- The last point. -/
abbrev t49 : Fin cfg2.N := ⟨49, by rw [show cfg2.N = 50 from N_2]; decide⟩

/-- What the output block holds after the last point: the running sums with the last tile added, all fifty
    contributions. -/
theorem out_last (c : Dev nD) : (outsAt2 V c t49.val t49.isLt).1 = pooled (aggArr V c) (featArr V c) (wrelArr V c) (wrootArr V c) (biasArr V c) (hotArr V c) := by
  have h0 : ¬t49.val % 50 = 0 := by decide
  have h1 : t49.val % 50 = 49 := by decide
  rw [outsAt2_C V c t49 h0 h1]
  dsimp only
  funext i
  obtain ⟨j, d, rfl⟩ : ∃ (j : Fin 64) (d : Fin 512), i = ix2 j d := ⟨i 0, i 1, eq_ix2 i⟩
  refine (congrFun (out2_C_eq (F := Ideal) c (grid2.coords t49) (ms2_0 t49) (hs2_0 t49) (ms2_1 t49) (hs2_1 t49) (ms2_2 t49) (hs2_2 t49) (ms2_3 t49) (hs2_3 t49) (ms2_4 t49) (hs2_4 t49) (ms2_5 t49) (hs2_5 t49) (ms2_6 t49) (hs2_6 t49) scM2_0 (Memref.isWhole_whole _) (fun h => h0 ((hcond2_0 t49).mp h)) ((hcond2_1 t49).mpr h1) (aggBlk V c t49) (featBlk V c t49) (wrelBlk V c t49) (wrootBlk V c t49) (biasBlk V c t49) (hotBlk V c t49) (outsAt2 V c (t49.val - 1) (Nat.lt_of_le_of_lt (Nat.sub_le _ _) t49.isLt)).2) (ix2 j d)).trans ?_
  refine (point_step V c t49 (outsAt2 V c (t49.val - 1) (Nat.lt_of_le_of_lt (Nat.sub_le _ _) t49.isLt)).2 j d).trans ?_
  rw [sums_after V c (t49.val - 1) (Nat.lt_of_le_of_lt (Nat.sub_le _ _) t49.isLt) j d]
  exact (Finset.sum_range_succ (fun t' => tileAt (aggArr V c) (featArr V c) (wrelArr V c) (wrootArr V c) (biasArr V c) (hotArr V c) t' j d) 49).symm

/-- The one write-back, at the last point, writes `pooled`: block (0, 0) of the [64, 512] array read through zero offsets
    is the array. -/
theorem flushed2_eq (c : Dev nD) (t : Fin cfg2.N) (hf : (cfg2.win 6).flush t = true) :
    (dat2 V c).flushed 6 t = ((cfg2.win 6).blk t).view.read (Elt Ideal) (pooled (aggArr V c) (featArr V c) (wrelArr V c) (wrootArr V c) (biasArr V c) (hotArr V c)) := by
  have h1 : t.val = 49 := by have := (flush2_6 t).mp hf; have := lt50 t; omega
  obtain rfl : t = t49 := Fin.ext h1
  show (cfg2.win 6).cut (grid2.coords t49) ((dat2 V c).after 6 t49) = _
  rw [after2_6, out_last]
  obtain ⟨-, -, -, -, -, -, -, -, -, -, -, -, e0, e1, -⟩ := idx_facts2 t49
  have hz' : (fun a => win2_6.index t49 a * main_v48.ty.shape.size a) = fun _ => 0 := funext fun a => by
    match a with
    | ⟨0, _⟩ => show win2_6.index t49 (0 : Fin 2) * 64 = 0; rw [e0]
    | ⟨1, _⟩ => show win2_6.index t49 (1 : Fin 2) * 512 = 0; rw [e1]
  exact (Memref.read_access_unit_zero (Elt Ideal) main_v48 hz' (fun a => by rw [congrFun hz' a]; simp) (pooled (aggArr V c) (featArr V c) (wrelArr V c) (wrootArr V c) (biasArr V c) (hotArr V c))).symm

/-- So the output array ends holding `pooled`: the last point's block covers it. -/
theorem arr2_out (c : Dev nD) : (dat2 V c).arrAt 6 cfg2.N = pooled (aggArr V c) (featArr V c) (wrelArr V c) (wrootArr V c) (biasArr V c) (hotArr V c) :=
  (dat2 V c).arrAt_eq_of_cover 6 (pooled (aggArr V c) (featArr V c) (wrelArr V c) (wrootArr V c) (biasArr V c) (hotArr V c)) (flushed2_eq V c) fun i =>
    ⟨t49, (flush2_6 t49).mpr (by decide), by
      obtain ⟨-, -, -, -, -, -, -, -, -, -, -, -, e0, e1, -⟩ := idx_facts2 t49
      show i ∈ ((View.whole main_v48).slice (win2_6.rect t49)).set
      rw [View.set_slice_whole, Rect.mem_set_unit]
      intro a
      have h0 : (i 0 : Nat) < 64 := (i 0).isLt
      have h1 : (i 1 : Nat) < 512 := (i 1).isLt
      match a with
      | ⟨0, _⟩ => show win2_6.index t49 (0 : Fin 2) * 64 ≤ (i 0 : Nat) ∧ (i 0 : Nat) < win2_6.index t49 (0 : Fin 2) * 64 + win2_6.xsize (grid2.coords t49) 0
                  rw [e0, show win2_6.xsize (grid2.coords t49) 0 = 64 from by decide +kernel]; omega
      | ⟨1, _⟩ => show win2_6.index t49 (1 : Fin 2) * 512 ≤ (i 1 : Nat) ∧ (i 1 : Nat) < win2_6.index t49 (1 : Fin 2) * 512 + win2_6.xsize (grid2.coords t49) 1
                  rw [e1, show win2_6.xsize (grid2.coords t49) 1 = 512 from by decide +kernel]; omega⟩

end Final

/-! ## The pooled matrix is the reference's pooling of layer 3 -/

/-- The one-hot matrix at `(n, j)`: one where node `n`'s id is the word `j`, zero elsewhere. -/
theorem onehot_apply (g : Arr Ideal S100000 .i32) (n : Fin 100000) (j : Fin 64) :
    onehot (F := Ideal) g (ix2 n j) = if g (ix1 n) = BitVec.ofNat 32 j.val then 1 else 0 := by
  have hA : broadcastInDim S100000x64 ![0, 1] bcast_S100000x1_S100000x64_0_1 (broadcastInDim S100000x1 ![0] bcast_S100000_S100000x1_0 g) (ix2 n j) = g (ix1 n) := by
    refine (broadcastInDim_apply _ bcast_S100000x1_S100000x64_0_1 _ (ix2 n j) (ix2 n (0 : Fin 1)) (fun a => match a with
      | ⟨0, _⟩ => by show n.val = if (100000 : Nat) = 1 then 0 else n.val; rw [if_neg (by decide)]
      | ⟨1, _⟩ => by show (0 : Nat) = if (1 : Nat) = 1 then 0 else j.val; rw [if_pos rfl])).trans ?_
    exact broadcastInDim_apply _ bcast_S100000_S100000x1_0 g (ix2 n (0 : Fin 1)) (ix1 n) (fun a => match a with
      | ⟨0, _⟩ => by show n.val = if (100000 : Nat) = 1 then 0 else n.val; rw [if_neg (by decide)])
  have hB : broadcastInDim S100000x64 ![0, 1] bcast_S1x64_S100000x64_0_1 (broadcastInDim S1x64 ![1] bcast_S64_S1x64_1 (iotaInDim S64 32 0)) (ix2 n j) = BitVec.ofNat 32 j.val := by
    refine (broadcastInDim_apply _ bcast_S1x64_S100000x64_0_1 _ (ix2 n j) (ix2 (0 : Fin 1) j) (fun a => match a with
      | ⟨0, _⟩ => by show (0 : Nat) = if (1 : Nat) = 1 then 0 else n.val; rw [if_pos rfl]
      | ⟨1, _⟩ => by show j.val = if (64 : Nat) = 1 then 0 else j.val; rw [if_neg (by decide)])).trans ?_
    refine (broadcastInDim_apply _ bcast_S64_S1x64_1 (iotaInDim S64 32 0) (ix2 (0 : Fin 1) j) (ix1 j) (fun a => match a with
      | ⟨0, _⟩ => by show j.val = if (64 : Nat) = 1 then 0 else j.val; rw [if_neg (by decide)])).trans ?_
    rfl
  unfold onehot
  show (((BitVec.ofBool
      (broadcastInDim S100000x64 ![0, 1] bcast_S100000x1_S100000x64_0_1 (broadcastInDim S100000x1 ![0] bcast_S100000_S100000x1_0 g) (ix2 n j)
        == broadcastInDim S100000x64 ![0, 1] bcast_S1x64_S100000x64_0_1 (broadcastInDim S1x64 ![1] bcast_S64_S1x64_1 (iotaInDim S64 32 0)) (ix2 n j))).toNat : ℝ) : EReal) = _
  rw [hA, hB, Cert.PoolMath.indicator_cast]

/-- THE JOIN: over the aggregate, the features, the weights, the bias reshaped to a row and the one-hot matrix of the
    ids, the fifty tiles' contributions add up to the reference's pooling of layer 3's rows. -/
theorem pooled_eq_pool (a h : Arr Ideal S100000x256 .f32) (w9 w11 : Arr Ideal S256x512 .f32) (b10 : Arr Ideal S512 .f32)
    (g : Arr Ideal S100000 .i32) :
    pooled a h w9 w11 (shapeCast S1x512 b10 shapeCasts_S512_S1x512) (onehot (F := Ideal) g)
      = Cert.ReferenceIdeal.Shape.pool (Cert.ReferenceIdeal.Shape.lay3 a h w9 b10 w11) g := by
  funext i
  obtain ⟨j, d, rfl⟩ : ∃ (j : Fin 64) (d : Fin 512), i = ix2 j d := ⟨i 0, i 1, eq_ix2 i⟩
  rw [Cert.ReferenceIdeal.PoolRead.pool_apply]
  show ∑ t' ∈ Finset.range (49 + 1), tileAt a h w9 w11 (shapeCast S1x512 b10 shapeCasts_S512_S1x512) (onehot (F := Ideal) g) t' j d = _
  rw [Cert.PoolMath.sum_range_50]
  have e : ∀ t : Fin 50, tileAt a h w9 w11 (shapeCast S1x512 b10 shapeCasts_S512_S1x512) (onehot (F := Ideal) g) t.val j d
      = ∑ r : Fin 2000, (if (fun n : Fin 100000 => g (ix1 n)) ⟨2000 * t.val + r.val, tile_row_lt t r⟩ = BitVec.ofNat 32 j.val then (1 : EReal) else 0)
          * (fun n : Fin 100000 => rowVal a h w9 w11 (shapeCast S1x512 b10 shapeCasts_S512_S1x512) n d) ⟨2000 * t.val + r.val, tile_row_lt t r⟩ := by
    intro t
    unfold tileAt
    rw [dif_pos t.isLt]
    unfold tileSum
    refine Finset.sum_congr rfl fun r _ => ?_
    rw [onehot_apply]
  rw [Finset.sum_congr rfl (fun t _ => e t),
    Cert.PoolMath.pooled_entry (fun n : Fin 100000 => g (ix1 n)) (fun n : Fin 100000 => rowVal a h w9 w11 (shapeCast S1x512 b10 shapeCasts_S512_S1x512) n d) j.val (by have := j.isLt; omega)]
  refine Finset.sum_congr rfl fun n _ => ?_
  dsimp only
  rw [Cert.ReferenceIdeal.PoolRead.lay3_apply]
  unfold rowVal
  rw [shapeCast_a_1a_apply, add_right_comm]

end Cert.KernelIdeal.Hand.Val2

namespace Cert.KernelIdeal.Hand

open Cert.KernelIdeal Cert.KernelIdeal.Gen
open Idealize.ShloMosaic Idealize.ShloMosaic.TcCoe Idealize.SL.Sem

/-- REGION 2'S VALUE. Over entry arrays that hold the aggregate `a`, the features `h`, the two weight matrices, the bias
    reshaped to a row and the one-hot matrix of the graph ids `g`, the region's output array ends holding the
    reference's pooling of layer 3's rows. -/
theorem arr2_eq (V : (c : Dev nD) → (b : Ref sig .tc) → Buf (Elt Ideal) ((c : Thread nD τ).loc b)) (c : Dev nD)
    (a h : Arr Ideal S100000x256 .f32) (w9 w11 : Arr Ideal S256x512 .f32) (b10 : Arr Ideal S512 .f32) (g : Arr Ideal S100000 .i32)
    (ha : V c main_v39 = a) (hh : V c main_v28 = h) (h9 : V c main_arg9 = w9) (h11 : V c main_arg11 = w11)
    (hb : V c main_v40 = shapeCast S1x512 b10 shapeCasts_S512_S1x512) (ho : V c main_v47 = onehot g) :
    (dat2 (F := Ideal) V c).arrAt 6 cfg2.N = Cert.ReferenceIdeal.Shape.pool (Cert.ReferenceIdeal.Shape.lay3 a h w9 b10 w11) g := by
  rw [Val2.arr2_out V c]
  show Val2.pooled (V c main_v39) (V c main_v28) (V c main_arg9) (V c main_arg11) (V c main_v40) (V c main_v47) = _
  rw [ha, hh, h9, h11, hb, ho]
  exact Val2.pooled_eq_pool a h w9 w11 b10 g

end Cert.KernelIdeal.Hand

end
-- ==== Proof.KRun.lean ====
/-
  The kernel program's result, read back through the fold of buffer contents.

  Each stretch of host operations is read off the contents it starts from: the first leaves the edges' source and
  destination rows, layer 1's aggregate of the node features and the reshaped bias; the second, layer 2's aggregate of
  what region 0 left; the third, layer 3's aggregate of what region 1 left, the reshaped bias and the one-hot matrix of
  the graph ids; the closing three, the read-out of what region 2 left. A region changes only its output array, so
  values computed early (the edge rows, an earlier layer's features, the arguments) are still there later.

  At the exact instance each region's output array is the reference's layer of the region's inputs (the three value
  modules), the aggregates and the read-out are the reference's, and so the result buffer ends at the reference's
  function `resultOf` of the twelve argument arrays.
-/
import proofs.«415884_j3539053052569_2_alg».proof.Proof.KernelIdeal.FrFrame
import proofs.«415884_j3539053052569_2_alg».proof.Proof.KShape
import proofs.«415884_j3539053052569_2_alg».proof.Proof.RefResult
import proofs.«415884_j3539053052569_2_alg».proof.Proof.KVal0
import proofs.«415884_j3539053052569_2_alg».proof.Proof.KVal1
import proofs.«415884_j3539053052569_2_alg».proof.Proof.KVal2
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

section AnyFloat

variable {F : FTy → Type} [FloatOps F]
variable (m : (ℓ : Loc nD τ sig) → Buf (Elt F) ℓ) (ρ : Dev nD → PrngReg)

/-- The launch contents of a buffer. -/
abbrev L0 (c : Dev nD) (b : Ref sig .tc) : Buf (Elt F) ((c : Thread nD τ).loc b) := m ((c : Thread nD τ).loc b)

/-! ## Each stretch of host operations, read off any contents `B` it starts from -/

theorem after0_src (B : Valuation τ sig (Elt F)) : StableHlo.after hostOps0 B (Proc.devRef .tc main_v1) = srcRow (B (Proc.devRef .tc main_arg1)) := by
  after_results <;> rfl
theorem after0_dst (B : Valuation τ sig (Elt F)) : StableHlo.after hostOps0 B (Proc.devRef .tc main_v3) = dstRow (B (Proc.devRef .tc main_arg1)) := by
  after_results <;> rfl
set_option maxHeartbeats 4000000 in
theorem after0_agg (B : Valuation τ sig (Elt F)) :
    StableHlo.after hostOps0 B (Proc.devRef .tc main_v13)
      = kagg1 (B (Proc.devRef .tc main_arg0)) (srcRow (B (Proc.devRef .tc main_arg1))) (dstRow (B (Proc.devRef .tc main_arg1))) := by
  after_results <;> rfl
theorem after0_bias (B : Valuation τ sig (Elt F)) :
    StableHlo.after hostOps0 B (Proc.devRef .tc main_v14) = shapeCast S1x128 (B (Proc.devRef .tc main_arg4)) shapeCasts_S128_S1x128 := by
  after_results <;> rfl
set_option maxHeartbeats 4000000 in
theorem after1_agg (B : Valuation τ sig (Elt F)) :
    StableHlo.after hostOps1 B (Proc.devRef .tc main_v26) = kagg2 (B (Proc.devRef .tc main_v15)) (B (Proc.devRef .tc main_v1)) (B (Proc.devRef .tc main_v3)) := by
  after_results <;> rfl
theorem after1_bias (B : Valuation τ sig (Elt F)) :
    StableHlo.after hostOps1 B (Proc.devRef .tc main_v27) = shapeCast S1x256 (B (Proc.devRef .tc main_arg7)) shapeCasts_S256_S1x256 := by
  after_results <;> rfl
set_option maxHeartbeats 4000000 in
theorem after2_agg (B : Valuation τ sig (Elt F)) :
    StableHlo.after hostOps2 B (Proc.devRef .tc main_v39) = kagg3 (B (Proc.devRef .tc main_v28)) (B (Proc.devRef .tc main_v1)) (B (Proc.devRef .tc main_v3)) := by
  after_results <;> rfl
set_option maxHeartbeats 4000000 in
theorem after2_bias (B : Valuation τ sig (Elt F)) :
    StableHlo.after hostOps2 B (Proc.devRef .tc main_v40) = shapeCast S1x512 (B (Proc.devRef .tc main_arg10)) shapeCasts_S512_S1x512 := by
  after_results <;> rfl
set_option maxHeartbeats 4000000 in
theorem after2_onehot (B : Valuation τ sig (Elt F)) :
    StableHlo.after hostOps2 B (Proc.devRef .tc main_v47) = onehot (B (Proc.devRef .tc main_arg2)) := by
  after_results <;> rfl
theorem after3_mean (B : Valuation τ sig (Elt F)) :
    StableHlo.after hostOps3 B (Proc.devRef .tc main_v57) = kmean (B (Proc.devRef .tc main_v48)) (B (Proc.devRef .tc main_arg2)) := by
  after_results <;> rfl
set_option maxHeartbeats 2000000 in
theorem after3_norm (B : Valuation τ sig (Elt F)) :
    StableHlo.after hostOps3_1 B (Proc.devRef .tc main_v58) = knorm (B (Proc.devRef .tc main_v57)) := by
  after_results <;> rfl
theorem after3_unit (B : Valuation τ sig (Elt F)) :
    StableHlo.after hostOps3_2 B (Proc.devRef .tc main_v62)
      = Host.divf (B (Proc.devRef .tc main_v57))
          (broadcastInDim S64x512 ![0, 1] bcast_S64x1_S64x512_0_1
            (maximumf (B (Proc.devRef .tc main_v58)) (broadcastInDim S64x1 ![] bcast_S_S64x1 (constant S_ .f32 0x2B8CBCCC#32)))) := by
  after_results <;> rfl

/-! ## The first stretch, from the launch memory -/

theorem W1_src (c : Dev nD) : W1 m ρ c (Proc.devRef .tc main_v1) = srcRow (L0 m c main_arg1) :=
  after0_src (W0 m ρ c)
theorem W1_dst (c : Dev nD) : W1 m ρ c (Proc.devRef .tc main_v3) = dstRow (L0 m c main_arg1) :=
  after0_dst (W0 m ρ c)
theorem W1_agg (c : Dev nD) :
    W1 m ρ c (Proc.devRef .tc main_v13) = kagg1 (L0 m c main_arg0) (srcRow (L0 m c main_arg1)) (dstRow (L0 m c main_arg1)) :=
  after0_agg (W0 m ρ c)
theorem W1_bias (c : Dev nD) :
    W1 m ρ c (Proc.devRef .tc main_v14) = shapeCast S1x128 (L0 m c main_arg4) shapeCasts_S128_S1x128 :=
  after0_bias (W0 m ρ c)
/-- A buffer the first stretch does not write is as launched. -/
theorem W1_launch (c : Dev nD) (b : Ref sig .tc) (h : b ∉ hostOps0_W) : W1 m ρ c (Proc.devRef .tc b) = L0 m c b :=
  (W1_keep m ρ c b h).trans rfl

/-! ## Region 0, the second stretch -/

theorem W2_out (c : Dev nD) : W2 m ρ c (Proc.devRef .tc main_v15) = (dat0 (V1 m ρ) c).arrAt 5 cfg0.N := W2_arr m ρ c 5
theorem W3_agg (c : Dev nD) :
    W3 m ρ c (Proc.devRef .tc main_v26)
      = kagg2 (W2 m ρ c (Proc.devRef .tc main_v15)) (W2 m ρ c (Proc.devRef .tc main_v1)) (W2 m ρ c (Proc.devRef .tc main_v3)) :=
  after1_agg (W2 m ρ c)
theorem W3_bias (c : Dev nD) :
    W3 m ρ c (Proc.devRef .tc main_v27) = shapeCast S1x256 (W2 m ρ c (Proc.devRef .tc main_arg7)) shapeCasts_S256_S1x256 :=
  after1_bias (W2 m ρ c)
/-- A buffer written by neither of the first two stretches nor by region 0 is as launched before region 1. -/
theorem W3_launch (c : Dev nD) (b : Ref sig .tc) (h0 : b ∉ hostOps0_W) (h1 : b ∉ hostOps1_W) (hb0 : b ≠ main_v15) :
    W3 m ρ c (Proc.devRef .tc b) = L0 m c b :=
  (W3_keep m ρ c b h1).trans <| (W2_keep m ρ c b hb0).trans (W1_launch m ρ c b h0)

/-! ## Region 1, the third stretch -/

theorem W4_out (c : Dev nD) : W4 m ρ c (Proc.devRef .tc main_v28) = (dat1 (V3 m ρ) c).arrAt 5 cfg1.N := W4_arr m ρ c 5
theorem W5_agg (c : Dev nD) :
    W5 m ρ c (Proc.devRef .tc main_v39)
      = kagg3 (W4 m ρ c (Proc.devRef .tc main_v28)) (W4 m ρ c (Proc.devRef .tc main_v1)) (W4 m ρ c (Proc.devRef .tc main_v3)) :=
  after2_agg (W4 m ρ c)
theorem W5_bias (c : Dev nD) :
    W5 m ρ c (Proc.devRef .tc main_v40) = shapeCast S1x512 (W4 m ρ c (Proc.devRef .tc main_arg10)) shapeCasts_S512_S1x512 :=
  after2_bias (W4 m ρ c)
theorem W5_onehot (c : Dev nD) :
    W5 m ρ c (Proc.devRef .tc main_v47) = onehot (W4 m ρ c (Proc.devRef .tc main_arg2)) :=
  after2_onehot (W4 m ρ c)
/-- The edge rows computed by the first stretch are still there before regions 1 and 2. -/
theorem W2_src (c : Dev nD) : W2 m ρ c (Proc.devRef .tc main_v1) = srcRow (L0 m c main_arg1) :=
  (W2_keep m ρ c main_v1 (by decide)).trans (W1_src m ρ c)
theorem W2_dst (c : Dev nD) : W2 m ρ c (Proc.devRef .tc main_v3) = dstRow (L0 m c main_arg1) :=
  (W2_keep m ρ c main_v3 (by decide)).trans (W1_dst m ρ c)
theorem W4_src (c : Dev nD) : W4 m ρ c (Proc.devRef .tc main_v1) = srcRow (L0 m c main_arg1) :=
  (W4_keep m ρ c main_v1 (by decide)).trans <| (W3_keep m ρ c main_v1 (by decide)).trans (W2_src m ρ c)
theorem W4_dst (c : Dev nD) : W4 m ρ c (Proc.devRef .tc main_v3) = dstRow (L0 m c main_arg1) :=
  (W4_keep m ρ c main_v3 (by decide)).trans <| (W3_keep m ρ c main_v3 (by decide)).trans (W2_dst m ρ c)
/-- A buffer written by none of the first three stretches nor by regions 0 and 1 is as launched before region 2. -/
theorem W5_launch (c : Dev nD) (b : Ref sig .tc) (h0 : b ∉ hostOps0_W) (h1 : b ∉ hostOps1_W) (h2 : b ∉ hostOps2_W)
    (hb0 : b ≠ main_v15) (hb1 : b ≠ main_v28) : W5 m ρ c (Proc.devRef .tc b) = L0 m c b :=
  (W5_keep m ρ c b h2).trans <| (W4_keep m ρ c b hb1).trans (W3_launch m ρ c b h0 h1 hb0)
theorem W4_launch (c : Dev nD) (b : Ref sig .tc) (h0 : b ∉ hostOps0_W) (h1 : b ∉ hostOps1_W)
    (hb0 : b ≠ main_v15) (hb1 : b ≠ main_v28) : W4 m ρ c (Proc.devRef .tc b) = L0 m c b :=
  (W4_keep m ρ c b hb1).trans (W3_launch m ρ c b h0 h1 hb0)

/-! ## Region 2, the closing stretches -/

theorem W6_out (c : Dev nD) : W6 m ρ c (Proc.devRef .tc main_v48) = (dat2 (V5 m ρ) c).arrAt 6 cfg2.N := W6_arr m ρ c 6
theorem W6_launch (c : Dev nD) (b : Ref sig .tc) (h0 : b ∉ hostOps0_W) (h1 : b ∉ hostOps1_W) (h2 : b ∉ hostOps2_W)
    (hb0 : b ≠ main_v15) (hb1 : b ≠ main_v28) (hb2 : b ≠ main_v48) : W6 m ρ c (Proc.devRef .tc b) = L0 m c b :=
  (W6_keep m ρ c b hb2).trans (W5_launch m ρ c b h0 h1 h2 hb0 hb1)
theorem W7_mean (c : Dev nD) :
    W7 m ρ c (Proc.devRef .tc main_v57) = kmean (W6 m ρ c (Proc.devRef .tc main_v48)) (W6 m ρ c (Proc.devRef .tc main_arg2)) :=
  after3_mean (W6 m ρ c)
theorem W8_norm (c : Dev nD) : W8 m ρ c (Proc.devRef .tc main_v58) = knorm (W7 m ρ c (Proc.devRef .tc main_v57)) :=
  after3_norm (W7 m ρ c)
theorem W8_mean (c : Dev nD) : W8 m ρ c (Proc.devRef .tc main_v57) = W7 m ρ c (Proc.devRef .tc main_v57) :=
  W8_keep m ρ c main_v57 (by decide)
theorem W9_unit (c : Dev nD) :
    W9 m ρ c (Proc.devRef .tc main_v62)
      = Host.divf (W8 m ρ c (Proc.devRef .tc main_v57))
          (broadcastInDim S64x512 ![0, 1] bcast_S64x1_S64x512_0_1
            (maximumf (W8 m ρ c (Proc.devRef .tc main_v58)) (broadcastInDim S64x1 ![] bcast_S_S64x1 (constant S_ .f32 0x2B8CBCCC#32)))) :=
  after3_unit (W8 m ρ c)
/-- The result buffer ends at the read-out of what region 2 left, under the launched graph ids. -/
theorem W9_readout (c : Dev nD) :
    W9 m ρ c (Proc.devRef .tc main_v62) = kreadout ((dat2 (V5 m ρ) c).arrAt 6 cfg2.N) (L0 m c main_arg2) := by
  rw [W9_unit, W8_norm, W8_mean, W7_mean, W6_out, W6_launch m ρ c main_arg2 (by decide) (by decide) (by decide) (by decide) (by decide) (by decide)]
  rfl

end AnyFloat

/-! ## At the exact instance -/

section Exact

open Cert.ReferenceIdeal.Shape (feat1 feat2 rows3 resultOf)

variable (m : (ℓ : Loc nD τ sig) → Buf (Elt Ideal) ℓ) (ρ : Dev nD → PrngReg)

theorem kagg2_eq (h : Arr Ideal S100000x128 .f32) (e : Arr Ideal S2x800000 .i32) :
    kagg2 (F := Ideal) h (srcRow e) (dstRow e) = Cert.ReferenceIdeal.Shape.agg2 h e := rfl
theorem kagg3_eq (h : Arr Ideal S100000x256 .f32) (e : Arr Ideal S2x800000 .i32) :
    kagg3 (F := Ideal) h (srcRow e) (dstRow e) = Cert.ReferenceIdeal.Shape.agg3 h e := rfl

/-- Region 0 leaves layer 1's features of the launched arguments. -/
theorem feat1_K (c : Dev nD) :
    W2 m ρ c (Proc.devRef .tc main_v15)
      = feat1 (L0 m c main_arg0) (L0 m c main_arg1) (L0 m c main_arg3) (L0 m c main_arg4) (L0 m c main_arg5) := by
  rw [W2_out]
  exact arr0_eq (V1 m ρ) c _ _ _ _ _ ((W1_agg m ρ c).trans (kagg1_eq _ _))
    (W1_launch m ρ c main_arg0 (by decide)) (W1_launch m ρ c main_arg3 (by decide)) (W1_launch m ρ c main_arg5 (by decide))
    (W1_bias m ρ c)

/-- Region 1 leaves layer 2's features. -/
theorem feat2_K (c : Dev nD) :
    W4 m ρ c (Proc.devRef .tc main_v28)
      = feat2 (feat1 (L0 m c main_arg0) (L0 m c main_arg1) (L0 m c main_arg3) (L0 m c main_arg4) (L0 m c main_arg5))
          (L0 m c main_arg1) (L0 m c main_arg6) (L0 m c main_arg7) (L0 m c main_arg8) := by
  rw [W4_out]
  refine arr1_eq (V3 m ρ) c _ _ _ _ _ ?_ ((W3_keep m ρ c main_v15 (by decide)).trans (feat1_K m ρ c))
    (W3_launch m ρ c main_arg6 (by decide) (by decide) (by decide)) (W3_launch m ρ c main_arg8 (by decide) (by decide) (by decide)) ?_
  · rw [show V3 m ρ c main_v26 = W3 m ρ c (Proc.devRef .tc main_v26) from rfl, W3_agg, feat1_K, W2_src, W2_dst]
    exact kagg2_eq _ _
  · rw [show V3 m ρ c main_v27 = W3 m ρ c (Proc.devRef .tc main_v27) from rfl, W3_bias,
      (W2_keep m ρ c main_arg7 (by decide)).trans (W1_launch m ρ c main_arg7 (by decide))]

/-- Region 2 leaves the pooled sums of layer 3's rows. -/
theorem pool_K (c : Dev nD) :
    (dat2 (V5 m ρ) c).arrAt 6 cfg2.N
      = Cert.ReferenceIdeal.Shape.pool
          (rows3 (feat2 (feat1 (L0 m c main_arg0) (L0 m c main_arg1) (L0 m c main_arg3) (L0 m c main_arg4) (L0 m c main_arg5))
              (L0 m c main_arg1) (L0 m c main_arg6) (L0 m c main_arg7) (L0 m c main_arg8))
            (L0 m c main_arg1) (L0 m c main_arg9) (L0 m c main_arg10) (L0 m c main_arg11))
          (L0 m c main_arg2) := by
  refine arr2_eq (V5 m ρ) c _ _ _ _ _ _ ?_ ((W5_keep m ρ c main_v28 (by decide)).trans (feat2_K m ρ c))
    (W5_launch m ρ c main_arg9 (by decide) (by decide) (by decide) (by decide) (by decide))
    (W5_launch m ρ c main_arg11 (by decide) (by decide) (by decide) (by decide) (by decide)) ?_ ?_
  · rw [show V5 m ρ c main_v39 = W5 m ρ c (Proc.devRef .tc main_v39) from rfl, W5_agg, feat2_K, W4_src, W4_dst]
    exact kagg3_eq _ _
  · rw [show V5 m ρ c main_v40 = W5 m ρ c (Proc.devRef .tc main_v40) from rfl, W5_bias,
      W4_launch m ρ c main_arg10 (by decide) (by decide) (by decide) (by decide)]
  · rw [show V5 m ρ c main_v47 = W5 m ρ c (Proc.devRef .tc main_v47) from rfl, W5_onehot,
      W4_launch m ρ c main_arg2 (by decide) (by decide) (by decide) (by decide)]

/-- THE KERNEL'S RESULT: the result buffer ends at the reference's function of the twelve launched argument arrays. -/
theorem result_K (c : Dev nD) :
    W9 m ρ c (Proc.devRef .tc main_v62)
      = resultOf (L0 m c main_arg0) (L0 m c main_arg1) (L0 m c main_arg2) (L0 m c main_arg3) (L0 m c main_arg4) (L0 m c main_arg5)
          (L0 m c main_arg6) (L0 m c main_arg7) (L0 m c main_arg8) (L0 m c main_arg9) (L0 m c main_arg10) (L0 m c main_arg11) := by
  rw [W9_readout, pool_K, kreadout_eq]
  rfl

/-- The run at the exact instance: the result buffer at the reference's function of the arguments, the arguments as launched. -/
theorem run_value : θ_run defs (onTc (τ := τ) (main (F := Ideal))) ⟨m, fun _ => 0, ρ⟩ (fun r => ∀ c : Dev nD,
      r.2.mem ((c.tc : Thread nD τ).loc main_v62)
        = resultOf (L0 m c main_arg0) (L0 m c main_arg1) (L0 m c main_arg2) (L0 m c main_arg3) (L0 m c main_arg4) (L0 m c main_arg5)
            (L0 m c main_arg6) (L0 m c main_arg7) (L0 m c main_arg8) (L0 m c main_arg9) (L0 m c main_arg10) (L0 m c main_arg11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_v62 (by decide))).trans (result_K m ρ c),
    (h c _ (mem_uc main_arg0 (by decide))).trans (W9_main_arg0 m ρ c),
    (h c _ (mem_uc main_arg1 (by decide))).trans (W9_main_arg1 m ρ c),
    (h c _ (mem_uc main_arg2 (by decide))).trans (W9_main_arg2 m ρ c),
    (h c _ (mem_uc main_arg3 (by decide))).trans (W9_main_arg3 m ρ c),
    (h c _ (mem_uc main_arg4 (by decide))).trans (W9_main_arg4 m ρ c),
    (h c _ (mem_uc main_arg5 (by decide))).trans (W9_main_arg5 m ρ c),
    (h c _ (mem_uc main_arg6 (by decide))).trans (W9_main_arg6 m ρ c),
    (h c _ (mem_uc main_arg7 (by decide))).trans (W9_main_arg7 m ρ c),
    (h c _ (mem_uc main_arg8 (by decide))).trans (W9_main_arg8 m ρ c),
    (h c _ (mem_uc main_arg9 (by decide))).trans (W9_main_arg9 m ρ c),
    (h c _ (mem_uc main_arg10 (by decide))).trans (W9_main_arg10 m ρ c),
    (h c _ (mem_uc main_arg11 (by decide))).trans (W9_main_arg11 m ρ c)⟩) (run_all m ρ)

end Exact

end Cert.KernelIdeal.Hand

end
-- ==== Proof.lean ====
/-
  The certificate of the fused GraphConv stack with pooled read-out against its jnp reference, over the extended reals.

  The kernel program computes three GraphConv layers — each the host's neighbour aggregation followed by a kernel
  region that applies `aggregate · W_rel + features · W_root + bias` (with `max(·, 0)` after the first two) to blocks
  of 2000 node rows — and, in the third region, adds the layer's rows graph by graph through a one-hot matrix product
  accumulated over the fifty blocks; the host then divides by the graphs' node counts and by the rows' Euclidean
  lengths. The reference computes the same layers with whole-array matrix products and adds the rows graph by graph
  with an accumulating scatter.

  Frames: each program runs to the end, faults nowhere and leaves its twelve argument arrays as launched — for the two
  kernel programs by the run of their three regions among the host operations (no item writes an argument), for the
  reference by its run. The idealization rewrote nothing, so the kernel's idealized program is its own text read over
  the extended reals. Equivalence: at the exact instance the kernel program's result buffer ends at the reference's
  function of the twelve arguments — a sum of products grouped by blocks of rows is the whole sum, the bias may be
  added before or after the second product, a change of float format is the identity, and the product with a one-hot
  column adds exactly the rows of that graph, zero times any extended real being zero — and the reference's run ends at
  the same function of arguments that agree.
-/
import proofs.«415884_j3539053052569_2_alg».proof.Defs
import proofs.«415884_j3539053052569_2_alg».proof.Proof.Gen.Kernel
import proofs.«415884_j3539053052569_2_alg».proof.Proof.Gen.KernelIdeal
import proofs.«415884_j3539053052569_2_alg».proof.Proof.Gen.ReferenceIdeal
import proofs.«415884_j3539053052569_2_alg».proof.Proof.Gen.Pre_finite_inputs
import proofs.«415884_j3539053052569_2_alg».proof.Proof.Gen.ReferenceIdeal.Run
import proofs.«415884_j3539053052569_2_alg».proof.Proof.Gen.ReferenceIdeal.Read
import proofs.«415884_j3539053052569_2_alg».proof.Proof.Kernel.FrFrame
import proofs.«415884_j3539053052569_2_alg».proof.Proof.KernelIdeal.FrFrame
import proofs.«415884_j3539053052569_2_alg».proof.Proof.KRun
import proofs.«415884_j3539053052569_2_alg».proof.Proof.RefResult
import Idealize.ShloMosaic.Adequacy
import Idealize.ShloMosaic.Init

noncomputable section

namespace Cert.Proof

open Idealize.ShloMosaic Idealize.SL.Sem

/-- The word-level kernel program runs and leaves its arguments as launched. -/
theorem frame_k [Cert.Kernel.Facts] [Cert.Pre_finite_inputs.Facts] : Cert.frame_Kernel :=
  fun m ρ _ => Cert.Kernel.Hand.frame (F := Bits) m ρ

/-- So does the same program read over the extended reals. -/
theorem frame_ki [Cert.KernelIdeal.Facts] [Cert.Pre_finite_inputs.Facts] : Cert.frame_KernelIdeal :=
  fun m ρ _ => Cert.KernelIdeal.Hand.frame (F := Ideal) m ρ

/-- The reference's frame is its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- The kernel program's result buffer on core `c`: the reference's function of the twelve launched argument arrays. -/
abbrev resK (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v62) :=
  Cert.ReferenceIdeal.Shape.resultOf (Cert.KernelIdeal.Hand.L0 m c Cert.KernelIdeal.main_arg0) (Cert.KernelIdeal.Hand.L0 m c Cert.KernelIdeal.main_arg1) (Cert.KernelIdeal.Hand.L0 m c Cert.KernelIdeal.main_arg2) (Cert.KernelIdeal.Hand.L0 m c Cert.KernelIdeal.main_arg3) (Cert.KernelIdeal.Hand.L0 m c Cert.KernelIdeal.main_arg4) (Cert.KernelIdeal.Hand.L0 m c Cert.KernelIdeal.main_arg5) (Cert.KernelIdeal.Hand.L0 m c Cert.KernelIdeal.main_arg6) (Cert.KernelIdeal.Hand.L0 m c Cert.KernelIdeal.main_arg7) (Cert.KernelIdeal.Hand.L0 m c Cert.KernelIdeal.main_arg8) (Cert.KernelIdeal.Hand.L0 m c Cert.KernelIdeal.main_arg9) (Cert.KernelIdeal.Hand.L0 m c Cert.KernelIdeal.main_arg10) (Cert.KernelIdeal.Hand.L0 m c Cert.KernelIdeal.main_arg11)

set_option maxHeartbeats 4000000 in
/-- The reference's result term of a memory that agrees with the kernel program's on the twelve arguments is that value. -/
theorem ref_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Value.res_main_v70 m' c = resK m c := by
  rw [Cert.ReferenceIdeal.Shape.res_eq_resultOf]
  unfold Cert.ReferenceIdeal.Shape.a0 Cert.ReferenceIdeal.Shape.a1 Cert.ReferenceIdeal.Shape.a2 Cert.ReferenceIdeal.Shape.a3 Cert.ReferenceIdeal.Shape.a4 Cert.ReferenceIdeal.Shape.a5 Cert.ReferenceIdeal.Shape.a6 Cert.ReferenceIdeal.Shape.a7 Cert.ReferenceIdeal.Shape.a8 Cert.ReferenceIdeal.Shape.a9 Cert.ReferenceIdeal.Shape.a10 Cert.ReferenceIdeal.Shape.a11
  rw [e0, e1, e2, e3, e4, e5, e6, e7, e8, e9, e10, e11]

set_option maxHeartbeats 4000000 in
/-- From memories agreeing on the arguments both programs end with the result at the reference's function of the
    arguments: the kernel program by its run read back (`run_value`), the reference by its run and `ref_eq`. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨resK m, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  exact ref_eq m m' c e0 e1 e2 e3 e4 e5 e6 e7 e8 e9 e10 e11

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
